-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x2048 : Shape := ⟨3, ![1, 1, 2048]⟩
abbrev S50257x2048 : Shape := ⟨2, ![50257, 2048]⟩
abbrev S6144x2048 : Shape := ⟨2, ![6144, 2048]⟩
abbrev S6144 : Shape := ⟨1, ![6144]⟩
abbrev S_ : Shape := ⟨0, ![]⟩

class Facts : Prop where
  bcast_S_S1x1x2048 : S_.BroadcastsInDim S1x1x2048 (![] : Fin 0 → Fin S1x1x2048.rank)
  reducesTo_S1x1x2048_S_d0_1_2 : S1x1x2048.ReducesTo [0, 1, 2] S_
  h_S_ : 0 < S_.numel
  bcast_S_S50257x2048 : S_.BroadcastsInDim S50257x2048 (![] : Fin 0 → Fin S50257x2048.rank)
  reducesTo_S50257x2048_S_d0_1 : S50257x2048.ReducesTo [0, 1] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg0 : IVec S1 32) (main_v32 : IVec S_ 1) (main_c_12 : IVec S_ 32) : IVec S_ 1 :=
  let main_v33 : IVec S1 32 := broadcastInDim S1 ![] bcast_S_S1 main_c_12
  let main_v34 : IVec S1 1 := cmpi .slt main_arg0 main_v33
  let main_c_13 : IVec S_ 1 := constantI S_ 1 1#1
  let main_v35 : IVec S_ 1 := (fun x v => Host.reduce IntOp.andi x v reducesTo_S1_S_d0 h_S_) main_v34 main_c_13
  let main_v36 : IVec S_ 1 := andi main_v32 main_v35
  main_v36

def fn_part1 {F : FTy → Type} [FloatOps F] (main_arg0 : IVec S1 32) (main_arg5 : FVec F S6144 .f32) (main_arg6 : FVec F S6144 .f32) (main_v13 : IVec S_ 1) (main_v16 : IVec S6144x2048 1) : IVec S_ 1 :=
  let main_c_5 : IVec S_ 1 := constantI S_ 1 1#1
  let main_v17 : IVec S_ 1 := (fun x v => Host.reduce IntOp.andi x v reducesTo_S6144x2048_S_d0_1 h_S_) main_v16 main_c_5
  let main_v18 : IVec S_ 1 := andi main_v13 main_v17
  let main_v19 : FVec F S6144 .f32 := Host.absf main_arg5
  let main_cst_6 : FVec F S_ .f32 := constant S_ .f32 0x7F800000#32
  let main_v20 : FVec F S6144 .f32 := broadcastInDim S6144 ![] bcast_S_S6144 main_cst_6
  let main_v21 : IVec S6144 1 := cmpf .olt main_v19 main_v20
  let main_c_7 : IVec S_ 1 := constantI S_ 1 1#1
  let main_v22 : IVec S_ 1 := (fun x v => Host.reduce IntOp.andi x v reducesTo_S6144_S_d0 h_S_) main_v21 main_c_7
  let main_v23 : IVec S_ 1 := andi main_v18 main_v22
  let main_v24 : FVec F S6144 .f32 := Host.absf main_arg6
  let main_cst_8 : FVec F S_ .f32 := constant S_ .f32 0x7F800000#32
  let main_v25 : FVec F S6144 .f32 := broadcastInDim S6144 ![] bcast_S_S6144 main_cst_8
  let main_v26 : IVec S6144 1 := cmpf .olt main_v24 main_v25
  let main_c_9 : IVec S_ 1 := constantI S_ 1 1#1
  let main_v27 : IVec S_ 1 := (fun x v => Host.reduce IntOp.andi x v reducesTo_S6144_S_d0 h_S_) main_v26 main_c_9
  let main_v28 : IVec S_ 1 := andi main_v23 main_v27
  let main_c_10 : IVec S_ 32 := constantI S_ 32 0#32
  let main_v29 : IVec S1 32 := broadcastInDim S1 ![] bcast_S_S1 main_c_10
  let main_v30 : IVec S1 1 := cmpi .sge main_arg0 main_v29
  let main_c_11 : IVec S_ 1 := constantI S_ 1 1#1
  let main_v31 : IVec S_ 1 := (fun x v => Host.reduce IntOp.andi x v reducesTo_S1_S_d0 h_S_) main_v30 main_c_11
  let main_v32 : IVec S_ 1 := andi main_v28 main_v31
  let main_c_12 : IVec S_ 32 := constantI S_ 32 50257#32
  fn_part2 (F := F) main_arg0 main_v32 main_c_12

def fn {F : FTy → Type} [FloatOps F] (main_arg0 : IVec S1 32) (main_arg1 : FVec F S1x1x2048 .f32) (main_arg2 : FVec F S50257x2048 .f32) (main_arg3 : FVec F S6144x2048 .f32) (main_arg4 : FVec F S6144x2048 .f32) (main_arg5 : FVec F S6144 .f32) (main_arg6 : FVec F S6144 .f32) : IVec S_ 1 :=
  let main_v0 : FVec F S1x1x2048 .f32 := Host.absf main_arg1
  let main_cst : FVec F S_ .f32 := constant S_ .f32 0x7F800000#32
  let main_v1 : FVec F S1x1x2048 .f32 := broadcastInDim S1x1x2048 ![] bcast_S_S1x1x2048 main_cst
  let main_v2 : IVec S1x1x2048 1 := cmpf .olt main_v0 main_v1
  let main_c : IVec S_ 1 := constantI S_ 1 1#1
  let main_v3 : IVec S_ 1 := (fun x v => Host.reduce IntOp.andi x v reducesTo_S1x1x2048_S_d0_1_2 h_S_) main_v2 main_c
  let main_v4 : FVec F S50257x2048 .f32 := Host.absf main_arg2
  let main_cst_0 : FVec F S_ .f32 := constant S_ .f32 0x7F800000#32
  let main_v5 : FVec F S50257x2048 .f32 := broadcastInDim S50257x2048 ![] bcast_S_S50257x2048 main_cst_0
  let main_v6 : IVec S50257x2048 1 := cmpf .olt main_v4 main_v5
  let main_c_1 : IVec S_ 1 := constantI S_ 1 1#1
  let main_v7 : IVec S_ 1 := (fun x v => Host.reduce IntOp.andi x v reducesTo_S50257x2048_S_d0_1 h_S_) main_v6 main_c_1
  let main_v8 : IVec S_ 1 := andi main_v3 main_v7
  let main_v9 : FVec F S6144x2048 .f32 := Host.absf main_arg3
  let main_cst_2 : FVec F S_ .f32 := constant S_ .f32 0x7F800000#32
  let main_v10 : FVec F S6144x2048 .f32 := broadcastInDim S6144x2048 ![] bcast_S_S6144x2048 main_cst_2
  let main_v11 : IVec S6144x2048 1 := cmpf .olt main_v9 main_v10
  let main_c_3 : IVec S_ 1 := constantI S_ 1 1#1
  let main_v12 : IVec S_ 1 := (fun x v => Host.reduce IntOp.andi x v reducesTo_S6144x2048_S_d0_1 h_S_) main_v11 main_c_3
  let main_v13 : IVec S_ 1 := andi main_v8 main_v12
  let main_v14 : FVec F S6144x2048 .f32 := Host.absf main_arg4
  let main_cst_4 : FVec F S_ .f32 := constant S_ .f32 0x7F800000#32
  let main_v15 : FVec F S6144x2048 .f32 := broadcastInDim S6144x2048 ![] bcast_S_S6144x2048 main_cst_4
  let main_v16 : IVec S6144x2048 1 := cmpf .olt main_v14 main_v15
  fn_part1 (F := F) main_arg0 main_arg5 main_arg6 main_v13 main_v16
-- ==== Kernel.lean ====
abbrev S1 : Shape := ⟨1, ![1]⟩
abbrev S1x1x2048 : Shape := ⟨3, ![1, 1, 2048]⟩
abbrev S50257x2048 : Shape := ⟨2, ![50257, 2048]⟩
abbrev S6144x2048 : Shape := ⟨2, ![6144, 2048]⟩
abbrev S6144 : Shape := ⟨1, ![6144]⟩
abbrev S_ : Shape := ⟨0, ![]⟩
abbrev S50257x1x2048 : Shape := ⟨3, ![50257, 1, 2048]⟩
abbrev S1x2048 : Shape := ⟨2, ![1, 2048]⟩
abbrev S3x2048x2048 : Shape := ⟨3, ![3, 2048, 2048]⟩
abbrev S3x2048 : Shape := ⟨2, ![3, 2048]⟩
abbrev S3x256x2048 : Shape := ⟨3, ![3, 256, 2048]⟩
abbrev S3x256 : Shape := ⟨2, ![3, 256]⟩
abbrev S1x1x256 : Shape := ⟨3, ![1, 1, 256]⟩
abbrev S1x256x2048 : Shape := ⟨3, ![1, 256, 2048]⟩
abbrev S256x2048 : Shape := ⟨2, ![256, 2048]⟩
abbrev S1x256 : Shape := ⟨2, ![1, 256]⟩

abbrev nBuf : Space → Nat
  | .hbm => 22
  | .vmem => 13
  | .smem => 1
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S50257x2048, .f32⟩
  | .hbm, ⟨3, _⟩ => ⟨S6144x2048, .f32⟩
  | .hbm, ⟨4, _⟩ => ⟨S6144x2048, .f32⟩
  | .hbm, ⟨5, _⟩ => ⟨S6144, .f32⟩
  | .hbm, ⟨6, _⟩ => ⟨S6144, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S50257x1x2048, .f32⟩
  | .hbm, ⟨15, _⟩ => ⟨S1x2048, .f32⟩
  | .hbm, ⟨16, _⟩ => ⟨S1x2048, .f32⟩
  | .hbm, ⟨17, _⟩ => ⟨S3x2048x2048, .f32⟩
  | .hbm, ⟨18, _⟩ => ⟨S3x2048x2048, .f32⟩
  | .hbm, ⟨19, _⟩ => ⟨S3x2048, .f32⟩
  | .hbm, ⟨20, _⟩ => ⟨S3x2048, .f32⟩
  | .hbm, ⟨21, _⟩ => ⟨S1x1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S3x256x2048, .f32⟩
  | .local _ .vmem, ⟨4, _⟩ => ⟨S3x256x2048, .f32⟩
  | .local _ .vmem, ⟨5, _⟩ => ⟨S3x256x2048, .f32⟩
  | .local _ .vmem, ⟨6, _⟩ => ⟨S3x256x2048, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S1x1x256, .f32⟩
  | .local _ .vmem, ⟨12, _⟩ => ⟨S1x1x256, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v0 : Ref sig .tc := ⟨.smem, 0, rfl⟩
abbrev cc0_stg0_0 : Ref sig .tc := ⟨.vmem, 0, rfl⟩
abbrev cc1_stg0_0 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc0_sem0_0 : DmaSem sig := 0
abbrev cc1_sem0_0 : DmaSem sig := 2
abbrev cc1_sem1_0 : DmaSem sig := 3
abbrev cc1_sem2_0 : DmaSem sig := 4
abbrev cc1_sem2_1 : DmaSem sig := 5
abbrev cc1_sem3_0 : DmaSem sig := 6
abbrev cc1_sem3_1 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 3 → Nat :=
  let c0_i32 : BitVec 32 := 0#32
  let c0_i32_0 : BitVec 32 := 0#32
  ![v0.toNat, 0, 0]

def k0_chk1 (v0 : BitVec 32) : Prop :=
  (∀ a, (k0_off1 v0) a + S1x1x2048.size a ≤ S50257x1x2048.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x1x2048.size a ≤ S50257x1x2048.size a := fun v0 k0_hw1 => k0_hw1

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev grid1 : Pipeline.Grid := ⟨1, ![8], ![false]⟩

def k1_mult1 (i : grid1.Coords) : BitVec 32 :=
  let arg0 : BitVec 32 := BitVec.ofNat 32 (i 0).val
  let c256_i32 : BitVec 32 := 256#32
  let v0 : BitVec 32 := Scalar.muli arg0 c256_i32
  v0
def k1_off1 (i : grid1.Coords) : Fin 2 → Nat :=
  let c0_18 : Index := 0#32
  let arg0 : BitVec 32 := BitVec.ofNat 32 (i 0).val
  let c256_i32 : BitVec 32 := 256#32
  let v0 : BitVec 32 := Scalar.muli arg0 c256_i32
  let v1 : BitVec 32 := v0
  let v55 : Index := Scalar.indexCast v1
  ![0, v55.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1 : S_.BroadcastsInDim S1 (![] : Fin 0 → Fin S1.rank)
  shapeCasts_S50257x2048_S50257x1x2048 : S50257x2048.ShapeCasts S50257x1x2048
  inb_S1_S1_0 : ∀ a, (![0] : Fin 1 → Nat) a + S1.size a ≤ S1.size a
  numel1_S1 : S1.numel = 1
  squeezes_S1x1x2048_S1x2048 : S1x1x2048.Squeezes S1x2048
  shapeCasts_S1x1x2048_S1x2048 : S1x1x2048.ShapeCasts S1x2048
  shapeCasts_S6144x2048_S3x2048x2048 : S6144x2048.ShapeCasts S3x2048x2048
  shapeCasts_S6144_S3x2048 : S6144.ShapeCasts S3x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  bitsLt_bf16_f32 : FTy.bits .bf16 < FTy.bits .f32
  inb_S3x256x2048_S3x256x2048_0_0_0 : ∀ a, (![0, 0, 0] : Fin 3 → Nat) a + S3x256x2048.size a ≤ S3x256x2048.size a
  h_S3x256x2048 : 0 < S3x256x2048.numel
  shapeCasts_S3x256x2048_S3x256x2048 : S3x256x2048.ShapeCasts S3x256x2048
  inb_S3x256_S3x256_0_0 : ∀ a, (![0, 0] : Fin 2 → Nat) a + S3x256.size a ≤ S3x256.size a
  h_S3x256 : 0 < S3x256.numel
  shapeCasts_S3x256_S3x256 : S3x256.ShapeCasts S3x256
  slices_S3x256x2048_o0_0_0_S1x256x2048 : S3x256x2048.Slices ![0, 0, 0] S1x256x2048
  shapeCasts_S1x256x2048_S256x2048 : S1x256x2048.ShapeCasts S256x2048
  slices_S3x256_o0_0_S1x256 : S3x256.Slices ![0, 0] S1x256
  slices_S3x256x2048_o1_0_0_S1x256x2048 : S3x256x2048.Slices ![1, 0, 0] S1x256x2048
  slices_S3x256_o1_0_S1x256 : S3x256.Slices ![1, 0] S1x256
  slices_S3x256x2048_o2_0_0_S1x256x2048 : S3x256x2048.Slices ![2, 0, 0] S1x256x2048
  slices_S3x256_o2_0_S1x256 : S3x256.Slices ![2, 0] S1x256
  h_S1x256 : 0 < S1x256.numel
  shapeCasts_S1x256_S1x256 : S1x256.ShapeCasts S1x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  dot_S1x2048_S256x2048_S1x256_1_1_0_0_n_n_wf : DotDims.WF S1x2048 S256x2048 S1x256 [1] [1] [0] [0] [] []
  hcc0_scratch0 : 1 + S_.numel ≤ 14
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S1x2048.size a ≤ S1x2048.size a
  hwx0_0 : ∀ i : grid0.Coords, EltTy.bits .f32 = 32 ∨ (Rect.block (s := S1x2048) S1x2048.size (cc0_transform_1 i) (hinb0_0 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S1x256.size a ≤ S1x2048.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x2048.size a
  hwx1_0 : ∀ i : grid1.Coords, EltTy.bits .f32 = 32 ∨ (Rect.block (s := S1x2048) S1x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x256x2048.size a ≤ S3x2048x2048.size a
  hwx1_2 : ∀ i : grid1.Coords, EltTy.bits .f32 = 32 ∨ (Rect.block (s := S3x2048x2048) S3x256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3x256x2048.size a ≤ S3x2048x2048.size a
  hwx1_3 : ∀ i : grid1.Coords, EltTy.bits .f32 = 32 ∨ (Rect.block (s := S3x2048x2048) S3x256x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3x256.size a ≤ S3x2048.size a
  hwx1_4 : ∀ i : grid1.Coords, EltTy.bits .f32 = 32 ∨ (Rect.block (s := S3x2048) S3x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3x256.size a ≤ S3x2048.size a
  hwx1_5 : ∀ i : grid1.Coords, EltTy.bits .f32 = 32 ∨ (Rect.block (s := S3x2048) S3x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x256.size a ≤ S1x1x2048.size a
  hwx1_6 : ∀ i : grid1.Coords, EltTy.bits .f32 = 32 ∨ (Rect.block (s := S1x1x2048) S1x1x256.size (cc1_transform_6 i) (hinb1_6 i)).WholeWords (EltTy.packing .f32)

variable [Facts₀]

abbrev cc0_scratch0 : DmaSems sig S_ := SemArray.consecutive 1 S_ hcc0_scratch0
def dot_S1x2048_S256x2048_S1x256_1_1_0_0_n_n : DotDims S1x2048 S256x2048 S1x256 where
  lhsContracting := [1]
  rhsContracting := [1]
  lhsNonContracting := [0]
  rhsNonContracting := [0]
  lhsBatch := []
  rhsBatch := []
  wf := dot_S1x2048_S256x2048_S1x256_1_1_0_0_n_n_wf

abbrev spec0_0 : Pipeline.WinSpec sig grid0.rank :=
  Pipeline.WinSpec.ofSpec (Memref.whole main_v2) S1x2048.size reads0_0 true true 1 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev win1_0 : Pipeline.Window sig grid1 :=
  Pipeline.Window.ofSpec (Memref.whole main_v2) S1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S3x256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S3x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S3x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S3x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x1x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where
  harr0 : ∀ w, (spec0 w).arr.IsWhole

variable [Facts]
-- ==== ReferenceIdeal.lean ====
abbrev S1 : Shape := ⟨1, ![1]⟩
abbrev S1x1x2048 : Shape := ⟨3, ![1, 1, 2048]⟩
abbrev S50257x2048 : Shape := ⟨2, ![50257, 2048]⟩
abbrev S6144x2048 : Shape := ⟨2, ![6144, 2048]⟩
abbrev S6144 : Shape := ⟨1, ![6144]⟩
abbrev S_ : Shape := ⟨0, ![]⟩
abbrev S1x1 : Shape := ⟨2, ![1, 1]⟩
abbrev S1x2048 : Shape := ⟨2, ![1, 2048]⟩
abbrev S2048x6144 : Shape := ⟨2, ![2048, 6144]⟩
abbrev S1x6144 : Shape := ⟨2, ![1, 6144]⟩

abbrev nBuf : Space → Nat
  | .hbm => 60
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S50257x2048, .f32⟩
  | .hbm, ⟨3, _⟩ => ⟨S6144x2048, .f32⟩
  | .hbm, ⟨4, _⟩ => ⟨S6144x2048, .f32⟩
  | .hbm, ⟨5, _⟩ => ⟨S6144, .f32⟩
  | .hbm, ⟨6, _⟩ => ⟨S6144, .f32⟩
  | .hbm, ⟨7, _⟩ => ⟨S_, .i32⟩
  | .hbm, ⟨8, _⟩ => ⟨S1, .i32⟩
  | .hbm, ⟨9, _⟩ => ⟨S1, .i1⟩
  | .hbm, ⟨10, _⟩ => ⟨S_, .i32⟩
  | .hbm, ⟨11, _⟩ => ⟨S1, .i32⟩
  | .hbm, ⟨12, _⟩ => ⟨S1, .i32⟩
  | .hbm, ⟨13, _⟩ => ⟨S1, .i32⟩
  | .hbm, ⟨14, _⟩ => ⟨S1x1, .i32⟩
  | .hbm, ⟨15, _⟩ => ⟨S1x2048, .f32⟩
  | .hbm, ⟨16, _⟩ => ⟨S1x2048, .f32⟩
  | .hbm, ⟨17, _⟩ => ⟨S2048x6144, .f32⟩
  | .hbm, ⟨18, _⟩ => ⟨S1x6144, .f32⟩
  | .hbm, ⟨19, _⟩ => ⟨S1x6144, .f32⟩
  | .hbm, ⟨20, _⟩ => ⟨S1x6144, .f32⟩
  | .hbm, ⟨21, _⟩ => ⟨S2048x6144, .f32⟩
  | .hbm, ⟨22, _⟩ => ⟨S1x6144, .f32⟩
  | .hbm, ⟨23, _⟩ => ⟨S1x6144, .f32⟩
  | .hbm, ⟨24, _⟩ => ⟨S1x6144, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | .hbm, ⟨37, _⟩ => ⟨S_, .f32⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S_, .f32⟩
  | .hbm, ⟨44, _⟩ => ⟨S1x2048, .f32⟩
  | .hbm, ⟨45, _⟩ => ⟨S1x2048, .f32⟩
  | .hbm, ⟨46, _⟩ => ⟨S_, .f32⟩
  | .hbm, ⟨47, _⟩ => ⟨S1x2048, .f32⟩
  | .hbm, ⟨48, _⟩ => ⟨S1x2048, .f32⟩
  | .hbm, ⟨49, _⟩ => ⟨S1x2048, .f32⟩
  | .hbm, ⟨50, _⟩ => ⟨S1x2048, .f32⟩
  | .hbm, ⟨51, _⟩ => ⟨S1x2048, .f32⟩
  | .hbm, ⟨52, _⟩ => ⟨S_, .f32⟩
  | .hbm, ⟨53, _⟩ => ⟨S1x2048, .f32⟩
  | .hbm, ⟨54, _⟩ => ⟨S1x2048, .f32⟩
  | .hbm, ⟨55, _⟩ => ⟨S1x2048, .f32⟩
  | .hbm, ⟨56, _⟩ => ⟨S1x2048, .f32⟩
  | .hbm, ⟨57, _⟩ => ⟨S1x2048, .f32⟩
  | .hbm, ⟨58, _⟩ => ⟨S1x1x2048, .f32⟩
  | .hbm, ⟨59, _⟩ => ⟨S1x1x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x2048_S1x2048 : S1x1x2048.ShapeCasts S1x2048
  transposes_S6144x2048_S2048x6144_1_0 : S6144x2048.Transposes [1, 0] S2048x6144
  bcast_S6144_S1x6144_1 : S6144.BroadcastsInDim S1x6144 (![1] : Fin 1 → Fin S1x6144.rank)
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  bcast_S_S1x2048 : S_.BroadcastsInDim S1x2048 (![] : Fin 0 → Fin S1x2048.rank)
  bcast_S1x2048_S1x1x2048_1_2 : S1x2048.BroadcastsInDim S1x1x2048 (![1, 2] : Fin 2 → Fin S1x1x2048.rank)
  gather_S50257x2048_S1x1_S1x2048_1_0_n_n_0_1_12048_wf : GatherDims.WF S50257x2048 S1x1 S1x2048 [1] [0] [] [0] [] 1 ![1, 2048]
  dot_S1x2048_S2048x6144_S1x6144_1_0_0_1_n_n_wf : DotDims.WF S1x2048 S2048x6144 S1x6144 [1] [0] [0] [1] [] []

variable [Facts₀]

def gather_S50257x2048_S1x1_S1x2048_1_0_n_n_0_1_12048 : GatherDims S50257x2048 S1x1 S1x2048 where
  offsetDims := [1]
  collapsedSliceDims := [0]
  operandBatchingDims := []
  startIndicesBatchingDims := []
  startIndexMap := [0]
  indexVectorDim := 1
  sliceSizes := ![1, 2048]
  wf := gather_S50257x2048_S1x1_S1x2048_1_0_n_n_0_1_12048_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf

class Facts : Prop extends Facts₀ where

variable [Facts]
-- ==== Proof.KRegion0.lean ====
/-
  REGION 0: the gather kernel.  One grid point.  The body loads the one word of the prefetched table (the clipped
  index, in scalar memory), uses it as the row offset of a one-row slice of the embedding table left in HBM, starts
  the copy of that row into the output window's staging buffer and waits for it.  Stated for any float family, at the
  contents `V` the region finds and the table's contents `tb`: what the body leaves in the staging buffer, the region
  invariant (the scoped rest, the generator register, the copy's semaphore at zero, the embedding table and the
  prefetched table as found), the proof data and the body obligation.
-/
import proofs.«421312_j764504178844_2_alg».proof.Proof.Gen.Kernel.Launch
import proofs.«421312_j764504178844_2_alg».proof.Proof.Gen.Kernel.Skeleton
import proofs.«421312_j764504178844_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The prefetched table as the body is handed it, and the embedding table left in HBM. -/
abbrev tbM0 : Memref sig .tc .smem S1 .i32 := Memref.whole main_v0
abbrev hbM0 : Memref sig .tc .hbm S50257x1x2048 .f32 := Memref.whole main_v1
abbrev TbBuf0 (c : Dev nD) : Type := Buf (Elt F) (tbM0.view.loc (c : Thread nD τ))
abbrev tbPt0 (c : Dev nD) (f : TbBuf0 (F := F) c) : sProp 𝕄 := tbM0.view.loc (c : Thread nD τ) ↦{fullShare} f
abbrev HbBuf0 (c : Dev nD) : Type := Buf (Elt F) (hbM0.view.loc (c : Thread nD τ))
abbrev hbPt0 (c : Dev nD) (f : HbBuf0 (F := F) c) : sProp 𝕄 := hbM0.view.loc (c : Thread nD τ) ↦{fullShare} f
/-- The word the body loads from the table. -/
abbrev word0 (c : Dev nD) (xt : TbBuf0 (F := F) c) : Elt F .i32 :=
  tbM0.view.readAt (Elt F) (Rect.unit (s := S1) ![0] S1.size inb_S1_S1_0).toLoadRect xt (Shape.Idx.first (numel1_S1.symm ▸ Nat.one_pos))

/-- The body's own DMA semaphore. -/
abbrev osem0 : Fin 1 → SemLoc sig := fun j => (![SemLoc.dma 1] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0) := by
  rw [Pipeline.ownSems0_eq_of_list c osem0 [0] (by decide) (by decide)]; rfl
/-- The HBM operand the body copies from. -/
def H0 : Finset (Ref sig .tc) := {main_v1}

set_option maxHeartbeats 1000000 in
/-- The body's run: from the staging buffer at anything, the table at `xt` (whose word names a row of the embedding
    table: `k0_hw1`), the semaphore at zero and the embedding table at `fh`, to the staging buffer holding the pieces
    the copy delivered, everything else as it was. -/
noncomputable def kernelRun0 (c : Dev nD) (i : grid0.Coords) (arg3 : Memref sig .tc .vmem S1x2048 .f32) (harg3 : arg3.IsWhole)
    (xt : TbBuf0 (F := F) c) (fh : HbBuf0 (F := F) c) (k0_hw1 : k0_chk1 (word0 c xt)) :
    { L : List (View.Piece (Elt F) S1x2048 .f32) //
      ∀ (W : Waits sig Unit) (K : PUnit → sProp 𝕄),
        iprop((∃ d, owns (c : Thread nD τ) arg3 fullShare d) ∗ tbPt0 c xt ∗ semVal ((c : Thread nD τ), SemLoc.dma 1) 0 ∗ hbPt0 c fh ∗ owes (c : Thread nD τ) 0 W
            ∗ (iprop((∃ f, arg3.view.loc (c : Thread nD τ) ↦[arg3.view.set]{fullShare} arg3.view.writes (Elt F) f L) ∗ tbPt0 c xt ∗ semVal ((c : Thread nD τ), SemLoc.dma 1) 0 ∗ hbPt0 c fh ∗ (∃ W', owes (c : Thread nD τ) 0 W')) -∗ K ⟨⟩))
          ⊢ wp frame (wpE (defs₀ (F := F)) Variants.none c none) Set.univ (cc0__gather_kernel i tbM0 (Memref.isWhole_whole _) hbM0 (Memref.isWhole_whole _) arg3 harg3 cc0_scratch0) K } := by
  refine ⟨?_, fun W K => ?run⟩
  case run =>
    simp only [cc0__gather_kernel_eq_skeleton]; unfold cc0__gather_kernel_skel
    unfold owns
    iintro ⟨⟨%d1, %f1, -, H1⟩, HT, Hq0, Hh0, HW, Hk⟩
    sl_exec (disch := first | sl_exact k0_hw1)
    sl_step
    iapply Hk
    isplitl [H1]; · iexists _; iexact H1
    isplitl [HT]; · iexact HT
    isplitl [Hq0]; · iexact Hq0
    isplitl [Hh0]; · iexact Hh0
    iexists _; iexact HW

/-- The copy delivers the whole staging buffer. -/
theorem cover0 (c : Dev nD) (i : grid0.Coords) (arg3 : Memref sig .tc .vmem S1x2048 .f32) (harg3 : arg3.IsWhole)
    (xt : TbBuf0 (F := F) c) (fh : HbBuf0 (F := F) c) (k0_hw1 : k0_chk1 (word0 c xt)) (y : S1x2048.Idx) :
    ∃ pc ∈ (kernelRun0 c i arg3 harg3 xt fh k0_hw1).1, y ∈ pc.1.set :=
  View.cover_of_tiledL (kernelRun0 c i arg3 harg3 xt fh k0_hw1).1 S1x2048.size (by sl_kernel_rfl) y

/-- One staging buffer of the output window, through which its contents are stated. -/
abbrev VO0 : View sig .tc .vmem S1x2048 .f32 := (Memref.whole cc0_stg0_0 : Memref sig .tc .vmem S1x2048 .f32).view

/-- What the run leaves in the output's staging buffer. -/
def out0 (c : Dev nD) (i : grid0.Coords) (arg3 : Memref sig .tc .vmem S1x2048 .f32) (harg3 : arg3.IsWhole)
    (xt : TbBuf0 (F := F) c) (fh : HbBuf0 (F := F) c) (k0_hw1 : k0_chk1 (word0 c xt)) : Vec F S1x2048 .f32 :=
  VO0.read (Elt F) (VO0.writes (Elt F) VO0.junk (kernelRun0 c i arg3 harg3 xt fh k0_hw1).1)

/-! ## The pipeline at the table's contents, its proof data and the body obligation -/

section Data

variable (V : (c : Dev nD) → (b : Ref sig .tc) → Buf (Elt F) ((c : Thread nD τ).loc b))
variable (a0 : (pcfg0 (F := F)).Adm)

/-- The output window's current staging memref at point `t`, as the pipeline passes it. -/
abbrev ms0_0 (t : Fin (cfg0 a0).N) : Memref sig .tc .vmem S1x2048 .f32 := spec0_0.stage ((cfg0 a0).slots t 0)
abbrev hs0_0 (t : Fin (cfg0 a0).N) : (ms0_0 a0 t).IsWhole := hstage0_0 (((cfg0 a0).slots t 0).cast nbuf0_0)
/-- The kernel body at point `t`, on what the pipeline calls it with. -/
abbrev bodyAt0 (t : Fin (cfg0 a0).N) : Prog (TpuEff nD τ sig (Elt F) Λ₀ .tc) PUnit :=
  cc0__gather_kernel (grid0.coords t) (Memref.whole main_v0) (Memref.isWhole_whole _) (Memref.whole main_v1) (Memref.isWhole_whole _) (spec0_0.stage ((cfg0 a0).slots t 0)) (hstage0_0 (((cfg0 a0).slots t 0).cast nbuf0_0)) cc0_scratch0

/-- The side condition the body assumes, of the table's word. -/
abbrev Hyp0 (c : Dev nD) : Prop := k0_chk1 (word0 (F := F) c (a0.1 0))

/-- The region invariant: the invariant of a body with a transfer of its own (the scoped rest, the generator register,
    its semaphore at zero, the embedding table as found) beside the prefetched table, whole, as found. -/
def Φ0 (c : Dev nD) : sProp 𝕄 :=
  iprop(Pipeline.ΦD osem0 spec0 H0 V c ∗ Pipeline.prefHeld (Ix := Unit) (Name := ℕ) (U := Pipeline.UD sig nD τ) (Lvl := ℕ) pre0 c (fun _ => fullShare) a0.1)

/-- The proof data of pipeline 0 on core `c`. -/
def dat0 (hH : ∀ c, Hyp0 (F := F) a0 c) (c : Dev nD) : Dat τ (Elt F) Unit ℕ (Pipeline.UD sig nD τ) ℕ (cfg0 a0) c where
  A w := V c (Pipeline.arrRef spec0 w)
  after w t := match w with
    | ⟨0, _⟩ => out0 c (grid0.coords t) (ms0_0 a0 t) (hs0_0 a0 t) (a0.1 0) (V c main_v1) (hH c)
  Φ _ := Φ0 V a0 c
  q _ := fullShare
  owed _ := 0

theorem A_eq0 (hH : ∀ c, Hyp0 (F := F) a0 c) (c : Dev nD) (w : Fin (cfg0 a0).W) : (dat0 V a0 hH c).A w = V c (Pipeline.arrRef spec0 w) := by
  dsimp only [dat0]
theorem after0_0 (hH : ∀ c, Hyp0 (F := F) a0 c) (c : Dev nD) (t : Fin (cfg0 a0).N) :
    (dat0 V a0 hH c).after 0 t = out0 c (grid0.coords t) (ms0_0 a0 t) (hs0_0 a0 t) (a0.1 0) (V c main_v1) (hH c) := by dsimp only [dat0]; try rfl

theorem prefHeld0_eq (c : Dev nD) :
    (Pipeline.prefHeld (Ix := Unit) (Name := ℕ) (U := Pipeline.UD sig nD τ) (Lvl := ℕ) pre0 c (fun _ => fullShare) a0.1 : sProp 𝕄) = tbPt0 c (a0.1 0) := by
  unfold Pipeline.prefHeld
  rw [show (Finset.univ : Finset (Fin 1)) = {(0 : Fin 1)} from by decide, bigSep_singleton]
  rfl
theorem hbmPts0_eq (c : Dev nD) :
    (bigSep H0 (fun b => ((c : Thread nD τ).loc b) ↦{fullShare} V c b) : sProp 𝕄) = iprop(hbPt0 c (V c main_v1)) := by
  rw [BI.bigSep_eq_bigSepL_of_eq [main_v1] (by decide) (by decide)]; rfl

theorem Phi0_eq (c : Dev nD) :
    (Φ0 V a0 c : sProp 𝕄) = iprop((Pipeline.scopedRest (Ix := Unit) (Name := ℕ) (U := Pipeline.UD sig nD τ) (Lvl := ℕ) (Val := Elt F) spec0 c ∗ (∃ r, prngReg c r) ∗ iprop(semVal ((c : Thread nD τ), SemLoc.dma 1) 0) ∗ iprop(hbPt0 c (V c main_v1))) ∗ tbPt0 c (a0.1 0)) := by
  unfold Φ0; rw [Pipeline.ΦD_eq, ownSems00_eq, hbmPts0_eq, prefHeld0_eq]

def bodyPre0 (hH : ∀ c, Hyp0 (F := F) a0 c) (c : Dev nD) (t : Fin (cfg0 a0).N) : sProp 𝕄 :=
  iprop((dat0 V a0 hH c).Φ t.castSucc ∗ (dat0 V a0 hH c).owesAt () t.castSucc
    ∗ (∃ d, owns (c : Thread nD τ) (ms0_0 a0 t) fullShare ((dat0 V a0 hH c).before 0 t d)))

def bodyPost0 (hH : ∀ c, Hyp0 (F := F) a0 c) (c : Dev nD) (t : Fin (cfg0 a0).N) : sProp 𝕄 :=
  iprop((dat0 V a0 hH c).Φ t.succ ∗ (dat0 V a0 hH c).owesAt () t.succ
    ∗ owns (c : Thread nD τ) (ms0_0 a0 t) fullShare ((dat0 V a0 hH c).after 0 t))

theorem sound_body0 (hH : ∀ c, Hyp0 (F := F) a0 c) (c : Dev nD) (t : Fin (cfg0 a0).N) :
    bodyPre0 V a0 hH c t ⊢ wp frame (wpE (defs₀ (F := F)) Variants.none c none) Set.univ (bodyAt0 a0 t) (fun _ => bodyPost0 V a0 hH c t) := by
  unfold bodyPre0 bodyPost0 bodyAt0
  rw [show (dat0 V a0 hH c).Φ t.succ = (dat0 V a0 hH c).Φ t.castSucc from rfl, after0_0]
  rw [show (dat0 V a0 hH c).Φ t.castSucc = Φ0 V a0 c from rfl, Phi0_eq]
  unfold Dat.owesAt Pipeline.owesWithin
  rw [show (dat0 V a0 hH c).owed t.castSucc = 0 from rfl, show (dat0 V a0 hH c).owed t.succ = 0 from rfl]
  unfold out0
  iintro ⟨⟨⟨HR, Hg, Hq0, Hh0⟩, HT⟩, ⟨%W, -, HW⟩, ⟨%d0, H0⟩⟩
  iapply ((kernelRun0 c (grid0.coords t) _ _ (a0.1 0) (V c main_v1) (hH c)).2 W _)
  isplitl [H0]; · iexists _; iexact H0
  isplitl [HT]; · iexact HT
  isplitl [Hq0]; · iexact Hq0
  isplitl [Hh0]; · iexact Hh0
  isplitl [HW]; · iexact HW
  iintro ⟨⟨%e1, H1⟩, HT, Hq0, Hh0, ⟨%W', HW'⟩⟩
  isplitl [HR Hg Hq0 Hh0 HT]
  · isplitl [HR Hg Hq0 Hh0]
    · isplitl [HR]; · iexact HR
      isplitl [Hg]; · iexact Hg
      isplitl [Hq0]; · iexact Hq0
      iexact Hh0
    iexact HT
  isplitl [HW']
  · iexists W'; isplitr; · ipureintro; exact fun _ _ => Or.inl trivial
    iexact HW'
  unfold owns; iexists _; isplitr
  swap; · iexact H1
  ipureintro; exact View.read_writes_of_cover _ _ _ _ _ (cover0 c _ _ _ _ _ _)

theorem body_obligation0 (hH : ∀ c, Hyp0 (F := F) a0 c) (c : Dev nD) :
    BodyObligation (dat0 (F := F) V a0 hH c) (defs₀ (F := F)) Variants.none () Set.univ := fun t => by
  rw [bigSep_W0, bigSep_W0]
  exact sound_body0 V a0 hH c t

end Data

end Cert.Kernel.Hand

end
-- ==== Proof.KRegion1.lean ====
/-
  Region 1 of the program: the gated-recurrent-unit kernel as a pipeline of seven windows
  (six inputs, one output) on a grid of eight column tiles, stated at a parameter `V`, the
  TensorCore's buffer contents when the region is entered, and for every float family.

  The mathematics: at grid point `t` (column tile `i = coords t`) the body reads the six input
  blocks x0 … x5 whole, reads x1 a second time on the columns 256·i … 256·i+255, and overwrites
  the whole output block with one value computed from those reads. So the output's staging
  buffer after the body is a single covering piece, a function of the six blocks and of `i`;
  an input's staging buffer holds its block at every point, whether the pipeline fetched it
  there or not (a block whose index did not move is still the block).
-/
import proofs.«421312_j764504178844_2_alg».proof.Proof.Gen.Kernel.Launch
import proofs.«421312_j764504178844_2_alg».proof.Proof.Gen.Kernel.Skeleton
import proofs.«421312_j764504178844_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, for any proof data whose
    array is `V`'s and whose body leaves the block where it is. Windows 0 and 1 have a constant block
    index (fetched at the first point only), windows 2 to 5 move with the tile (fetched at every point):
    the same argument serves both, an unfetched buffer still holding the block of an unmoved index. -/

theorem before1_0_of {c : Dev nD} (dat : Dat τ (Elt F) Unit ℕ (Pipeline.UD sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  -- the array's block at any point is the block read off `V`
  have hblk : ∀ s : Fin cfg1.N, dat.blockOf 0 s = iblk1 V c 0 s := fun s => by
    unfold Dat.blockOf iblk1; rw [hA]
  -- the body leaves the block in place, so the buffer holds a fetched block whether or not the fetch ran
  have hkeep : ∀ s : Fin cfg1.N, (cfg1.win 0).cut (cfg1.grid.coords s) (dat.after 0 s) = dat.blockOf 0 s := fun s => by
    rw [hafter, hblk]
  rw [dat.before_in_eq_fetched 0 rfl (fun _ => rfl) (fun _ _ _ => rfl) hkeep t d]
  -- an uncut window's fetch fills the whole buffer
  unfold Dat.fetched; rw [hblk]; rfl

theorem before1_1_of {c : Dev nD} (dat : Dat τ (Elt F) Unit ℕ (Pipeline.UD sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  -- the array's block at any point is the block read off `V`
  have hblk : ∀ s : Fin cfg1.N, dat.blockOf 1 s = iblk1 V c 1 s := fun s => by
    unfold Dat.blockOf iblk1; rw [hA]
  -- the body leaves the block in place, so the buffer holds a fetched block whether or not the fetch ran
  have hkeep : ∀ s : Fin cfg1.N, (cfg1.win 1).cut (cfg1.grid.coords s) (dat.after 1 s) = dat.blockOf 1 s := fun s => by
    rw [hafter, hblk]
  rw [dat.before_in_eq_fetched 1 rfl (fun _ => rfl) (fun _ _ _ => rfl) hkeep t d]
  -- an uncut window's fetch fills the whole buffer
  unfold Dat.fetched; rw [hblk]; rfl

theorem before1_2_of {c : Dev nD} (dat : Dat τ (Elt F) Unit ℕ (Pipeline.UD sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  -- the array's block at any point is the block read off `V`
  have hblk : ∀ s : Fin cfg1.N, dat.blockOf 2 s = iblk1 V c 2 s := fun s => by
    unfold Dat.blockOf iblk1; rw [hA]
  -- the body leaves the block in place, so the buffer holds a fetched block whether or not the fetch ran
  have hkeep : ∀ s : Fin cfg1.N, (cfg1.win 2).cut (cfg1.grid.coords s) (dat.after 2 s) = dat.blockOf 2 s := fun s => by
    rw [hafter, hblk]
  rw [dat.before_in_eq_fetched 2 rfl (fun _ => rfl) (fun _ _ _ => rfl) hkeep t d]
  -- an uncut window's fetch fills the whole buffer
  unfold Dat.fetched; rw [hblk]; rfl

theorem before1_3_of {c : Dev nD} (dat : Dat τ (Elt F) Unit ℕ (Pipeline.UD sig nD τ) ℕ cfg1 c)
    (hA : dat.A 3 = V c (Pipeline.arrRef spec1 3)) (hafter : ∀ t, dat.after 3 t = iblk1 V c 3 t)
    (t : Fin cfg1.N) (d) : dat.before 3 t d = iblk1 V c 3 t := by
  -- the array's block at any point is the block read off `V`
  have hblk : ∀ s : Fin cfg1.N, dat.blockOf 3 s = iblk1 V c 3 s := fun s => by
    unfold Dat.blockOf iblk1; rw [hA]
  -- the body leaves the block in place, so the buffer holds a fetched block whether or not the fetch ran
  have hkeep : ∀ s : Fin cfg1.N, (cfg1.win 3).cut (cfg1.grid.coords s) (dat.after 3 s) = dat.blockOf 3 s := fun s => by
    rw [hafter, hblk]
  rw [dat.before_in_eq_fetched 3 rfl (fun _ => rfl) (fun _ _ _ => rfl) hkeep t d]
  -- an uncut window's fetch fills the whole buffer
  unfold Dat.fetched; rw [hblk]; rfl

theorem before1_4_of {c : Dev nD} (dat : Dat τ (Elt F) Unit ℕ (Pipeline.UD sig nD τ) ℕ cfg1 c)
    (hA : dat.A 4 = V c (Pipeline.arrRef spec1 4)) (hafter : ∀ t, dat.after 4 t = iblk1 V c 4 t)
    (t : Fin cfg1.N) (d) : dat.before 4 t d = iblk1 V c 4 t := by
  -- the array's block at any point is the block read off `V`
  have hblk : ∀ s : Fin cfg1.N, dat.blockOf 4 s = iblk1 V c 4 s := fun s => by
    unfold Dat.blockOf iblk1; rw [hA]
  -- the body leaves the block in place, so the buffer holds a fetched block whether or not the fetch ran
  have hkeep : ∀ s : Fin cfg1.N, (cfg1.win 4).cut (cfg1.grid.coords s) (dat.after 4 s) = dat.blockOf 4 s := fun s => by
    rw [hafter, hblk]
  rw [dat.before_in_eq_fetched 4 rfl (fun _ => rfl) (fun _ _ _ => rfl) hkeep t d]
  -- an uncut window's fetch fills the whole buffer
  unfold Dat.fetched; rw [hblk]; rfl

theorem before1_5_of {c : Dev nD} (dat : Dat τ (Elt F) Unit ℕ (Pipeline.UD sig nD τ) ℕ cfg1 c)
    (hA : dat.A 5 = V c (Pipeline.arrRef spec1 5)) (hafter : ∀ t, dat.after 5 t = iblk1 V c 5 t)
    (t : Fin cfg1.N) (d) : dat.before 5 t d = iblk1 V c 5 t := by
  -- the array's block at any point is the block read off `V`
  have hblk : ∀ s : Fin cfg1.N, dat.blockOf 5 s = iblk1 V c 5 s := fun s => by
    unfold Dat.blockOf iblk1; rw [hA]
  -- the body leaves the block in place, so the buffer holds a fetched block whether or not the fetch ran
  have hkeep : ∀ s : Fin cfg1.N, (cfg1.win 5).cut (cfg1.grid.coords s) (dat.after 5 s) = dat.blockOf 5 s := fun s => by
    rw [hafter, hblk]
  rw [dat.before_in_eq_fetched 5 rfl (fun _ => rfl) (fun _ _ _ => rfl) hkeep t d]
  -- an uncut window's fetch fills the whole buffer
  unfold Dat.fetched; rw [hblk]; rfl

/-! ## The body's accesses -/

abbrev r1_x : Rect S1x2048 := Rect.unit (s := S1x2048) ![0, 0] S1x2048.size inb_S1x2048_S1x2048_0_0
abbrev r1_w : Rect S3x256x2048 := Rect.unit (s := S3x256x2048) ![0, 0, 0] S3x256x2048.size inb_S3x256x2048_S3x256x2048_0_0_0
abbrev r1_b : Rect S3x256 := Rect.unit (s := S3x256) ![0, 0] S3x256.size inb_S3x256_S3x256_0_0
/-- the previous state's columns of tile `i`: 256·i … 256·i + 255 of the one row -/
abbrev r1_h (i : grid1.Coords) : Rect S1x2048 := Rect.unit (s := S1x2048) (k1_off1 i) S1x256.size (k1_off1_inb i)
abbrev r1_o : Rect S1x1x256 := Rect.unit (s := S1x1x256) ![0, 0, 0] S1x1x256.size inb_S1x1x256_S1x1x256_0_0_0

/-! ## What the body leaves in the output window's buffer -/

/-- window 6's staging buffer after the body, from the six input blocks -/
def out1_6 (i : grid1.Coords) (x0 x1 : Vec F S1x2048 .f32) (x2 x3 : Vec F S3x256x2048 .f32) (x4 x5 : Vec F S3x256 .f32) : Vec F S1x1x256 .f32 :=
  View.canon [⟨r1_o, k1_pay1 (k1_pay2 (View.ld x0 r1_x)) (k1_pay3 (View.ld x1 r1_x)) (k1_pay5 (View.ld x3 r1_w)) (k1_pay6 (View.ld x4 r1_b)) (k1_pay7 (View.ld x5 r1_b))
      (k1_pay8 (View.ld x0 r1_x) (View.ld x2 r1_w) (View.ld x4 r1_b)) (k1_pay9 (View.ld x1 r1_x) (View.ld x3 r1_w) (View.ld x5 r1_b))
      (k1_pay10 (View.ld x0 r1_x) (View.ld x2 r1_w) (View.ld x4 r1_b)) (k1_pay11 (View.ld x1 r1_x) (View.ld x3 r1_w) (View.ld x5 r1_b))
      (k1_pay12 (View.ld x2 r1_w)) (View.ld x1 (r1_h i))⟩]

/-- The one store is the whole buffer, so it covers it. -/
theorem cover1_6 (p0 : Vec F S1x1x256 .f32) (y : S1x1x256.Idx) :
    ∃ pc ∈ ([⟨r1_o, p0⟩] : List (View.Piece (Elt F) S1x1x256 .f32)), y ∈ pc.1.set :=
  View.cover_of_tiled [⟨r1_o, p0⟩] S1x1x256.size (by rfl) y

set_option maxHeartbeats 1000000 in
/-- The kernel body on whole staging memrefs, the six inputs' at read contents `x0 … x5` and the output's at
    anything, runs to the continuation holding the inputs' as they were and the output's at `out1_6` of them:
    the printed function and its part are their skeletons, whose memory operations are seven whole-block loads,
    the second load of `x1` at the tile's columns, and one whole-block store. -/
theorem sound_kernel1 (c : Dev nD) (E : Set ℕ) (i : grid1.Coords)
    (arg1 : Memref sig .tc .vmem S1x2048 .f32) (harg1 : arg1.IsWhole) (arg2 : Memref sig .tc .vmem S1x2048 .f32) (harg2 : arg2.IsWhole)
    (arg3 : Memref sig .tc .vmem S3x256x2048 .f32) (harg3 : arg3.IsWhole) (arg4 : Memref sig .tc .vmem S3x256x2048 .f32) (harg4 : arg4.IsWhole)
    (arg5 : Memref sig .tc .vmem S3x256 .f32) (harg5 : arg5.IsWhole) (arg6 : Memref sig .tc .vmem S3x256 .f32) (harg6 : arg6.IsWhole)
    (arg7 : Memref sig .tc .vmem S1x1x256 .f32) (harg7 : arg7.IsWhole)
    (x0 x1 : Vec F S1x2048 .f32) (x2 x3 : Vec F S3x256x2048 .f32) (x4 x5 : Vec F S3x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out1_6 i x0 x1 x2 x3 x4 x5)) -∗ K ⟨⟩))
      ⊢ wp frame (wpE (defs₀ (F := F)) Variants.none c none) E
          (cc1__gru_kernel i arg1 harg1 arg2 harg2 arg3 harg3 arg4 harg4 arg5 harg5 arg6 harg6 arg7 harg7) K := by
  simp only [cc1__gru_kernel_eq_skeleton]; unfold cc1__gru_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  -- the seven loads read the owned contents, the store rewrites the output's buffer as one piece
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  iexists _; isplitr
  swap
  · iexact H6
  -- one piece that is the whole buffer: what is read back is the piece's payload
  ipureintro
  exact View.read_writes_eq_canon _ _ _ (cover1_6 _)

/-! ## The pipeline's proof data -/

/-- The proof data of pipeline 1 on core `c`: the arrays as the region finds them (`V`); after the body at
    point `t` each input's buffer at its block and the output's at `out1_6` of the six blocks and the tile;
    the invariant the scoped rest and the generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (grid1.coords t) (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (grid1.coords t) (iblk1 V c 0 t) (iblk1 V c 1 t) (iblk1 V c 2 t) (iblk1 V c 3 t) (iblk1 V c 4 t) (iblk1 V c 5 t) := by
  dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the kernel's triple applies; the invariant
    and the core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  -- each input's buffer holds its block; the invariant and the tallies do not depend on the point
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KData.lean ====
/-
  The buffer contents between the items of @main, the prefetched table's contents, and every pipeline's proof data.

  @main is: two constants; the clip of the index (six operations, ending in the table in scalar memory); the reshape
  of the embedding table; REGION 0 (the gather); five reshapes; REGION 1 (the GRU cell).  `W0 … W6` are core `c`'s
  unscoped buffers at launch and after each item: a host stretch's operations folded over the contents before it, a
  region's arrays at what its write-backs leave and every other buffer as the region found it.
-/
import proofs.«421312_j764504178844_2_alg».proof.Proof.KRegion0
import proofs.«421312_j764504178844_2_alg».proof.Proof.KRegion1
import proofs.«421312_j764504178844_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- Core `c`'s unscoped buffers at launch, and after the three host stretches before region 0. -/
abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
/-- The same read at the TensorCore's references: what region 0 finds. -/
abbrev VR3 : (c : Dev nD) → (b : Ref sig .tc) → Buf (Elt F) ((c : Thread nD τ).loc b) := fun c b => W3 m c b

/-- The prefetched table's contents when region 0 is entered (one device). -/
def tbl : pre0.Contents (Elt F) := fun k => VR3 m (0 : Dev nD) (pre0.ref k)
theorem VR3_pre (c : Dev nD) (k : Fin 1) : VR3 m c (pre0.ref k) = tbl m k := by
  obtain rfl : c = 0 := Subsingleton.elim _ _; rfl
/-- They are admissible: no index map reads the table. -/
abbrev adm0 : (pcfg0 (F := F)).Adm := ⟨tbl m, (by show ok0 (F := F) (tbl m); unfold ok0; trivial)⟩
/-- Every pipeline's tables. -/
abbrev adm : (p : Fin 2) → (pcfgs (F := F) p).Adm
  | ⟨0, _⟩ => adm0 m
  | ⟨1, _⟩ => cfg1.toPCfg_adm
  | ⟨_ + 2, h⟩ => absurd h (Nat.not_lt.2 (Nat.le_add_left _ _))

variable (hH : ∀ c : Dev nD, Hyp0 (F := F) (adm0 m) c)

/-- After region 0: its output array at what the write-back leaves, every other buffer as the region found it. -/
def W4 (c : Dev nD) : Valuation τ sig (Elt F) :=
  Pipeline.withArrays spec0 c (W3 m c) fun w => (dat0 (VR3 m) (adm0 m) hH c).arrAt w (cfg0 (adm0 m)).N
/-- After the five reshapes: what region 1 finds. -/
def W5 (c : Dev nD) : Valuation τ sig (Elt F) := StableHlo.after hostOps1 (W4 m hH c)
abbrev VR5 : (c : Dev nD) → (b : Ref sig .tc) → Buf (Elt F) ((c : Thread nD τ).loc b) := fun c b => W5 m hH c b
/-- After region 1. -/
def W6 (c : Dev nD) : Valuation τ sig (Elt F) :=
  Pipeline.withArrays spec1 c (W5 m hH c) fun w => (dat1 (VR5 m hH) c).arrAt w cfg1.N

/-- Every pipeline's proof data, each at its region's entry contents. -/
def pdats : (p : Fin 2) → (c : Dev nD) → Dat τ (Elt F) Unit ℕ (Pipeline.UD sig nD τ) ℕ (Pipeline.pin (pcfgs (F := F)) (adm m) p) c
  | ⟨0, _⟩ => fun c => dat0 (VR3 m) (adm0 m) hH c
  | ⟨1, _⟩ => fun c => dat1 (VR5 m hH) c

end Cert.Kernel.Hand

end
-- ==== Proof.KRun.lean ====
/-
  THE RUN of @main: its items as segments — a host segment per stretch of host operations from the contents before it,
  a region per pallas_call — chained from the launch to the return, and the launch itself.  Region 0 takes from the
  unscoped buffers its output array, the prefetched table (whole) and the embedding table it copies from, beside its
  own DMA semaphore; region 1 takes its seven arrays.  The result: every weakly fair execution terminates with each
  unscoped buffer at `W6`, so the result array at what region 1's write-backs leave and every argument as launched.
-/
import proofs.«421312_j764504178844_2_alg».proof.Proof.KData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
variable (hH : ∀ c : Dev nD, Hyp0 (F := F) (adm0 m) c)

/-! ## What the regions leave, read at the references -/

abbrev VR4 : (c : Dev nD) → (b : Ref sig .tc) → Buf (Elt F) ((c : Thread nD τ).loc b) := fun c b => W4 m hH c b
abbrev VR6 : (c : Dev nD) → (b : Ref sig .tc) → Buf (Elt F) ((c : Thread nD τ).loc b) := fun c b => W6 m hH c b

theorem W4_arr (c : Dev nD) (w : Fin 1) :
    W4 m hH c (Proc.devRef .tc (Pipeline.arrRef spec0 w)) = (dat0 (VR3 m) (adm0 m) hH c).arrAt w (cfg0 (adm0 m)).N := by
  unfold W4; exact Pipeline.withArrays_arr spec0 winFacts0.arr_inj c _ _ w
theorem W4_of_ne (c : Dev nD) (b : Ref sig .tc) (hb : ∀ w, Pipeline.arrRef spec0 w ≠ b) :
    W4 m hH c (Proc.devRef .tc b) = W3 m c (Proc.devRef .tc b) := by
  unfold W4; exact Pipeline.withArrays_of_ne spec0 c _ _ b hb
theorem hF0 (c : Dev nD) (w : Fin 1) : (dat0 (VR3 m) (adm0 m) hH c).arrAt w (cfg0 (adm0 m)).N = VR4 m hH c (Pipeline.arrRef spec0 w) :=
  (W4_arr m hH c w).symm
theorem hrest0 (c : Dev nD) : ∀ b, b ∉ Finset.univ.image (Pipeline.arrRef spec0) → VR4 m hH c b = VR3 m c b :=
  fun b hb => W4_of_ne m hH c b fun w e => hb (Finset.mem_image.mpr ⟨w, Finset.mem_univ _, e⟩)

theorem W6_arr (c : Dev nD) (w : Fin 7) :
    W6 m hH c (Proc.devRef .tc (Pipeline.arrRef spec1 w)) = (dat1 (VR5 m hH) c).arrAt w cfg1.N := by
  unfold W6; exact Pipeline.withArrays_arr spec1 winFacts1.arr_inj c _ _ w
theorem W6_of_ne (c : Dev nD) (b : Ref sig .tc) (hb : ∀ w, Pipeline.arrRef spec1 w ≠ b) :
    W6 m hH c (Proc.devRef .tc b) = W5 m hH c (Proc.devRef .tc b) := by
  unfold W6; exact Pipeline.withArrays_of_ne spec1 c _ _ b hb
theorem hF1 (c : Dev nD) (w : Fin 7) : (dat1 (VR5 m hH) c).arrAt w cfg1.N = VR6 m hH c (Pipeline.arrRef spec1 w) :=
  (W6_arr m hH c w).symm
theorem hrest1 (c : Dev nD) : ∀ b, b ∉ Finset.univ.image (Pipeline.arrRef spec1) → VR6 m hH c b = VR5 m hH c b :=
  fun b hb => W6_of_ne m hH c b fun w e => hb (Finset.mem_image.mpr ⟨w, Finset.mem_univ _, e⟩)

/-- The result array after the run. -/
theorem W6_v8 (c : Dev nD) : W6 m hH c (Proc.devRef .tc main_v8) = (dat1 (VR5 m hH) c).arrAt 6 cfg1.N := W6_arr m hH c 6

/-- A buffer no item writes reaches the end as launched. -/
theorem W6_kept (c : Dev nD) (r : Ref sig .tc) (h1 : ∀ w, Pipeline.arrRef spec1 w ≠ r) (h2 : r ∉ hostOps1_W)
    (h3 : ∀ w, Pipeline.arrRef spec0 w ≠ r) (h4 : r ∉ hostOps0_2_W) (h5 : r ∉ hostOps0_1_W) (h6 : r ∉ hostOps0_W) :
    W6 m hH c (Proc.devRef .tc r) = m ((c : Thread nD τ).loc r) :=
  (W6_of_ne m hH c r h1).trans <| (by unfold W5; exact StableHlo.after_of_writes_sub hostOps1 _ hostOps1_writes h2 : W5 m hH c (Proc.devRef .tc r) = W4 m hH c (Proc.devRef .tc r)).trans <|
    (W4_of_ne m hH c r h3).trans <| (V3_of m c r h4).trans <| (V2_of m c r h5).trans <| (V1_of m c r h6).trans rfl

/-! ## The thread state and the host segments -/

abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m hH c) ∗ ∃ r, prngReg c r)

/-! ## Region 0's share of the unscoped buffers -/

theorem H0_subP : H0 ⊆ Pipeline.restRefsP sig pre0 spec0 := by decide

/-- The buffers that bypass region 0's windows: the prefetched table, the embedding table, and the rest. -/
theorem rest0_split (c : Dev nD) :
    (Pipeline.unscopedRest (Ix := Unit) (Name := ℕ) (U := Pipeline.UD sig nD τ) (Lvl := ℕ) spec0 c (VR3 m c) : sProp 𝕄)
      = iprop(Pipeline.prefHeld (Ix := Unit) (Name := ℕ) (U := Pipeline.UD sig nD τ) (Lvl := ℕ) pre0 c (fun _ => fullShare) (tbl m)
          ∗ (bigSep H0 fun b => (((c : Thread nD τ)).loc b) ↦{fullShare} VR3 m c b)
          ∗ (bigSep (Pipeline.restRefsP sig pre0 spec0 \ H0) fun b => (((c : Thread nD τ)).loc b) ↦{fullShare} VR3 m c b)) := by
  rw [Pipeline.unscopedRest_split preFacts0 c (VR3 m c)]
  rw [show (fun k => VR3 m c (pre0.ref k)) = tbl m from funext fun k => VR3_pre m c k]
  unfold Pipeline.unscopedRestP
  rw [BI.bigSep_sdiff_split H0_subP]
  rfl

/-! ## The regions as segments -/

set_option backward.isDefEq.respectTransparency.types false in
/-- REGION 0 over the thread state: entered from every unscoped buffer at `W3`, left at `W4`.  Its output array is split
    out of the unscoped buffers and put back at what the write-back leaves; the prefetched table, the embedding table and
    the generator register enter the invariant beside the body's own semaphore (at zero from the boundary and back) and
    come out as they went in; nothing owed. -/
def reg0 : Pipeline.RegionSeg (pcfgs (F := F)) (adm m) (pdats m hH) () defs₀ 𝒱₀ L lv 0 where
  win := winFacts0.to₀
  block_pos := block_pos0
  stage_whole := stage_whole0
  K := Fin 1
  osem := osem0
  ho := ownSemFacts0
  hbody c := (body_obligation0 (VR3 m) (adm0 m) hH c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m hH c) ∗ R c)
  X c := iprop((∃ r, prngReg c r) ∗ Pipeline.ownSems0 (Ix := Unit) (Name := ℕ) (U := Pipeline.UD sig nD τ) (Lvl := ℕ) (Val := Elt F) (τ := τ) osem0 c ∗ (bigSep H0 fun b => (((c : Thread nD τ)).loc b) ↦{fullShare} VR3 m c b))
  Y c := iprop((∃ r, prngReg c r) ∗ (bigSep H0 fun b => (((c : Thread nD τ)).loc b) ↦{fullShare} VR3 m c b)
    ∗ Pipeline.prefHeld (Ix := Unit) (Name := ℕ) (U := Pipeline.UD sig nD τ) (Lvl := ℕ) pre0 c (fun _ => fullShare) (tbl m))
  Z c := bigSep (Pipeline.restRefsP sig pre0 spec0 \ H0) fun b => (((c : Thread nD τ)).loc b) ↦{fullShare} VR3 m c b
  hentry c := by
    have hsplit := Pipeline.arrays_of_unscopedBufs (p := 0) (pcfgs (F := F)) (adm m) (pdats m hH) winFacts0 arr_whole0 c
      ((pdats m hH 0 c).share_full fun _ => rfl) (VR3 m c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest0_split m c)) $$ Hrest
    icases H' with ⟨Hpf, HH, HR⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m hH 0 c).Φ 0 = Φ0 (VR3 m) (adm0 m) c from rfl]; unfold Φ0; rw [Pipeline.ΦD_eq]
    iintro ⟨⟨Hp, Ho, HH⟩, Hpf, Hr⟩
    isplitl [Hr Hp Ho HH]
    · isplitl [Hr]; · iexact Hr
      isplitl [Hp]; · iexact Hp
      isplitl [Ho]; · iexact Ho
      iexact HH
    iexact Hpf
  hout c := by
    rw [show (pdats m hH 0 c).Φ (Fin.last _) = Φ0 (VR3 m) (adm0 m) c from rfl]; unfold Φ0; rw [Pipeline.ΦD_eq]
    iintro ⟨⟨Hr, Hp, Ho, HH⟩, Hpf⟩
    isplitl [Hp HH Hpf]
    · isplitl [Hp]; · iexact Hp
      isplitl [HH]; · iexact HH
      iexact Hpf
    isplitl [Ho]; · iexact Ho
    iexact Hr
  hexit c := by
    have hjoin := Pipeline.unscopedBufs_of_arrays (p := 0) (pcfgs (F := F)) (adm m) (Ix := Unit) (Name := ℕ) (U := Pipeline.UD sig nD τ) (Lvl := ℕ)
      winFacts0 arr_whole0 c (pdats m hH) ((pdats m hH 0 c).share_full fun _ => rfl)
      (VR3 m c) (VR4 m hH c) ((pdats m hH 0 c).arrAt · (cfg0 (adm0 m)).N) (hF0 m hH c) (hrest0 m hH c)
    rw [Pipeline.unscopedBufs_held] at hjoin
    iintro ⟨Ha, HO, ⟨HY, HH, Hpf⟩, HR⟩
    ihave Hrest := (Entails.of_eq (rest0_split m c).symm) $$ [Hpf HH HR]
    · isplitl [Hpf]; · iexact Hpf
      isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`.  Its seven arrays are split
    out of the unscoped buffers and put back at what the write-backs leave; the generator register into the invariant and
    out; nothing owed; no semaphore of the kernel's own. -/
def reg1 : Pipeline.RegionSeg (pcfgs (F := F)) (adm m) (pdats m hH) () defs₀ 𝒱₀ L lv 1 where
  win := winFacts1.to₀
  block_pos := block_pos1
  stage_whole := stage_whole1
  K := PEmpty
  osem k := k.elim
  ho := Pipeline.OwnSemFacts.none _
  hbody c := (body_obligation1 (VR5 m hH) c).loose
  hwaits := Pipeline.hwaits_of_owed_zero _ _ _ _ L lv 1 fun _ _ => rfl
  pre c := iprop(StableHlo.held (c : Thread nD τ) (Pipeline.ucRefs τ sig) (W5 m hH c) ∗ R c)
  post c := iprop(Tₙ m hH c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (VR5 m hH c)
  hentry c := by
    rw [Pipeline.ownSems0_none]
    have hsplit := Pipeline.arrays_of_unscopedBufs (p := 1) (pcfgs (F := F)) (adm m) (pdats m hH) winFacts1 arr_whole1 c
      ((pdats m hH 1 c).share_full fun _ => rfl) (VR5 m hH c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hH 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m hH 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := Pipeline.UD sig nD τ) (Lvl := ℕ)
      winFacts1 arr_whole1 c (pdats m hH) ((pdats m hH 1 c).share_full fun _ => rfl)
      (VR5 m hH c) (VR6 m hH c) ((pdats m hH 1 c).arrAt · cfg1.N) (hF1 m hH c) (hrest1 m hH c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six items in order. -/
abbrev segs : List (Pipeline.Seg (pcfgs (F := F)) (adm m) (pdats m hH) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m hH),
    .host (hseg hostOps1 hostOps1_sub hostOps1_fresh (W4 m hH)),
    .region (reg1 m hH) ]

set_option backward.isDefEq.respectTransparency.types false in
/-- THE RUN: from any memory with zero counters, every weakly fair execution of @main on the TensorCores terminates,
    nothing faulting, and in every final state the result array holds what region 1's write-backs leave
    and every argument array what it held at launch. -/
theorem run_main : θ_run defs (onTc (τ := τ) (main (F := F))) ⟨m, fun _ => 0, ρ⟩ (fun r => ∀ c : Dev nD,
      r.2.mem ((c.tc : Thread nD τ).loc main_v8) = (dat1 (VR5 m hH) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) (adm m) (pdats m hH) () (cellOf_inj (adm m)) embL defs₀ 𝒱₀ L lv m ρ main (segs m hH)
    (fun c Q => by
      rewrite [main_chain c, Pipeline.Seg.run_eq_chain,
        show (segs m hH).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hH)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m hH c b)
    (hfin := fun c s' => by
      iintro ⟨⟨Hh, -⟩, HSI⟩
      unfold StableHlo.held
      imodintro
      iapply (pointsTo_read_all (Pipeline.ucRefs τ sig) (fun b => (((c : Thread nD τ)).1, b)) (W6 m hH c) s')
      isplitl [Hh] <;> iassumption)
    (hQ := fun s h c =>
      ⟨(h c _ (mem_uc main_v8 (by decide))).trans (W6_v8 m hH c),
       (h c _ (mem_uc main_arg0 (by decide))).trans (W6_kept m hH c main_arg0 (by decide) (by decide) (by decide) (by decide) (by decide) (by decide)),
       (h c _ (mem_uc main_arg1 (by decide))).trans (W6_kept m hH c main_arg1 (by decide) (by decide) (by decide) (by decide) (by decide) (by decide)),
       (h c _ (mem_uc main_arg2 (by decide))).trans (W6_kept m hH c main_arg2 (by decide) (by decide) (by decide) (by decide) (by decide) (by decide)),
       (h c _ (mem_uc main_arg3 (by decide))).trans (W6_kept m hH c main_arg3 (by decide) (by decide) (by decide) (by decide) (by decide) (by decide)),
       (h c _ (mem_uc main_arg4 (by decide))).trans (W6_kept m hH c main_arg4 (by decide) (by decide) (by decide) (by decide) (by decide) (by decide)),
       (h c _ (mem_uc main_arg5 (by decide))).trans (W6_kept m hH c main_arg5 (by decide) (by decide) (by decide) (by decide) (by decide) (by decide)),
       (h c _ (mem_uc main_arg6 (by decide))).trans (W6_kept m hH c main_arg6 (by decide) (by decide) (by decide) (by decide) (by decide) (by decide))⟩)

end Cert.Kernel.Hand

end
-- ==== Proof.Spec.lean ====
/-
  The GRU cell both programs compute, stated once over abstract coordinates.

  For an embedding row `x` and a hidden row `h` (2048 entries each), stacked weights
  `w_ih`, `w_hh` (three gate slabs of 2048 rows, each row 2048 long) and stacked biases,
  the pre-activation of gate `g` at column `j` is the dot product of the input row with
  weight row `g·2048 + j`, plus the bias entry `g·2048 + j`.  With
  `r = σ(i_r + h_r)`, `z = σ(i_z + h_z)`, `n = tanh(i_n + r · h_n)` the new hidden entry is
  `(1 − z) · n + z · h_j`.  Everything is read on the extended reals, `σ` being
  `1 / (1 + e^{-x})` with its limits at ±∞.
-/
import Idealize.ShloMosaic.PureOps.Ideal
import Idealize.ShloMosaic.Lib.ValueIdx

noncomputable section

namespace Cert.Spec

open Idealize.ShloMosaic Idealize.ShloMosaic.ValueIdx

/-- One output column from the data it depends on: the input row `x`, the hidden row `h`, the three
    weight rows of each matrix that belong to this column (`wi g`, `wh g`), the six bias entries, and
    the hidden entry `hj` of this column. -/
def cell (x h : Fin 2048 → EReal) (wi wh : Fin 3 → Fin 2048 → EReal) (bi bh : Fin 3 → EReal) (hj : EReal) : EReal :=
  let r := Ideal.logistic (((∑ k : Fin 2048, x k * wi 0 k) + bi 0) + ((∑ k : Fin 2048, h k * wh 0 k) + bh 0))
  let z := Ideal.logistic (((∑ k : Fin 2048, x k * wi 1 k) + bi 1) + ((∑ k : Fin 2048, h k * wh 1 k) + bh 1))
  let n := Ideal.tanh (((∑ k : Fin 2048, x k * wi 2 k) + bi 2) + r * ((∑ k : Fin 2048, h k * wh 2 k) + bh 2))
  ((1 : EReal) - z) * n + z * hj

/-- Row `g·2048 + j` of a stacked array of three slabs of 2048 rows. -/
def gr (g : Fin 3) (j : Fin 2048) : Fin 6144 := ⟨g.val * 2048 + j.val, by omega⟩

/-- The new hidden state's column `j`, from the whole argument arrays and the embedding row `row`. -/
def hnew (row : Fin 50257) (hid : (⟨3, ![1, 1, 2048]⟩ : Shape).Idx → EReal) (emb : (⟨2, ![50257, 2048]⟩ : Shape).Idx → EReal)
    (wih whh : (⟨2, ![6144, 2048]⟩ : Shape).Idx → EReal) (bih bhh : (⟨1, ![6144]⟩ : Shape).Idx → EReal) (j : Fin 2048) : EReal :=
  cell (fun k => emb (ix2 row k)) (fun k => hid (ix3 0 0 k))
    (fun g k => wih (ix2 (gr g j) k)) (fun g k => whh (ix2 (gr g j) k))
    (fun g => bih (ix1 (gr g j))) (fun g => bhh (ix1 (gr g j))) (hid (ix3 0 0 j))

/-- The result array: entry `(0, 0, j)` is `hnew … j`. -/
def G (row : Fin 50257) (hid : (⟨3, ![1, 1, 2048]⟩ : Shape).Idx → EReal) (emb : (⟨2, ![50257, 2048]⟩ : Shape).Idx → EReal)
    (wih whh : (⟨2, ![6144, 2048]⟩ : Shape).Idx → EReal) (bih bhh : (⟨1, ![6144]⟩ : Shape).Idx → EReal) :
    (⟨3, ![1, 1, 2048]⟩ : Shape).Idx → EReal :=
  fun i => hnew row hid emb wih whh bih bhh ⟨(i 2).val, (i 2).isLt⟩

theorem G_apply (row : Fin 50257) (hid : (⟨3, ![1, 1, 2048]⟩ : Shape).Idx → EReal) (emb : (⟨2, ![50257, 2048]⟩ : Shape).Idx → EReal)
    (wih whh : (⟨2, ![6144, 2048]⟩ : Shape).Idx → EReal) (bih bhh : (⟨1, ![6144]⟩ : Shape).Idx → EReal) (j : Fin 2048) :
    G row hid emb wih whh bih bhh (ix3 0 0 j) = hnew row hid emb wih whh bih bhh j := rfl

/-- The embedding row an in-range index word names. -/
def rowOf (w : BitVec 32) (h : 0 ≤ w.toInt ∧ w.toInt < 50257) : Fin 50257 := ⟨w.toInt.toNat, by omega⟩

end Cert.Spec

end
-- ==== Proof.KHost.lean ====
/-
  What the host operations of @main leave in the buffers the two regions read, and region 0's output array after its
  one grid point.

  Before region 0: the table's one word is the input word clipped to [0, 50256] (a maximum with 0, then a minimum with
  50256), and the embedding table is the argument reshaped [50257, 2048] → [50257, 1, 2048]: entry (r, 0, k) is
  entry (r, k).  Region 0 has ONE grid point whose block is the whole output array, so the array it leaves is what
  its body left in the staging buffer.  Before region 1: that array untouched, the hidden row reshaped
  [1, 1, 2048] → [1, 2048], the stacked weights reshaped [6144, 2048] → [3, 2048, 2048] (entry (g, j, k) is entry
  (g·2048 + j, k)) and the stacked biases reshaped [6144] → [3, 2048] (entry (g, j) is entry g·2048 + j).
-/
import proofs.«421312_j764504178844_2_alg».proof.Proof.KData
import proofs.«421312_j764504178844_2_alg».proof.Proof.Spec
import Idealize.ShloMosaic.Lib.ValueIdx
import Idealize.ShloMosaic.Lib.Pipeline.Value
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ)

/-! ## Reshapes read at an index -/

section Casts
variable {α : Type}

/-- [50257, 2048] → [50257, 1, 2048]: entry (r, 0, k) is entry (r, k). -/
theorem cast_row_unit (x : S50257x2048.Idx → α) (h : S50257x2048.ShapeCasts S50257x1x2048) (r : Fin 50257) (k : Fin 2048) :
    shapeCast S50257x1x2048 x h (ix3 r (0 : Fin 1) k) = x (ix2 r k) :=
  shapeCast_apply x h _ _ (by
    rw [Shape.rowMajor_val_two, Shape.rowMajor_val_three]
    show r.val * 2048 + k.val = (r.val * 1 + 0) * 2048 + k.val
    omega)

/-- [1, 1, 2048] → [1, 2048]: entry (0, k) is entry (0, 0, k). -/
theorem cast_hidden (x : S1x1x2048.Idx → α) (h : S1x1x2048.ShapeCasts S1x2048) (k : Fin 2048) :
    shapeCast S1x2048 x h (ix2 (0 : Fin 1) k) = x (ix3 (0 : Fin 1) (0 : Fin 1) k) :=
  shapeCast_apply x h _ _ (by
    rw [Shape.rowMajor_val_two, Shape.rowMajor_val_three]
    show (0 * 1 + 0) * 2048 + k.val = 0 * 2048 + k.val
    omega)

/-- [6144, 2048] → [3, 2048, 2048]: entry (g, j, k) is entry (g·2048 + j, k). -/
theorem cast_stack2 (x : S6144x2048.Idx → α) (h : S6144x2048.ShapeCasts S3x2048x2048) (g : Fin 3) (j k : Fin 2048) :
    shapeCast S3x2048x2048 x h (ix3 g j k) = x (ix2 (Cert.Spec.gr g j) k) :=
  shapeCast_apply x h _ _ (by
    rw [Shape.rowMajor_val_two, Shape.rowMajor_val_three]
    show (g.val * 2048 + j.val) * 2048 + k.val = (g.val * 2048 + j.val) * 2048 + k.val
    rfl)

/-- [6144] → [3, 2048]: entry (g, j) is entry g·2048 + j. -/
theorem cast_stack1 (x : S6144.Idx → α) (h : S6144.ShapeCasts S3x2048) (g : Fin 3) (j : Fin 2048) :
    shapeCast S3x2048 x h (ix2 g j) = x (ix1 (Cert.Spec.gr g j)) :=
  shapeCast_apply x h _ _ (by
    rw [Shape.rowMajor_val_one, Shape.rowMajor_val_two]
    show g.val * 2048 + j.val = g.val * 2048 + j.val
    rfl)

end Casts

/-! ## The arguments reach both regions as launched -/

/-- No host stretch before region 0 writes a reference outside its written list. -/
theorem W3_of (c : Dev nD) (b : Ref sig .tc) (h3 : b ∉ hostOps0_2_W) (h2 : b ∉ hostOps0_1_W) (h1 : b ∉ hostOps0_W) :
    W3 m c (Proc.devRef .tc b) = m ((c : Thread nD τ).loc b) :=
  (Gen.V3_of m c b h3).trans ((Gen.V2_of m c b h2).trans ((Gen.V1_of m c b h1).trans rfl))

/-- the embedding table as region 0 finds it: the argument, reshaped [50257,2048] → [50257,1,2048] -/
theorem VR3_v1_apply (c : Dev nD) (r : Fin 50257) (k : Fin 2048) : VR3 m c main_v1 (ix3 r 0 k) = m ((c : Thread nD τ).loc main_arg2) (ix2 r k) := by
  have e : (VR3 m c main_v1 : S50257x1x2048.Idx → Elt F .f32)
      = shapeCast S50257x1x2048 (W2 m c (Proc.devRef .tc main_arg2) : S50257x2048.Idx → Elt F .f32) shapeCasts_S50257x2048_S50257x1x2048 := by
    dsimp only [VR3, W3, hostOps0_2]; after_results; rfl
  have a : (W2 m c (Proc.devRef .tc main_arg2) : S50257x2048.Idx → Elt F .f32) = m ((c : Thread nD τ).loc main_arg2) :=
    (Gen.V2_of m c main_arg2 (by decide)).trans ((Gen.V1_of m c main_arg2 (by decide)).trans rfl)
  rw [e, a]
  exact cast_row_unit _ _ r k

variable (hH : ∀ c : Dev nD, Hyp0 (F := F) (adm0 m) c)

/-- Region 0 changes its output array only. -/
theorem W4_of (c : Dev nD) (b : Ref sig .tc) (h4 : ∀ w, Pipeline.arrRef spec0 w ≠ b) (h3 : b ∉ hostOps0_2_W) (h2 : b ∉ hostOps0_1_W) (h1 : b ∉ hostOps0_W) :
    W4 m hH c (Proc.devRef .tc b) = m ((c : Thread nD τ).loc b) := by
  unfold W4
  exact (Pipeline.withArrays_of_ne spec0 c _ _ b h4).trans (W3_of m c b h3 h2 h1)

/-- region 1's first input array is what region 0 left -/
theorem VR5_v2 (c : Dev nD) : VR5 m hH c main_v2 = (dat0 (VR3 m) (adm0 m) hH c).arrAt 0 (cfg0 (adm0 m)).N := by
  show W5 m hH c (Proc.devRef .tc main_v2) = _
  unfold W5
  refine (StableHlo.after_of_writes_sub hostOps1 _ hostOps1_writes (by decide)).trans ?_
  unfold W4
  exact Pipeline.withArrays_arr spec0 winFacts0.arr_inj c _ _ 0

/-- region 1's other inputs: the arguments reshaped -/
theorem VR5_v3_apply (c : Dev nD) (k : Fin 2048) : VR5 m hH c main_v3 (ix2 0 k) = m ((c : Thread nD τ).loc main_arg1) (ix3 0 0 k) := by
  have e : (VR5 m hH c main_v3 : S1x2048.Idx → Elt F .f32)
      = shapeCast S1x2048 (W4 m hH c (Proc.devRef .tc main_arg1) : S1x1x2048.Idx → Elt F .f32) shapeCasts_S1x1x2048_S1x2048 := by
    dsimp only [VR5]; unfold W5; dsimp only [hostOps1]; after_results; rfl
  have a : (W4 m hH c (Proc.devRef .tc main_arg1) : S1x1x2048.Idx → Elt F .f32) = m ((c : Thread nD τ).loc main_arg1) :=
    W4_of m hH c main_arg1 (by decide) (by decide) (by decide) (by decide)
  rw [e, a]
  exact cast_hidden _ _ k

theorem VR5_v4_apply (c : Dev nD) (g : Fin 3) (j k : Fin 2048) : VR5 m hH c main_v4 (ix3 g j k) = m ((c : Thread nD τ).loc main_arg3) (ix2 (Cert.Spec.gr g j) k) := by
  have e : (VR5 m hH c main_v4 : S3x2048x2048.Idx → Elt F .f32)
      = shapeCast S3x2048x2048 (W4 m hH c (Proc.devRef .tc main_arg3) : S6144x2048.Idx → Elt F .f32) shapeCasts_S6144x2048_S3x2048x2048 := by
    dsimp only [VR5]; unfold W5; dsimp only [hostOps1]; after_results; rfl
  have a : (W4 m hH c (Proc.devRef .tc main_arg3) : S6144x2048.Idx → Elt F .f32) = m ((c : Thread nD τ).loc main_arg3) :=
    W4_of m hH c main_arg3 (by decide) (by decide) (by decide) (by decide)
  rw [e, a]
  exact cast_stack2 _ _ g j k
theorem VR5_v5_apply (c : Dev nD) (g : Fin 3) (j k : Fin 2048) : VR5 m hH c main_v5 (ix3 g j k) = m ((c : Thread nD τ).loc main_arg4) (ix2 (Cert.Spec.gr g j) k) := by
  have e : (VR5 m hH c main_v5 : S3x2048x2048.Idx → Elt F .f32)
      = shapeCast S3x2048x2048 (W4 m hH c (Proc.devRef .tc main_arg4) : S6144x2048.Idx → Elt F .f32) shapeCasts_S6144x2048_S3x2048x2048 := by
    dsimp only [VR5]; unfold W5; dsimp only [hostOps1]; after_results; rfl
  have a : (W4 m hH c (Proc.devRef .tc main_arg4) : S6144x2048.Idx → Elt F .f32) = m ((c : Thread nD τ).loc main_arg4) :=
    W4_of m hH c main_arg4 (by decide) (by decide) (by decide) (by decide)
  rw [e, a]
  exact cast_stack2 _ _ g j k
theorem VR5_v6_apply (c : Dev nD) (g : Fin 3) (j : Fin 2048) : VR5 m hH c main_v6 (ix2 g j) = m ((c : Thread nD τ).loc main_arg5) (ix1 (Cert.Spec.gr g j)) := by
  have e : (VR5 m hH c main_v6 : S3x2048.Idx → Elt F .f32)
      = shapeCast S3x2048 (W4 m hH c (Proc.devRef .tc main_arg5) : S6144.Idx → Elt F .f32) shapeCasts_S6144_S3x2048 := by
    dsimp only [VR5]; unfold W5; dsimp only [hostOps1]; after_results; rfl
  have a : (W4 m hH c (Proc.devRef .tc main_arg5) : S6144.Idx → Elt F .f32) = m ((c : Thread nD τ).loc main_arg5) :=
    W4_of m hH c main_arg5 (by decide) (by decide) (by decide) (by decide)
  rw [e, a]
  exact cast_stack1 _ _ g j
theorem VR5_v7_apply (c : Dev nD) (g : Fin 3) (j : Fin 2048) : VR5 m hH c main_v7 (ix2 g j) = m ((c : Thread nD τ).loc main_arg6) (ix1 (Cert.Spec.gr g j)) := by
  have e : (VR5 m hH c main_v7 : S3x2048.Idx → Elt F .f32)
      = shapeCast S3x2048 (W4 m hH c (Proc.devRef .tc main_arg6) : S6144.Idx → Elt F .f32) shapeCasts_S6144_S3x2048 := by
    dsimp only [VR5]; unfold W5; dsimp only [hostOps1]; after_results; rfl
  have a : (W4 m hH c (Proc.devRef .tc main_arg6) : S6144.Idx → Elt F .f32) = m ((c : Thread nD τ).loc main_arg6) :=
    W4_of m hH c main_arg6 (by decide) (by decide) (by decide) (by decide)
  rw [e, a]
  exact cast_stack1 _ _ g j

/-! ## The prefetched table's word -/

omit hH in
/-- The word the body loads is the table's one entry. -/
theorem word0_eq (c : Dev nD) (xt : TbBuf0 (F := F) c) : word0 c xt = (xt : S1.Idx → Elt F .i32) (ix1 0) := by
  have hz : (![0] : Fin 1 → Nat) = fun _ => 0 := funext fun a => by fin_cases a; rfl
  have h := Memref.readAt_unit_zero (Elt F) main_v0 hz inb_S1_S1_0 xt
  exact (congrFun h (Shape.Idx.first _)).trans (congrArg (xt : S1.Idx → Elt F .i32) (eq_ix1 _))

omit hH in
/-- The table after the clip: the minimum of 50256 and the maximum of 0 and the input word, entrywise. -/
theorem tbl_eq : (tbl m 0 : S1.Idx → Elt F .i32)
    = minsi (broadcastInDim S1 ![] bcast_S_S1 (constantI S_ 32 50256#32)) (maxsi (broadcastInDim S1 ![] bcast_S_S1 (constantI S_ 32 0#32)) (m (((0 : Dev nD) : Thread nD τ).loc main_arg0))) := by
  unfold tbl
  show W3 m 0 (Proc.devRef .tc main_v0) = _
  dsimp only [W3, W2, W1, W0, hostOps0, hostOps0_1, hostOps0_2]
  after_results
  rfl

omit hH in
/-- the table's word is the clipped input word -/
theorem tbl_word (c : Dev nD) : word0 c (tbl m 0) = IntOp.minsi (50256#32) (IntOp.maxsi (0#32) (m ((c : Thread nD τ).loc main_arg0) (ix1 0))) := by
  obtain rfl : c = 0 := Subsingleton.elim _ _
  exact (word0_eq 0 (tbl m 0)).trans ((congrFun (tbl_eq m) (ix1 0)).trans rfl)

omit hH in
/-- The admissible contents carry that table. -/
theorem adm0_val : (adm0 m).1 = tbl m := rfl

omit hH in
/-- the same, at the table as the admissible contents carry it -/
theorem tbl_word' (c : Dev nD) : word0 (F := F) c ((adm0 m).1 0) = IntOp.minsi (50256#32) (IntOp.maxsi (0#32) (m ((c : Thread nD τ).loc main_arg0) (ix1 0))) :=
  (congrArg (fun t : pre0.Contents (Elt F) => word0 (F := F) c (t 0)) (adm0_val m)).trans (tbl_word m c)

/-! ## Region 0's array after its one grid point -/

/-- region 0's one grid point -/
def t00 : Fin (cfg0 (adm0 m)).N := ⟨0, by rw [show (cfg0 (adm0 m)).N = grid0.N from rfl, N_0]; decide⟩

omit hH in
/-- Every grid point of region 0 is that one. -/
theorem t00_all (t : Fin (cfg0 (adm0 m)).N) : t = t00 m :=
  Fin.ext (by have := t.isLt; have hN : (cfg0 (adm0 m)).N = 1 := N_0; show t.val = 0; omega)

/-- region 0's array after its ONE grid point: what the body left in the staging buffer -/
theorem arr0_eq (c : Dev nD) : (dat0 (VR3 m) (adm0 m) hH c).arrAt 0 (cfg0 (adm0 m)).N = out0 c (grid0.coords (t00 m)) (ms0_0 (adm0 m) (t00 m)) (hs0_0 (adm0 m) (t00 m)) ((adm0 m).1 0) (VR3 m c main_v1) (hH c) := by
  have hcover : ∀ i : S1x2048.Idx, i ∈ ((View.whole main_v2).slice ((win0 (adm0 m) 0).rect (t00 m))).set := by
    intro i
    rw [View.set_slice_whole, Rect.mem_set_unit]
    intro a
    have h0 : (i 0 : Nat) < 1 := (i 0).isLt
    have h1 : (i 1 : Nat) < 2048 := (i 1).isLt
    match a with
    | ⟨0, _⟩ =>
      show (win0 (adm0 m) 0).index (t00 m) 0 * (win0 (adm0 m) 0).size 0 ≤ (i 0 : Nat) ∧ (i 0 : Nat) < (win0 (adm0 m) 0).index (t00 m) 0 * (win0 (adm0 m) 0).size 0 + (win0 (adm0 m) 0).xsize (grid0.coords (t00 m)) 0
      rw [show (win0 (adm0 m) 0).index (t00 m) 0 * (win0 (adm0 m) 0).size 0 = 0 from rfl, show (win0 (adm0 m) 0).xsize (grid0.coords (t00 m)) 0 = 1 from rfl]; omega
    | ⟨1, _⟩ =>
      show (win0 (adm0 m) 0).index (t00 m) 1 * (win0 (adm0 m) 0).size 1 ≤ (i 1 : Nat) ∧ (i 1 : Nat) < (win0 (adm0 m) 0).index (t00 m) 1 * (win0 (adm0 m) 0).size 1 + (win0 (adm0 m) 0).xsize (grid0.coords (t00 m)) 1
      rw [show (win0 (adm0 m) 0).index (t00 m) 1 * (win0 (adm0 m) 0).size 1 = 0 from rfl, show (win0 (adm0 m) 0).xsize (grid0.coords (t00 m)) 1 = 2048 from rfl]; omega
  refine (dat0 (VR3 m) (adm0 m) hH c).arrAt_eq_of_cover 0 _ (fun t _ => ?_) (fun i => ⟨t00 m, rfl, hcover i⟩)
  · obtain rfl := t00_all m t
    show (win0 (adm0 m) 0).cut (grid0.coords (t00 m)) ((dat0 (VR3 m) (adm0 m) hH c).after 0 (t00 m)) = _
    rw [after0_0]
    have hz' : (fun a => (win0 (adm0 m) 0).index (t00 m) a * main_v2.ty.shape.size a) = fun _ => 0 := funext fun a => by fin_cases a <;> rfl
    exact (Memref.read_access_unit_zero (Elt F) main_v2 hz' (fun a => by rw [congrFun hz' a]; simp) _).symm

end Cert.Kernel.Hand

end
-- ==== Proof.KIRegion0.lean ====
/-
  REGION 0: the gather kernel.  One grid point.  The body loads the one word of the prefetched table (the clipped
  index, in scalar memory), uses it as the row offset of a one-row slice of the embedding table left in HBM, starts
  the copy of that row into the output window's staging buffer and waits for it.  Stated for any float family, at the
  contents `V` the region finds and the table's contents `tb`: what the body leaves in the staging buffer, the region
  invariant (the scoped rest, the generator register, the copy's semaphore at zero, the embedding table and the
  prefetched table as found), the proof data and the body obligation.
-/
import proofs.«421312_j764504178844_2_alg».proof.Proof.Gen.KernelIdeal.Launch
import proofs.«421312_j764504178844_2_alg».proof.Proof.Gen.KernelIdeal.Skeleton
import proofs.«421312_j764504178844_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The prefetched table as the body is handed it, and the embedding table left in HBM. -/
abbrev tbM0 : Memref sig .tc .smem S1 .i32 := Memref.whole main_v0
abbrev hbM0 : Memref sig .tc .hbm S50257x1x2048 .f32 := Memref.whole main_v1
abbrev TbBuf0 (c : Dev nD) : Type := Buf (Elt F) (tbM0.view.loc (c : Thread nD τ))
abbrev tbPt0 (c : Dev nD) (f : TbBuf0 (F := F) c) : sProp 𝕄 := tbM0.view.loc (c : Thread nD τ) ↦{fullShare} f
abbrev HbBuf0 (c : Dev nD) : Type := Buf (Elt F) (hbM0.view.loc (c : Thread nD τ))
abbrev hbPt0 (c : Dev nD) (f : HbBuf0 (F := F) c) : sProp 𝕄 := hbM0.view.loc (c : Thread nD τ) ↦{fullShare} f
/-- The word the body loads from the table. -/
abbrev word0 (c : Dev nD) (xt : TbBuf0 (F := F) c) : Elt F .i32 :=
  tbM0.view.readAt (Elt F) (Rect.unit (s := S1) ![0] S1.size inb_S1_S1_0).toLoadRect xt (Shape.Idx.first (numel1_S1.symm ▸ Nat.one_pos))

/-- The body's own DMA semaphore. -/
abbrev osem0 : Fin 1 → SemLoc sig := fun j => (![SemLoc.dma 1] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0) := by
  rw [Pipeline.ownSems0_eq_of_list c osem0 [0] (by decide) (by decide)]; rfl
/-- The HBM operand the body copies from. -/
def H0 : Finset (Ref sig .tc) := {main_v1}

set_option maxHeartbeats 1000000 in
/-- The body's run: from the staging buffer at anything, the table at `xt` (whose word names a row of the embedding
    table: `k0_hw1`), the semaphore at zero and the embedding table at `fh`, to the staging buffer holding the pieces
    the copy delivered, everything else as it was. -/
noncomputable def kernelRun0 (c : Dev nD) (i : grid0.Coords) (arg3 : Memref sig .tc .vmem S1x2048 .f32) (harg3 : arg3.IsWhole)
    (xt : TbBuf0 (F := F) c) (fh : HbBuf0 (F := F) c) (k0_hw1 : k0_chk1 (word0 c xt)) :
    { L : List (View.Piece (Elt F) S1x2048 .f32) //
      ∀ (W : Waits sig Unit) (K : PUnit → sProp 𝕄),
        iprop((∃ d, owns (c : Thread nD τ) arg3 fullShare d) ∗ tbPt0 c xt ∗ semVal ((c : Thread nD τ), SemLoc.dma 1) 0 ∗ hbPt0 c fh ∗ owes (c : Thread nD τ) 0 W
            ∗ (iprop((∃ f, arg3.view.loc (c : Thread nD τ) ↦[arg3.view.set]{fullShare} arg3.view.writes (Elt F) f L) ∗ tbPt0 c xt ∗ semVal ((c : Thread nD τ), SemLoc.dma 1) 0 ∗ hbPt0 c fh ∗ (∃ W', owes (c : Thread nD τ) 0 W')) -∗ K ⟨⟩))
          ⊢ wp frame (wpE (defs₀ (F := F)) Variants.none c none) Set.univ (cc0__gather_kernel i tbM0 (Memref.isWhole_whole _) hbM0 (Memref.isWhole_whole _) arg3 harg3 cc0_scratch0) K } := by
  refine ⟨?_, fun W K => ?run⟩
  case run =>
    simp only [cc0__gather_kernel_eq_skeleton]; unfold cc0__gather_kernel_skel
    unfold owns
    iintro ⟨⟨%d1, %f1, -, H1⟩, HT, Hq0, Hh0, HW, Hk⟩
    sl_exec (disch := first | sl_exact k0_hw1)
    sl_step
    iapply Hk
    isplitl [H1]; · iexists _; iexact H1
    isplitl [HT]; · iexact HT
    isplitl [Hq0]; · iexact Hq0
    isplitl [Hh0]; · iexact Hh0
    iexists _; iexact HW

/-- The copy delivers the whole staging buffer. -/
theorem cover0 (c : Dev nD) (i : grid0.Coords) (arg3 : Memref sig .tc .vmem S1x2048 .f32) (harg3 : arg3.IsWhole)
    (xt : TbBuf0 (F := F) c) (fh : HbBuf0 (F := F) c) (k0_hw1 : k0_chk1 (word0 c xt)) (y : S1x2048.Idx) :
    ∃ pc ∈ (kernelRun0 c i arg3 harg3 xt fh k0_hw1).1, y ∈ pc.1.set :=
  View.cover_of_tiledL (kernelRun0 c i arg3 harg3 xt fh k0_hw1).1 S1x2048.size (by sl_kernel_rfl) y

/-- One staging buffer of the output window, through which its contents are stated. -/
abbrev VO0 : View sig .tc .vmem S1x2048 .f32 := (Memref.whole cc0_stg0_0 : Memref sig .tc .vmem S1x2048 .f32).view

/-- What the run leaves in the output's staging buffer. -/
def out0 (c : Dev nD) (i : grid0.Coords) (arg3 : Memref sig .tc .vmem S1x2048 .f32) (harg3 : arg3.IsWhole)
    (xt : TbBuf0 (F := F) c) (fh : HbBuf0 (F := F) c) (k0_hw1 : k0_chk1 (word0 c xt)) : Vec F S1x2048 .f32 :=
  VO0.read (Elt F) (VO0.writes (Elt F) VO0.junk (kernelRun0 c i arg3 harg3 xt fh k0_hw1).1)

/-! ## The pipeline at the table's contents, its proof data and the body obligation -/

section Data

variable (V : (c : Dev nD) → (b : Ref sig .tc) → Buf (Elt F) ((c : Thread nD τ).loc b))
variable (a0 : (pcfg0 (F := F)).Adm)

/-- The output window's current staging memref at point `t`, as the pipeline passes it. -/
abbrev ms0_0 (t : Fin (cfg0 a0).N) : Memref sig .tc .vmem S1x2048 .f32 := spec0_0.stage ((cfg0 a0).slots t 0)
abbrev hs0_0 (t : Fin (cfg0 a0).N) : (ms0_0 a0 t).IsWhole := hstage0_0 (((cfg0 a0).slots t 0).cast nbuf0_0)
/-- The kernel body at point `t`, on what the pipeline calls it with. -/
abbrev bodyAt0 (t : Fin (cfg0 a0).N) : Prog (TpuEff nD τ sig (Elt F) Λ₀ .tc) PUnit :=
  cc0__gather_kernel (grid0.coords t) (Memref.whole main_v0) (Memref.isWhole_whole _) (Memref.whole main_v1) (Memref.isWhole_whole _) (spec0_0.stage ((cfg0 a0).slots t 0)) (hstage0_0 (((cfg0 a0).slots t 0).cast nbuf0_0)) cc0_scratch0

/-- The side condition the body assumes, of the table's word. -/
abbrev Hyp0 (c : Dev nD) : Prop := k0_chk1 (word0 (F := F) c (a0.1 0))

/-- The region invariant: the invariant of a body with a transfer of its own (the scoped rest, the generator register,
    its semaphore at zero, the embedding table as found) beside the prefetched table, whole, as found. -/
def Φ0 (c : Dev nD) : sProp 𝕄 :=
  iprop(Pipeline.ΦD osem0 spec0 H0 V c ∗ Pipeline.prefHeld (Ix := Unit) (Name := ℕ) (U := Pipeline.UD sig nD τ) (Lvl := ℕ) pre0 c (fun _ => fullShare) a0.1)

/-- The proof data of pipeline 0 on core `c`. -/
def dat0 (hH : ∀ c, Hyp0 (F := F) a0 c) (c : Dev nD) : Dat τ (Elt F) Unit ℕ (Pipeline.UD sig nD τ) ℕ (cfg0 a0) c where
  A w := V c (Pipeline.arrRef spec0 w)
  after w t := match w with
    | ⟨0, _⟩ => out0 c (grid0.coords t) (ms0_0 a0 t) (hs0_0 a0 t) (a0.1 0) (V c main_v1) (hH c)
  Φ _ := Φ0 V a0 c
  q _ := fullShare
  owed _ := 0

theorem A_eq0 (hH : ∀ c, Hyp0 (F := F) a0 c) (c : Dev nD) (w : Fin (cfg0 a0).W) : (dat0 V a0 hH c).A w = V c (Pipeline.arrRef spec0 w) := by
  dsimp only [dat0]
theorem after0_0 (hH : ∀ c, Hyp0 (F := F) a0 c) (c : Dev nD) (t : Fin (cfg0 a0).N) :
    (dat0 V a0 hH c).after 0 t = out0 c (grid0.coords t) (ms0_0 a0 t) (hs0_0 a0 t) (a0.1 0) (V c main_v1) (hH c) := by dsimp only [dat0]; try rfl

theorem prefHeld0_eq (c : Dev nD) :
    (Pipeline.prefHeld (Ix := Unit) (Name := ℕ) (U := Pipeline.UD sig nD τ) (Lvl := ℕ) pre0 c (fun _ => fullShare) a0.1 : sProp 𝕄) = tbPt0 c (a0.1 0) := by
  unfold Pipeline.prefHeld
  rw [show (Finset.univ : Finset (Fin 1)) = {(0 : Fin 1)} from by decide, bigSep_singleton]
  rfl
theorem hbmPts0_eq (c : Dev nD) :
    (bigSep H0 (fun b => ((c : Thread nD τ).loc b) ↦{fullShare} V c b) : sProp 𝕄) = iprop(hbPt0 c (V c main_v1)) := by
  rw [BI.bigSep_eq_bigSepL_of_eq [main_v1] (by decide) (by decide)]; rfl

theorem Phi0_eq (c : Dev nD) :
    (Φ0 V a0 c : sProp 𝕄) = iprop((Pipeline.scopedRest (Ix := Unit) (Name := ℕ) (U := Pipeline.UD sig nD τ) (Lvl := ℕ) (Val := Elt F) spec0 c ∗ (∃ r, prngReg c r) ∗ iprop(semVal ((c : Thread nD τ), SemLoc.dma 1) 0) ∗ iprop(hbPt0 c (V c main_v1))) ∗ tbPt0 c (a0.1 0)) := by
  unfold Φ0; rw [Pipeline.ΦD_eq, ownSems00_eq, hbmPts0_eq, prefHeld0_eq]

def bodyPre0 (hH : ∀ c, Hyp0 (F := F) a0 c) (c : Dev nD) (t : Fin (cfg0 a0).N) : sProp 𝕄 :=
  iprop((dat0 V a0 hH c).Φ t.castSucc ∗ (dat0 V a0 hH c).owesAt () t.castSucc
    ∗ (∃ d, owns (c : Thread nD τ) (ms0_0 a0 t) fullShare ((dat0 V a0 hH c).before 0 t d)))

def bodyPost0 (hH : ∀ c, Hyp0 (F := F) a0 c) (c : Dev nD) (t : Fin (cfg0 a0).N) : sProp 𝕄 :=
  iprop((dat0 V a0 hH c).Φ t.succ ∗ (dat0 V a0 hH c).owesAt () t.succ
    ∗ owns (c : Thread nD τ) (ms0_0 a0 t) fullShare ((dat0 V a0 hH c).after 0 t))

theorem sound_body0 (hH : ∀ c, Hyp0 (F := F) a0 c) (c : Dev nD) (t : Fin (cfg0 a0).N) :
    bodyPre0 V a0 hH c t ⊢ wp frame (wpE (defs₀ (F := F)) Variants.none c none) Set.univ (bodyAt0 a0 t) (fun _ => bodyPost0 V a0 hH c t) := by
  unfold bodyPre0 bodyPost0 bodyAt0
  rw [show (dat0 V a0 hH c).Φ t.succ = (dat0 V a0 hH c).Φ t.castSucc from rfl, after0_0]
  rw [show (dat0 V a0 hH c).Φ t.castSucc = Φ0 V a0 c from rfl, Phi0_eq]
  unfold Dat.owesAt Pipeline.owesWithin
  rw [show (dat0 V a0 hH c).owed t.castSucc = 0 from rfl, show (dat0 V a0 hH c).owed t.succ = 0 from rfl]
  unfold out0
  iintro ⟨⟨⟨HR, Hg, Hq0, Hh0⟩, HT⟩, ⟨%W, -, HW⟩, ⟨%d0, H0⟩⟩
  iapply ((kernelRun0 c (grid0.coords t) _ _ (a0.1 0) (V c main_v1) (hH c)).2 W _)
  isplitl [H0]; · iexists _; iexact H0
  isplitl [HT]; · iexact HT
  isplitl [Hq0]; · iexact Hq0
  isplitl [Hh0]; · iexact Hh0
  isplitl [HW]; · iexact HW
  iintro ⟨⟨%e1, H1⟩, HT, Hq0, Hh0, ⟨%W', HW'⟩⟩
  isplitl [HR Hg Hq0 Hh0 HT]
  · isplitl [HR Hg Hq0 Hh0]
    · isplitl [HR]; · iexact HR
      isplitl [Hg]; · iexact Hg
      isplitl [Hq0]; · iexact Hq0
      iexact Hh0
    iexact HT
  isplitl [HW']
  · iexists W'; isplitr; · ipureintro; exact fun _ _ => Or.inl trivial
    iexact HW'
  unfold owns; iexists _; isplitr
  swap; · iexact H1
  ipureintro; exact View.read_writes_of_cover _ _ _ _ _ (cover0 c _ _ _ _ _ _)

theorem body_obligation0 (hH : ∀ c, Hyp0 (F := F) a0 c) (c : Dev nD) :
    BodyObligation (dat0 (F := F) V a0 hH c) (defs₀ (F := F)) Variants.none () Set.univ := fun t => by
  rw [bigSep_W0, bigSep_W0]
  exact sound_body0 V a0 hH c t

end Data

end Cert.KernelIdeal.Hand

end
-- ==== Proof.KIRegion1.lean ====
/-
  Region 1 of the program: the gated-recurrent-unit kernel as a pipeline of seven windows
  (six inputs, one output) on a grid of eight column tiles, stated at a parameter `V`, the
  TensorCore's buffer contents when the region is entered, and for every float family.

  The mathematics: at grid point `t` (column tile `i = coords t`) the body reads the six input
  blocks x0 … x5 whole, reads x1 a second time on the columns 256·i … 256·i+255, and overwrites
  the whole output block with one value computed from those reads. So the output's staging
  buffer after the body is a single covering piece, a function of the six blocks and of `i`;
  an input's staging buffer holds its block at every point, whether the pipeline fetched it
  there or not (a block whose index did not move is still the block).
-/
import proofs.«421312_j764504178844_2_alg».proof.Proof.Gen.KernelIdeal.Launch
import proofs.«421312_j764504178844_2_alg».proof.Proof.Gen.KernelIdeal.Skeleton
import proofs.«421312_j764504178844_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, for any proof data whose
    array is `V`'s and whose body leaves the block where it is. Windows 0 and 1 have a constant block
    index (fetched at the first point only), windows 2 to 5 move with the tile (fetched at every point):
    the same argument serves both, an unfetched buffer still holding the block of an unmoved index. -/

theorem before1_0_of {c : Dev nD} (dat : Dat τ (Elt F) Unit ℕ (Pipeline.UD sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  -- the array's block at any point is the block read off `V`
  have hblk : ∀ s : Fin cfg1.N, dat.blockOf 0 s = iblk1 V c 0 s := fun s => by
    unfold Dat.blockOf iblk1; rw [hA]
  -- the body leaves the block in place, so the buffer holds a fetched block whether or not the fetch ran
  have hkeep : ∀ s : Fin cfg1.N, (cfg1.win 0).cut (cfg1.grid.coords s) (dat.after 0 s) = dat.blockOf 0 s := fun s => by
    rw [hafter, hblk]
  rw [dat.before_in_eq_fetched 0 rfl (fun _ => rfl) (fun _ _ _ => rfl) hkeep t d]
  -- an uncut window's fetch fills the whole buffer
  unfold Dat.fetched; rw [hblk]; rfl

theorem before1_1_of {c : Dev nD} (dat : Dat τ (Elt F) Unit ℕ (Pipeline.UD sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  -- the array's block at any point is the block read off `V`
  have hblk : ∀ s : Fin cfg1.N, dat.blockOf 1 s = iblk1 V c 1 s := fun s => by
    unfold Dat.blockOf iblk1; rw [hA]
  -- the body leaves the block in place, so the buffer holds a fetched block whether or not the fetch ran
  have hkeep : ∀ s : Fin cfg1.N, (cfg1.win 1).cut (cfg1.grid.coords s) (dat.after 1 s) = dat.blockOf 1 s := fun s => by
    rw [hafter, hblk]
  rw [dat.before_in_eq_fetched 1 rfl (fun _ => rfl) (fun _ _ _ => rfl) hkeep t d]
  -- an uncut window's fetch fills the whole buffer
  unfold Dat.fetched; rw [hblk]; rfl

theorem before1_2_of {c : Dev nD} (dat : Dat τ (Elt F) Unit ℕ (Pipeline.UD sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  -- the array's block at any point is the block read off `V`
  have hblk : ∀ s : Fin cfg1.N, dat.blockOf 2 s = iblk1 V c 2 s := fun s => by
    unfold Dat.blockOf iblk1; rw [hA]
  -- the body leaves the block in place, so the buffer holds a fetched block whether or not the fetch ran
  have hkeep : ∀ s : Fin cfg1.N, (cfg1.win 2).cut (cfg1.grid.coords s) (dat.after 2 s) = dat.blockOf 2 s := fun s => by
    rw [hafter, hblk]
  rw [dat.before_in_eq_fetched 2 rfl (fun _ => rfl) (fun _ _ _ => rfl) hkeep t d]
  -- an uncut window's fetch fills the whole buffer
  unfold Dat.fetched; rw [hblk]; rfl

theorem before1_3_of {c : Dev nD} (dat : Dat τ (Elt F) Unit ℕ (Pipeline.UD sig nD τ) ℕ cfg1 c)
    (hA : dat.A 3 = V c (Pipeline.arrRef spec1 3)) (hafter : ∀ t, dat.after 3 t = iblk1 V c 3 t)
    (t : Fin cfg1.N) (d) : dat.before 3 t d = iblk1 V c 3 t := by
  -- the array's block at any point is the block read off `V`
  have hblk : ∀ s : Fin cfg1.N, dat.blockOf 3 s = iblk1 V c 3 s := fun s => by
    unfold Dat.blockOf iblk1; rw [hA]
  -- the body leaves the block in place, so the buffer holds a fetched block whether or not the fetch ran
  have hkeep : ∀ s : Fin cfg1.N, (cfg1.win 3).cut (cfg1.grid.coords s) (dat.after 3 s) = dat.blockOf 3 s := fun s => by
    rw [hafter, hblk]
  rw [dat.before_in_eq_fetched 3 rfl (fun _ => rfl) (fun _ _ _ => rfl) hkeep t d]
  -- an uncut window's fetch fills the whole buffer
  unfold Dat.fetched; rw [hblk]; rfl

theorem before1_4_of {c : Dev nD} (dat : Dat τ (Elt F) Unit ℕ (Pipeline.UD sig nD τ) ℕ cfg1 c)
    (hA : dat.A 4 = V c (Pipeline.arrRef spec1 4)) (hafter : ∀ t, dat.after 4 t = iblk1 V c 4 t)
    (t : Fin cfg1.N) (d) : dat.before 4 t d = iblk1 V c 4 t := by
  -- the array's block at any point is the block read off `V`
  have hblk : ∀ s : Fin cfg1.N, dat.blockOf 4 s = iblk1 V c 4 s := fun s => by
    unfold Dat.blockOf iblk1; rw [hA]
  -- the body leaves the block in place, so the buffer holds a fetched block whether or not the fetch ran
  have hkeep : ∀ s : Fin cfg1.N, (cfg1.win 4).cut (cfg1.grid.coords s) (dat.after 4 s) = dat.blockOf 4 s := fun s => by
    rw [hafter, hblk]
  rw [dat.before_in_eq_fetched 4 rfl (fun _ => rfl) (fun _ _ _ => rfl) hkeep t d]
  -- an uncut window's fetch fills the whole buffer
  unfold Dat.fetched; rw [hblk]; rfl

theorem before1_5_of {c : Dev nD} (dat : Dat τ (Elt F) Unit ℕ (Pipeline.UD sig nD τ) ℕ cfg1 c)
    (hA : dat.A 5 = V c (Pipeline.arrRef spec1 5)) (hafter : ∀ t, dat.after 5 t = iblk1 V c 5 t)
    (t : Fin cfg1.N) (d) : dat.before 5 t d = iblk1 V c 5 t := by
  -- the array's block at any point is the block read off `V`
  have hblk : ∀ s : Fin cfg1.N, dat.blockOf 5 s = iblk1 V c 5 s := fun s => by
    unfold Dat.blockOf iblk1; rw [hA]
  -- the body leaves the block in place, so the buffer holds a fetched block whether or not the fetch ran
  have hkeep : ∀ s : Fin cfg1.N, (cfg1.win 5).cut (cfg1.grid.coords s) (dat.after 5 s) = dat.blockOf 5 s := fun s => by
    rw [hafter, hblk]
  rw [dat.before_in_eq_fetched 5 rfl (fun _ => rfl) (fun _ _ _ => rfl) hkeep t d]
  -- an uncut window's fetch fills the whole buffer
  unfold Dat.fetched; rw [hblk]; rfl

/-! ## The body's accesses -/

abbrev r1_x : Rect S1x2048 := Rect.unit (s := S1x2048) ![0, 0] S1x2048.size inb_S1x2048_S1x2048_0_0
abbrev r1_w : Rect S3x256x2048 := Rect.unit (s := S3x256x2048) ![0, 0, 0] S3x256x2048.size inb_S3x256x2048_S3x256x2048_0_0_0
abbrev r1_b : Rect S3x256 := Rect.unit (s := S3x256) ![0, 0] S3x256.size inb_S3x256_S3x256_0_0
/-- the previous state's columns of tile `i`: 256·i … 256·i + 255 of the one row -/
abbrev r1_h (i : grid1.Coords) : Rect S1x2048 := Rect.unit (s := S1x2048) (k1_off1 i) S1x256.size (k1_off1_inb i)
abbrev r1_o : Rect S1x1x256 := Rect.unit (s := S1x1x256) ![0, 0, 0] S1x1x256.size inb_S1x1x256_S1x1x256_0_0_0

/-! ## What the body leaves in the output window's buffer -/

/-- window 6's staging buffer after the body, from the six input blocks -/
def out1_6 (i : grid1.Coords) (x0 x1 : Vec F S1x2048 .f32) (x2 x3 : Vec F S3x256x2048 .f32) (x4 x5 : Vec F S3x256 .f32) : Vec F S1x1x256 .f32 :=
  View.canon [⟨r1_o, k1_pay1 (k1_pay2 (View.ld x0 r1_x)) (k1_pay3 (View.ld x1 r1_x)) (k1_pay5 (View.ld x3 r1_w)) (k1_pay6 (View.ld x4 r1_b)) (k1_pay7 (View.ld x5 r1_b))
      (k1_pay8 (View.ld x0 r1_x) (View.ld x2 r1_w) (View.ld x4 r1_b)) (k1_pay9 (View.ld x1 r1_x) (View.ld x3 r1_w) (View.ld x5 r1_b))
      (k1_pay10 (View.ld x0 r1_x) (View.ld x2 r1_w) (View.ld x4 r1_b)) (k1_pay11 (View.ld x1 r1_x) (View.ld x3 r1_w) (View.ld x5 r1_b))
      (k1_pay12 (View.ld x2 r1_w)) (View.ld x1 (r1_h i))⟩]

/-- The one store is the whole buffer, so it covers it. -/
theorem cover1_6 (p0 : Vec F S1x1x256 .f32) (y : S1x1x256.Idx) :
    ∃ pc ∈ ([⟨r1_o, p0⟩] : List (View.Piece (Elt F) S1x1x256 .f32)), y ∈ pc.1.set :=
  View.cover_of_tiled [⟨r1_o, p0⟩] S1x1x256.size (by rfl) y

set_option maxHeartbeats 1000000 in
/-- The kernel body on whole staging memrefs, the six inputs' at read contents `x0 … x5` and the output's at
    anything, runs to the continuation holding the inputs' as they were and the output's at `out1_6` of them:
    the printed function and its part are their skeletons, whose memory operations are seven whole-block loads,
    the second load of `x1` at the tile's columns, and one whole-block store. -/
theorem sound_kernel1 (c : Dev nD) (E : Set ℕ) (i : grid1.Coords)
    (arg1 : Memref sig .tc .vmem S1x2048 .f32) (harg1 : arg1.IsWhole) (arg2 : Memref sig .tc .vmem S1x2048 .f32) (harg2 : arg2.IsWhole)
    (arg3 : Memref sig .tc .vmem S3x256x2048 .f32) (harg3 : arg3.IsWhole) (arg4 : Memref sig .tc .vmem S3x256x2048 .f32) (harg4 : arg4.IsWhole)
    (arg5 : Memref sig .tc .vmem S3x256 .f32) (harg5 : arg5.IsWhole) (arg6 : Memref sig .tc .vmem S3x256 .f32) (harg6 : arg6.IsWhole)
    (arg7 : Memref sig .tc .vmem S1x1x256 .f32) (harg7 : arg7.IsWhole)
    (x0 x1 : Vec F S1x2048 .f32) (x2 x3 : Vec F S3x256x2048 .f32) (x4 x5 : Vec F S3x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out1_6 i x0 x1 x2 x3 x4 x5)) -∗ K ⟨⟩))
      ⊢ wp frame (wpE (defs₀ (F := F)) Variants.none c none) E
          (cc1__gru_kernel i arg1 harg1 arg2 harg2 arg3 harg3 arg4 harg4 arg5 harg5 arg6 harg6 arg7 harg7) K := by
  simp only [cc1__gru_kernel_eq_skeleton]; unfold cc1__gru_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  -- the seven loads read the owned contents, the store rewrites the output's buffer as one piece
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  iexists _; isplitr
  swap
  · iexact H6
  -- one piece that is the whole buffer: what is read back is the piece's payload
  ipureintro
  exact View.read_writes_eq_canon _ _ _ (cover1_6 _)

/-! ## The pipeline's proof data -/

/-- The proof data of pipeline 1 on core `c`: the arrays as the region finds them (`V`); after the body at
    point `t` each input's buffer at its block and the output's at `out1_6` of the six blocks and the tile;
    the invariant the scoped rest and the generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (grid1.coords t) (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (grid1.coords t) (iblk1 V c 0 t) (iblk1 V c 1 t) (iblk1 V c 2 t) (iblk1 V c 3 t) (iblk1 V c 4 t) (iblk1 V c 5 t) := by
  dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the kernel's triple applies; the invariant
    and the core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  -- each input's buffer holds its block; the invariant and the tallies do not depend on the point
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIData.lean ====
/-
  The buffer contents between the items of @main, the prefetched table's contents, and every pipeline's proof data.

  @main is: two constants; the clip of the index (six operations, ending in the table in scalar memory); the reshape
  of the embedding table; REGION 0 (the gather); five reshapes; REGION 1 (the GRU cell).  `W0 … W6` are core `c`'s
  unscoped buffers at launch and after each item: a host stretch's operations folded over the contents before it, a
  region's arrays at what its write-backs leave and every other buffer as the region found it.
-/
import proofs.«421312_j764504178844_2_alg».proof.Proof.KIRegion0
import proofs.«421312_j764504178844_2_alg».proof.Proof.KIRegion1
import proofs.«421312_j764504178844_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- Core `c`'s unscoped buffers at launch, and after the three host stretches before region 0. -/
abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
/-- The same read at the TensorCore's references: what region 0 finds. -/
abbrev VR3 : (c : Dev nD) → (b : Ref sig .tc) → Buf (Elt F) ((c : Thread nD τ).loc b) := fun c b => W3 m c b

/-- The prefetched table's contents when region 0 is entered (one device). -/
def tbl : pre0.Contents (Elt F) := fun k => VR3 m (0 : Dev nD) (pre0.ref k)
theorem VR3_pre (c : Dev nD) (k : Fin 1) : VR3 m c (pre0.ref k) = tbl m k := by
  obtain rfl : c = 0 := Subsingleton.elim _ _; rfl
/-- They are admissible: no index map reads the table. -/
abbrev adm0 : (pcfg0 (F := F)).Adm := ⟨tbl m, (by show ok0 (F := F) (tbl m); unfold ok0; trivial)⟩
/-- Every pipeline's tables. -/
abbrev adm : (p : Fin 2) → (pcfgs (F := F) p).Adm
  | ⟨0, _⟩ => adm0 m
  | ⟨1, _⟩ => cfg1.toPCfg_adm
  | ⟨_ + 2, h⟩ => absurd h (Nat.not_lt.2 (Nat.le_add_left _ _))

variable (hH : ∀ c : Dev nD, Hyp0 (F := F) (adm0 m) c)

/-- After region 0: its output array at what the write-back leaves, every other buffer as the region found it. -/
def W4 (c : Dev nD) : Valuation τ sig (Elt F) :=
  Pipeline.withArrays spec0 c (W3 m c) fun w => (dat0 (VR3 m) (adm0 m) hH c).arrAt w (cfg0 (adm0 m)).N
/-- After the five reshapes: what region 1 finds. -/
def W5 (c : Dev nD) : Valuation τ sig (Elt F) := StableHlo.after hostOps1 (W4 m hH c)
abbrev VR5 : (c : Dev nD) → (b : Ref sig .tc) → Buf (Elt F) ((c : Thread nD τ).loc b) := fun c b => W5 m hH c b
/-- After region 1. -/
def W6 (c : Dev nD) : Valuation τ sig (Elt F) :=
  Pipeline.withArrays spec1 c (W5 m hH c) fun w => (dat1 (VR5 m hH) c).arrAt w cfg1.N

/-- Every pipeline's proof data, each at its region's entry contents. -/
def pdats : (p : Fin 2) → (c : Dev nD) → Dat τ (Elt F) Unit ℕ (Pipeline.UD sig nD τ) ℕ (Pipeline.pin (pcfgs (F := F)) (adm m) p) c
  | ⟨0, _⟩ => fun c => dat0 (VR3 m) (adm0 m) hH c
  | ⟨1, _⟩ => fun c => dat1 (VR5 m hH) c

end Cert.KernelIdeal.Hand

end
-- ==== Proof.KIRun.lean ====
/-
  THE RUN of @main: its items as segments — a host segment per stretch of host operations from the contents before it,
  a region per pallas_call — chained from the launch to the return, and the launch itself.  Region 0 takes from the
  unscoped buffers its output array, the prefetched table (whole) and the embedding table it copies from, beside its
  own DMA semaphore; region 1 takes its seven arrays.  The result: every weakly fair execution terminates with each
  unscoped buffer at `W6`, so the result array at what region 1's write-backs leave and every argument as launched.
-/
import proofs.«421312_j764504178844_2_alg».proof.Proof.KIData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
variable (hH : ∀ c : Dev nD, Hyp0 (F := F) (adm0 m) c)

/-! ## What the regions leave, read at the references -/

abbrev VR4 : (c : Dev nD) → (b : Ref sig .tc) → Buf (Elt F) ((c : Thread nD τ).loc b) := fun c b => W4 m hH c b
abbrev VR6 : (c : Dev nD) → (b : Ref sig .tc) → Buf (Elt F) ((c : Thread nD τ).loc b) := fun c b => W6 m hH c b

theorem W4_arr (c : Dev nD) (w : Fin 1) :
    W4 m hH c (Proc.devRef .tc (Pipeline.arrRef spec0 w)) = (dat0 (VR3 m) (adm0 m) hH c).arrAt w (cfg0 (adm0 m)).N := by
  unfold W4; exact Pipeline.withArrays_arr spec0 winFacts0.arr_inj c _ _ w
theorem W4_of_ne (c : Dev nD) (b : Ref sig .tc) (hb : ∀ w, Pipeline.arrRef spec0 w ≠ b) :
    W4 m hH c (Proc.devRef .tc b) = W3 m c (Proc.devRef .tc b) := by
  unfold W4; exact Pipeline.withArrays_of_ne spec0 c _ _ b hb
theorem hF0 (c : Dev nD) (w : Fin 1) : (dat0 (VR3 m) (adm0 m) hH c).arrAt w (cfg0 (adm0 m)).N = VR4 m hH c (Pipeline.arrRef spec0 w) :=
  (W4_arr m hH c w).symm
theorem hrest0 (c : Dev nD) : ∀ b, b ∉ Finset.univ.image (Pipeline.arrRef spec0) → VR4 m hH c b = VR3 m c b :=
  fun b hb => W4_of_ne m hH c b fun w e => hb (Finset.mem_image.mpr ⟨w, Finset.mem_univ _, e⟩)

theorem W6_arr (c : Dev nD) (w : Fin 7) :
    W6 m hH c (Proc.devRef .tc (Pipeline.arrRef spec1 w)) = (dat1 (VR5 m hH) c).arrAt w cfg1.N := by
  unfold W6; exact Pipeline.withArrays_arr spec1 winFacts1.arr_inj c _ _ w
theorem W6_of_ne (c : Dev nD) (b : Ref sig .tc) (hb : ∀ w, Pipeline.arrRef spec1 w ≠ b) :
    W6 m hH c (Proc.devRef .tc b) = W5 m hH c (Proc.devRef .tc b) := by
  unfold W6; exact Pipeline.withArrays_of_ne spec1 c _ _ b hb
theorem hF1 (c : Dev nD) (w : Fin 7) : (dat1 (VR5 m hH) c).arrAt w cfg1.N = VR6 m hH c (Pipeline.arrRef spec1 w) :=
  (W6_arr m hH c w).symm
theorem hrest1 (c : Dev nD) : ∀ b, b ∉ Finset.univ.image (Pipeline.arrRef spec1) → VR6 m hH c b = VR5 m hH c b :=
  fun b hb => W6_of_ne m hH c b fun w e => hb (Finset.mem_image.mpr ⟨w, Finset.mem_univ _, e⟩)

/-- The result array after the run. -/
theorem W6_v8 (c : Dev nD) : W6 m hH c (Proc.devRef .tc main_v8) = (dat1 (VR5 m hH) c).arrAt 6 cfg1.N := W6_arr m hH c 6

/-- A buffer no item writes reaches the end as launched. -/
theorem W6_kept (c : Dev nD) (r : Ref sig .tc) (h1 : ∀ w, Pipeline.arrRef spec1 w ≠ r) (h2 : r ∉ hostOps1_W)
    (h3 : ∀ w, Pipeline.arrRef spec0 w ≠ r) (h4 : r ∉ hostOps0_2_W) (h5 : r ∉ hostOps0_1_W) (h6 : r ∉ hostOps0_W) :
    W6 m hH c (Proc.devRef .tc r) = m ((c : Thread nD τ).loc r) :=
  (W6_of_ne m hH c r h1).trans <| (by unfold W5; exact StableHlo.after_of_writes_sub hostOps1 _ hostOps1_writes h2 : W5 m hH c (Proc.devRef .tc r) = W4 m hH c (Proc.devRef .tc r)).trans <|
    (W4_of_ne m hH c r h3).trans <| (V3_of m c r h4).trans <| (V2_of m c r h5).trans <| (V1_of m c r h6).trans rfl

/-! ## The thread state and the host segments -/

abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m hH c) ∗ ∃ r, prngReg c r)

/-! ## Region 0's share of the unscoped buffers -/

theorem H0_subP : H0 ⊆ Pipeline.restRefsP sig pre0 spec0 := by decide

/-- The buffers that bypass region 0's windows: the prefetched table, the embedding table, and the rest. -/
theorem rest0_split (c : Dev nD) :
    (Pipeline.unscopedRest (Ix := Unit) (Name := ℕ) (U := Pipeline.UD sig nD τ) (Lvl := ℕ) spec0 c (VR3 m c) : sProp 𝕄)
      = iprop(Pipeline.prefHeld (Ix := Unit) (Name := ℕ) (U := Pipeline.UD sig nD τ) (Lvl := ℕ) pre0 c (fun _ => fullShare) (tbl m)
          ∗ (bigSep H0 fun b => (((c : Thread nD τ)).loc b) ↦{fullShare} VR3 m c b)
          ∗ (bigSep (Pipeline.restRefsP sig pre0 spec0 \ H0) fun b => (((c : Thread nD τ)).loc b) ↦{fullShare} VR3 m c b)) := by
  rw [Pipeline.unscopedRest_split preFacts0 c (VR3 m c)]
  rw [show (fun k => VR3 m c (pre0.ref k)) = tbl m from funext fun k => VR3_pre m c k]
  unfold Pipeline.unscopedRestP
  rw [BI.bigSep_sdiff_split H0_subP]
  rfl

/-! ## The regions as segments -/

set_option backward.isDefEq.respectTransparency.types false in
/-- REGION 0 over the thread state: entered from every unscoped buffer at `W3`, left at `W4`.  Its output array is split
    out of the unscoped buffers and put back at what the write-back leaves; the prefetched table, the embedding table and
    the generator register enter the invariant beside the body's own semaphore (at zero from the boundary and back) and
    come out as they went in; nothing owed. -/
def reg0 : Pipeline.RegionSeg (pcfgs (F := F)) (adm m) (pdats m hH) () defs₀ 𝒱₀ L lv 0 where
  win := winFacts0.to₀
  block_pos := block_pos0
  stage_whole := stage_whole0
  K := Fin 1
  osem := osem0
  ho := ownSemFacts0
  hbody c := (body_obligation0 (VR3 m) (adm0 m) hH c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m hH c) ∗ R c)
  X c := iprop((∃ r, prngReg c r) ∗ Pipeline.ownSems0 (Ix := Unit) (Name := ℕ) (U := Pipeline.UD sig nD τ) (Lvl := ℕ) (Val := Elt F) (τ := τ) osem0 c ∗ (bigSep H0 fun b => (((c : Thread nD τ)).loc b) ↦{fullShare} VR3 m c b))
  Y c := iprop((∃ r, prngReg c r) ∗ (bigSep H0 fun b => (((c : Thread nD τ)).loc b) ↦{fullShare} VR3 m c b)
    ∗ Pipeline.prefHeld (Ix := Unit) (Name := ℕ) (U := Pipeline.UD sig nD τ) (Lvl := ℕ) pre0 c (fun _ => fullShare) (tbl m))
  Z c := bigSep (Pipeline.restRefsP sig pre0 spec0 \ H0) fun b => (((c : Thread nD τ)).loc b) ↦{fullShare} VR3 m c b
  hentry c := by
    have hsplit := Pipeline.arrays_of_unscopedBufs (p := 0) (pcfgs (F := F)) (adm m) (pdats m hH) winFacts0 arr_whole0 c
      ((pdats m hH 0 c).share_full fun _ => rfl) (VR3 m c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest0_split m c)) $$ Hrest
    icases H' with ⟨Hpf, HH, HR⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m hH 0 c).Φ 0 = Φ0 (VR3 m) (adm0 m) c from rfl]; unfold Φ0; rw [Pipeline.ΦD_eq]
    iintro ⟨⟨Hp, Ho, HH⟩, Hpf, Hr⟩
    isplitl [Hr Hp Ho HH]
    · isplitl [Hr]; · iexact Hr
      isplitl [Hp]; · iexact Hp
      isplitl [Ho]; · iexact Ho
      iexact HH
    iexact Hpf
  hout c := by
    rw [show (pdats m hH 0 c).Φ (Fin.last _) = Φ0 (VR3 m) (adm0 m) c from rfl]; unfold Φ0; rw [Pipeline.ΦD_eq]
    iintro ⟨⟨Hr, Hp, Ho, HH⟩, Hpf⟩
    isplitl [Hp HH Hpf]
    · isplitl [Hp]; · iexact Hp
      isplitl [HH]; · iexact HH
      iexact Hpf
    isplitl [Ho]; · iexact Ho
    iexact Hr
  hexit c := by
    have hjoin := Pipeline.unscopedBufs_of_arrays (p := 0) (pcfgs (F := F)) (adm m) (Ix := Unit) (Name := ℕ) (U := Pipeline.UD sig nD τ) (Lvl := ℕ)
      winFacts0 arr_whole0 c (pdats m hH) ((pdats m hH 0 c).share_full fun _ => rfl)
      (VR3 m c) (VR4 m hH c) ((pdats m hH 0 c).arrAt · (cfg0 (adm0 m)).N) (hF0 m hH c) (hrest0 m hH c)
    rw [Pipeline.unscopedBufs_held] at hjoin
    iintro ⟨Ha, HO, ⟨HY, HH, Hpf⟩, HR⟩
    ihave Hrest := (Entails.of_eq (rest0_split m c).symm) $$ [Hpf HH HR]
    · isplitl [Hpf]; · iexact Hpf
      isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`.  Its seven arrays are split
    out of the unscoped buffers and put back at what the write-backs leave; the generator register into the invariant and
    out; nothing owed; no semaphore of the kernel's own. -/
def reg1 : Pipeline.RegionSeg (pcfgs (F := F)) (adm m) (pdats m hH) () defs₀ 𝒱₀ L lv 1 where
  win := winFacts1.to₀
  block_pos := block_pos1
  stage_whole := stage_whole1
  K := PEmpty
  osem k := k.elim
  ho := Pipeline.OwnSemFacts.none _
  hbody c := (body_obligation1 (VR5 m hH) c).loose
  hwaits := Pipeline.hwaits_of_owed_zero _ _ _ _ L lv 1 fun _ _ => rfl
  pre c := iprop(StableHlo.held (c : Thread nD τ) (Pipeline.ucRefs τ sig) (W5 m hH c) ∗ R c)
  post c := iprop(Tₙ m hH c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (VR5 m hH c)
  hentry c := by
    rw [Pipeline.ownSems0_none]
    have hsplit := Pipeline.arrays_of_unscopedBufs (p := 1) (pcfgs (F := F)) (adm m) (pdats m hH) winFacts1 arr_whole1 c
      ((pdats m hH 1 c).share_full fun _ => rfl) (VR5 m hH c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hH 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m hH 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := Pipeline.UD sig nD τ) (Lvl := ℕ)
      winFacts1 arr_whole1 c (pdats m hH) ((pdats m hH 1 c).share_full fun _ => rfl)
      (VR5 m hH c) (VR6 m hH c) ((pdats m hH 1 c).arrAt · cfg1.N) (hF1 m hH c) (hrest1 m hH c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six items in order. -/
abbrev segs : List (Pipeline.Seg (pcfgs (F := F)) (adm m) (pdats m hH) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m hH),
    .host (hseg hostOps1 hostOps1_sub hostOps1_fresh (W4 m hH)),
    .region (reg1 m hH) ]

set_option backward.isDefEq.respectTransparency.types false in
/-- THE RUN: from any memory with zero counters, every weakly fair execution of @main on the TensorCores terminates,
    nothing faulting, and in every final state the result array holds what region 1's write-backs leave
    and every argument array what it held at launch. -/
theorem run_main : θ_run defs (onTc (τ := τ) (main (F := F))) ⟨m, fun _ => 0, ρ⟩ (fun r => ∀ c : Dev nD,
      r.2.mem ((c.tc : Thread nD τ).loc main_v8) = (dat1 (VR5 m hH) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) (adm m) (pdats m hH) () (cellOf_inj (adm m)) embL defs₀ 𝒱₀ L lv m ρ main (segs m hH)
    (fun c Q => by
      rewrite [main_chain c, Pipeline.Seg.run_eq_chain,
        show (segs m hH).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hH)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m hH c b)
    (hfin := fun c s' => by
      iintro ⟨⟨Hh, -⟩, HSI⟩
      unfold StableHlo.held
      imodintro
      iapply (pointsTo_read_all (Pipeline.ucRefs τ sig) (fun b => (((c : Thread nD τ)).1, b)) (W6 m hH c) s')
      isplitl [Hh] <;> iassumption)
    (hQ := fun s h c =>
      ⟨(h c _ (mem_uc main_v8 (by decide))).trans (W6_v8 m hH c),
       (h c _ (mem_uc main_arg0 (by decide))).trans (W6_kept m hH c main_arg0 (by decide) (by decide) (by decide) (by decide) (by decide) (by decide)),
       (h c _ (mem_uc main_arg1 (by decide))).trans (W6_kept m hH c main_arg1 (by decide) (by decide) (by decide) (by decide) (by decide) (by decide)),
       (h c _ (mem_uc main_arg2 (by decide))).trans (W6_kept m hH c main_arg2 (by decide) (by decide) (by decide) (by decide) (by decide) (by decide)),
       (h c _ (mem_uc main_arg3 (by decide))).trans (W6_kept m hH c main_arg3 (by decide) (by decide) (by decide) (by decide) (by decide) (by decide)),
       (h c _ (mem_uc main_arg4 (by decide))).trans (W6_kept m hH c main_arg4 (by decide) (by decide) (by decide) (by decide) (by decide) (by decide)),
       (h c _ (mem_uc main_arg5 (by decide))).trans (W6_kept m hH c main_arg5 (by decide) (by decide) (by decide) (by decide) (by decide) (by decide)),
       (h c _ (mem_uc main_arg6 (by decide))).trans (W6_kept m hH c main_arg6 (by decide) (by decide) (by decide) (by decide) (by decide) (by decide))⟩)

end Cert.KernelIdeal.Hand

end
-- ==== Proof.KIHost.lean ====
/-
  What the host operations of @main leave in the buffers the two regions read, and region 0's output array after its
  one grid point.

  Before region 0: the table's one word is the input word clipped to [0, 50256] (a maximum with 0, then a minimum with
  50256), and the embedding table is the argument reshaped [50257, 2048] → [50257, 1, 2048]: entry (r, 0, k) is
  entry (r, k).  Region 0 has ONE grid point whose block is the whole output array, so the array it leaves is what
  its body left in the staging buffer.  Before region 1: that array untouched, the hidden row reshaped
  [1, 1, 2048] → [1, 2048], the stacked weights reshaped [6144, 2048] → [3, 2048, 2048] (entry (g, j, k) is entry
  (g·2048 + j, k)) and the stacked biases reshaped [6144] → [3, 2048] (entry (g, j) is entry g·2048 + j).
-/
import proofs.«421312_j764504178844_2_alg».proof.Proof.KIData
import proofs.«421312_j764504178844_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ)

/-! ## Reshapes read at an index -/

section Casts
variable {α : Type}

/-- [50257, 2048] → [50257, 1, 2048]: entry (r, 0, k) is entry (r, k). -/
theorem cast_row_unit (x : S50257x2048.Idx → α) (h : S50257x2048.ShapeCasts S50257x1x2048) (r : Fin 50257) (k : Fin 2048) :
    shapeCast S50257x1x2048 x h (ix3 r (0 : Fin 1) k) = x (ix2 r k) :=
  shapeCast_apply x h _ _ (by
    rw [Shape.rowMajor_val_two, Shape.rowMajor_val_three]
    show r.val * 2048 + k.val = (r.val * 1 + 0) * 2048 + k.val
    omega)

/-- [1, 1, 2048] → [1, 2048]: entry (0, k) is entry (0, 0, k). -/
theorem cast_hidden (x : S1x1x2048.Idx → α) (h : S1x1x2048.ShapeCasts S1x2048) (k : Fin 2048) :
    shapeCast S1x2048 x h (ix2 (0 : Fin 1) k) = x (ix3 (0 : Fin 1) (0 : Fin 1) k) :=
  shapeCast_apply x h _ _ (by
    rw [Shape.rowMajor_val_two, Shape.rowMajor_val_three]
    show (0 * 1 + 0) * 2048 + k.val = 0 * 2048 + k.val
    omega)

/-- [6144, 2048] → [3, 2048, 2048]: entry (g, j, k) is entry (g·2048 + j, k). -/
theorem cast_stack2 (x : S6144x2048.Idx → α) (h : S6144x2048.ShapeCasts S3x2048x2048) (g : Fin 3) (j k : Fin 2048) :
    shapeCast S3x2048x2048 x h (ix3 g j k) = x (ix2 (Cert.Spec.gr g j) k) :=
  shapeCast_apply x h _ _ (by
    rw [Shape.rowMajor_val_two, Shape.rowMajor_val_three]
    show (g.val * 2048 + j.val) * 2048 + k.val = (g.val * 2048 + j.val) * 2048 + k.val
    rfl)

/-- [6144] → [3, 2048]: entry (g, j) is entry g·2048 + j. -/
theorem cast_stack1 (x : S6144.Idx → α) (h : S6144.ShapeCasts S3x2048) (g : Fin 3) (j : Fin 2048) :
    shapeCast S3x2048 x h (ix2 g j) = x (ix1 (Cert.Spec.gr g j)) :=
  shapeCast_apply x h _ _ (by
    rw [Shape.rowMajor_val_one, Shape.rowMajor_val_two]
    show g.val * 2048 + j.val = g.val * 2048 + j.val
    rfl)

end Casts

/-! ## The arguments reach both regions as launched -/

/-- No host stretch before region 0 writes a reference outside its written list. -/
theorem W3_of (c : Dev nD) (b : Ref sig .tc) (h3 : b ∉ hostOps0_2_W) (h2 : b ∉ hostOps0_1_W) (h1 : b ∉ hostOps0_W) :
    W3 m c (Proc.devRef .tc b) = m ((c : Thread nD τ).loc b) :=
  (Gen.V3_of m c b h3).trans ((Gen.V2_of m c b h2).trans ((Gen.V1_of m c b h1).trans rfl))

/-- the embedding table as region 0 finds it: the argument, reshaped [50257,2048] → [50257,1,2048] -/
theorem VR3_v1_apply (c : Dev nD) (r : Fin 50257) (k : Fin 2048) : VR3 m c main_v1 (ix3 r 0 k) = m ((c : Thread nD τ).loc main_arg2) (ix2 r k) := by
  have e : (VR3 m c main_v1 : S50257x1x2048.Idx → Elt F .f32)
      = shapeCast S50257x1x2048 (W2 m c (Proc.devRef .tc main_arg2) : S50257x2048.Idx → Elt F .f32) shapeCasts_S50257x2048_S50257x1x2048 := by
    dsimp only [VR3, W3, hostOps0_2]; after_results; rfl
  have a : (W2 m c (Proc.devRef .tc main_arg2) : S50257x2048.Idx → Elt F .f32) = m ((c : Thread nD τ).loc main_arg2) :=
    (Gen.V2_of m c main_arg2 (by decide)).trans ((Gen.V1_of m c main_arg2 (by decide)).trans rfl)
  rw [e, a]
  exact cast_row_unit _ _ r k

variable (hH : ∀ c : Dev nD, Hyp0 (F := F) (adm0 m) c)

/-- Region 0 changes its output array only. -/
theorem W4_of (c : Dev nD) (b : Ref sig .tc) (h4 : ∀ w, Pipeline.arrRef spec0 w ≠ b) (h3 : b ∉ hostOps0_2_W) (h2 : b ∉ hostOps0_1_W) (h1 : b ∉ hostOps0_W) :
    W4 m hH c (Proc.devRef .tc b) = m ((c : Thread nD τ).loc b) := by
  unfold W4
  exact (Pipeline.withArrays_of_ne spec0 c _ _ b h4).trans (W3_of m c b h3 h2 h1)

/-- region 1's first input array is what region 0 left -/
theorem VR5_v2 (c : Dev nD) : VR5 m hH c main_v2 = (dat0 (VR3 m) (adm0 m) hH c).arrAt 0 (cfg0 (adm0 m)).N := by
  show W5 m hH c (Proc.devRef .tc main_v2) = _
  unfold W5
  refine (StableHlo.after_of_writes_sub hostOps1 _ hostOps1_writes (by decide)).trans ?_
  unfold W4
  exact Pipeline.withArrays_arr spec0 winFacts0.arr_inj c _ _ 0

/-- region 1's other inputs: the arguments reshaped -/
theorem VR5_v3_apply (c : Dev nD) (k : Fin 2048) : VR5 m hH c main_v3 (ix2 0 k) = m ((c : Thread nD τ).loc main_arg1) (ix3 0 0 k) := by
  have e : (VR5 m hH c main_v3 : S1x2048.Idx → Elt F .f32)
      = shapeCast S1x2048 (W4 m hH c (Proc.devRef .tc main_arg1) : S1x1x2048.Idx → Elt F .f32) shapeCasts_S1x1x2048_S1x2048 := by
    dsimp only [VR5]; unfold W5; dsimp only [hostOps1]; after_results; rfl
  have a : (W4 m hH c (Proc.devRef .tc main_arg1) : S1x1x2048.Idx → Elt F .f32) = m ((c : Thread nD τ).loc main_arg1) :=
    W4_of m hH c main_arg1 (by decide) (by decide) (by decide) (by decide)
  rw [e, a]
  exact cast_hidden _ _ k

theorem VR5_v4_apply (c : Dev nD) (g : Fin 3) (j k : Fin 2048) : VR5 m hH c main_v4 (ix3 g j k) = m ((c : Thread nD τ).loc main_arg3) (ix2 (Cert.Spec.gr g j) k) := by
  have e : (VR5 m hH c main_v4 : S3x2048x2048.Idx → Elt F .f32)
      = shapeCast S3x2048x2048 (W4 m hH c (Proc.devRef .tc main_arg3) : S6144x2048.Idx → Elt F .f32) shapeCasts_S6144x2048_S3x2048x2048 := by
    dsimp only [VR5]; unfold W5; dsimp only [hostOps1]; after_results; rfl
  have a : (W4 m hH c (Proc.devRef .tc main_arg3) : S6144x2048.Idx → Elt F .f32) = m ((c : Thread nD τ).loc main_arg3) :=
    W4_of m hH c main_arg3 (by decide) (by decide) (by decide) (by decide)
  rw [e, a]
  exact cast_stack2 _ _ g j k
theorem VR5_v5_apply (c : Dev nD) (g : Fin 3) (j k : Fin 2048) : VR5 m hH c main_v5 (ix3 g j k) = m ((c : Thread nD τ).loc main_arg4) (ix2 (Cert.Spec.gr g j) k) := by
  have e : (VR5 m hH c main_v5 : S3x2048x2048.Idx → Elt F .f32)
      = shapeCast S3x2048x2048 (W4 m hH c (Proc.devRef .tc main_arg4) : S6144x2048.Idx → Elt F .f32) shapeCasts_S6144x2048_S3x2048x2048 := by
    dsimp only [VR5]; unfold W5; dsimp only [hostOps1]; after_results; rfl
  have a : (W4 m hH c (Proc.devRef .tc main_arg4) : S6144x2048.Idx → Elt F .f32) = m ((c : Thread nD τ).loc main_arg4) :=
    W4_of m hH c main_arg4 (by decide) (by decide) (by decide) (by decide)
  rw [e, a]
  exact cast_stack2 _ _ g j k
theorem VR5_v6_apply (c : Dev nD) (g : Fin 3) (j : Fin 2048) : VR5 m hH c main_v6 (ix2 g j) = m ((c : Thread nD τ).loc main_arg5) (ix1 (Cert.Spec.gr g j)) := by
  have e : (VR5 m hH c main_v6 : S3x2048.Idx → Elt F .f32)
      = shapeCast S3x2048 (W4 m hH c (Proc.devRef .tc main_arg5) : S6144.Idx → Elt F .f32) shapeCasts_S6144_S3x2048 := by
    dsimp only [VR5]; unfold W5; dsimp only [hostOps1]; after_results; rfl
  have a : (W4 m hH c (Proc.devRef .tc main_arg5) : S6144.Idx → Elt F .f32) = m ((c : Thread nD τ).loc main_arg5) :=
    W4_of m hH c main_arg5 (by decide) (by decide) (by decide) (by decide)
  rw [e, a]
  exact cast_stack1 _ _ g j
theorem VR5_v7_apply (c : Dev nD) (g : Fin 3) (j : Fin 2048) : VR5 m hH c main_v7 (ix2 g j) = m ((c : Thread nD τ).loc main_arg6) (ix1 (Cert.Spec.gr g j)) := by
  have e : (VR5 m hH c main_v7 : S3x2048.Idx → Elt F .f32)
      = shapeCast S3x2048 (W4 m hH c (Proc.devRef .tc main_arg6) : S6144.Idx → Elt F .f32) shapeCasts_S6144_S3x2048 := by
    dsimp only [VR5]; unfold W5; dsimp only [hostOps1]; after_results; rfl
  have a : (W4 m hH c (Proc.devRef .tc main_arg6) : S6144.Idx → Elt F .f32) = m ((c : Thread nD τ).loc main_arg6) :=
    W4_of m hH c main_arg6 (by decide) (by decide) (by decide) (by decide)
  rw [e, a]
  exact cast_stack1 _ _ g j

/-! ## The prefetched table's word -/

omit hH in
/-- The word the body loads is the table's one entry. -/
theorem word0_eq (c : Dev nD) (xt : TbBuf0 (F := F) c) : word0 c xt = (xt : S1.Idx → Elt F .i32) (ix1 0) := by
  have hz : (![0] : Fin 1 → Nat) = fun _ => 0 := funext fun a => by fin_cases a; rfl
  have h := Memref.readAt_unit_zero (Elt F) main_v0 hz inb_S1_S1_0 xt
  exact (congrFun h (Shape.Idx.first _)).trans (congrArg (xt : S1.Idx → Elt F .i32) (eq_ix1 _))

omit hH in
/-- The table after the clip: the minimum of 50256 and the maximum of 0 and the input word, entrywise. -/
theorem tbl_eq : (tbl m 0 : S1.Idx → Elt F .i32)
    = minsi (broadcastInDim S1 ![] bcast_S_S1 (constantI S_ 32 50256#32)) (maxsi (broadcastInDim S1 ![] bcast_S_S1 (constantI S_ 32 0#32)) (m (((0 : Dev nD) : Thread nD τ).loc main_arg0))) := by
  unfold tbl
  show W3 m 0 (Proc.devRef .tc main_v0) = _
  dsimp only [W3, W2, W1, W0, hostOps0, hostOps0_1, hostOps0_2]
  after_results
  rfl

omit hH in
/-- the table's word is the clipped input word -/
theorem tbl_word (c : Dev nD) : word0 c (tbl m 0) = IntOp.minsi (50256#32) (IntOp.maxsi (0#32) (m ((c : Thread nD τ).loc main_arg0) (ix1 0))) := by
  obtain rfl : c = 0 := Subsingleton.elim _ _
  exact (word0_eq 0 (tbl m 0)).trans ((congrFun (tbl_eq m) (ix1 0)).trans rfl)

omit hH in
/-- The admissible contents carry that table. -/
theorem adm0_val : (adm0 m).1 = tbl m := rfl

omit hH in
/-- the same, at the table as the admissible contents carry it -/
theorem tbl_word' (c : Dev nD) : word0 (F := F) c ((adm0 m).1 0) = IntOp.minsi (50256#32) (IntOp.maxsi (0#32) (m ((c : Thread nD τ).loc main_arg0) (ix1 0))) :=
  (congrArg (fun t : pre0.Contents (Elt F) => word0 (F := F) c (t 0)) (adm0_val m)).trans (tbl_word m c)

/-! ## Region 0's array after its one grid point -/

/-- region 0's one grid point -/
def t00 : Fin (cfg0 (adm0 m)).N := ⟨0, by rw [show (cfg0 (adm0 m)).N = grid0.N from rfl, N_0]; decide⟩

omit hH in
/-- Every grid point of region 0 is that one. -/
theorem t00_all (t : Fin (cfg0 (adm0 m)).N) : t = t00 m :=
  Fin.ext (by have := t.isLt; have hN : (cfg0 (adm0 m)).N = 1 := N_0; show t.val = 0; omega)

/-- region 0's array after its ONE grid point: what the body left in the staging buffer -/
theorem arr0_eq (c : Dev nD) : (dat0 (VR3 m) (adm0 m) hH c).arrAt 0 (cfg0 (adm0 m)).N = out0 c (grid0.coords (t00 m)) (ms0_0 (adm0 m) (t00 m)) (hs0_0 (adm0 m) (t00 m)) ((adm0 m).1 0) (VR3 m c main_v1) (hH c) := by
  have hcover : ∀ i : S1x2048.Idx, i ∈ ((View.whole main_v2).slice ((win0 (adm0 m) 0).rect (t00 m))).set := by
    intro i
    rw [View.set_slice_whole, Rect.mem_set_unit]
    intro a
    have h0 : (i 0 : Nat) < 1 := (i 0).isLt
    have h1 : (i 1 : Nat) < 2048 := (i 1).isLt
    match a with
    | ⟨0, _⟩ =>
      show (win0 (adm0 m) 0).index (t00 m) 0 * (win0 (adm0 m) 0).size 0 ≤ (i 0 : Nat) ∧ (i 0 : Nat) < (win0 (adm0 m) 0).index (t00 m) 0 * (win0 (adm0 m) 0).size 0 + (win0 (adm0 m) 0).xsize (grid0.coords (t00 m)) 0
      rw [show (win0 (adm0 m) 0).index (t00 m) 0 * (win0 (adm0 m) 0).size 0 = 0 from rfl, show (win0 (adm0 m) 0).xsize (grid0.coords (t00 m)) 0 = 1 from rfl]; omega
    | ⟨1, _⟩ =>
      show (win0 (adm0 m) 0).index (t00 m) 1 * (win0 (adm0 m) 0).size 1 ≤ (i 1 : Nat) ∧ (i 1 : Nat) < (win0 (adm0 m) 0).index (t00 m) 1 * (win0 (adm0 m) 0).size 1 + (win0 (adm0 m) 0).xsize (grid0.coords (t00 m)) 1
      rw [show (win0 (adm0 m) 0).index (t00 m) 1 * (win0 (adm0 m) 0).size 1 = 0 from rfl, show (win0 (adm0 m) 0).xsize (grid0.coords (t00 m)) 1 = 2048 from rfl]; omega
  refine (dat0 (VR3 m) (adm0 m) hH c).arrAt_eq_of_cover 0 _ (fun t _ => ?_) (fun i => ⟨t00 m, rfl, hcover i⟩)
  · obtain rfl := t00_all m t
    show (win0 (adm0 m) 0).cut (grid0.coords (t00 m)) ((dat0 (VR3 m) (adm0 m) hH c).after 0 (t00 m)) = _
    rw [after0_0]
    have hz' : (fun a => (win0 (adm0 m) 0).index (t00 m) a * main_v2.ty.shape.size a) = fun _ => 0 := funext fun a => by fin_cases a <;> rfl
    exact (Memref.read_access_unit_zero (Elt F) main_v2 hz' (fun a => by rw [congrFun hz' a]; simp) _).symm

end Cert.KernelIdeal.Hand

end
-- ==== Proof.KIRow.lean ====
/-
  REGION 0, read at an index: the staging buffer the gather leaves holds, at column `k`, the entry of the embedding
  table at the row the prefetched word names, column `k`.
-/
import proofs.«421312_j764504178844_2_alg».proof.Proof.KIRegion0
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The one-row index `(0, k)` of the squeezed view is the index `(0, 0, k)` of the one-row slice. -/
theorem squeeze_row_idx (k : Fin 2048) :
    Shape.reshapeEquiv (s := S1x1x2048) (s' := S1x2048) squeezes_S1x1x2048_S1x2048.numel_eq (ValueIdx.ix2 0 k)
      = ValueIdx.ix3 0 0 k := by
  refine (Shape.reshapeEquiv_cons_one (n := 2) (d := ![1, 2048]) _ _).trans ?_
  funext a; match a with | ⟨0, _⟩ => rfl | ⟨1, _⟩ => rfl | ⟨2, _⟩ => rfl

theorem out0_apply (c : Dev nD) (i : grid0.Coords) (arg3 : Memref sig .tc .vmem S1x2048 .f32) (harg3 : arg3.IsWhole)
    (xt : TbBuf0 (F := F) c) (fh : HbBuf0 (F := F) c) (k0_hw1 : k0_chk1 (word0 c xt)) (hlt : (word0 c xt).toNat < 50257) (k : Fin 2048) :
    out0 c i arg3 harg3 xt fh k0_hw1 (ValueIdx.ix2 0 k) = fh (ValueIdx.ix3 ⟨(word0 c xt).toNat, hlt⟩ 0 k) := by
  unfold out0
  rw [View.read_writes_eq_canon _ _ _ (cover0 c i arg3 harg3 xt fh k0_hw1)]
  unfold kernelRun0
  dsimp only
  sl_unfold_words
  refine (congrFun (View.canon_unit_zero (S := S1x2048) rfl _ _) _).trans ?_
  rw [ReadAs.apply_same, View.read_apply]
  refine (cast_eq _ _).trans ?_
  refine congrArg fh ?_
  show (Rect.unit (s := S50257x1x2048) _ S1x1x2048.size _).emb (Shape.reshapeEquiv squeezes_S1x1x2048_S1x2048.numel_eq (ValueIdx.ix2 0 k)) = _
  rw [squeeze_row_idx]
  funext a; apply Fin.ext
  rw [Rect.emb_apply]
  match a with
  | ⟨0, _⟩ => exact Nat.add_zero _
  | ⟨1, _⟩ => rfl
  | ⟨2, _⟩ => exact (Nat.zero_add _).trans (Nat.one_mul _)

end Cert.KernelIdeal.Hand

end
-- ==== Proof.KIPay.lean ====
import proofs.«421312_j764504178844_2_alg».proof.Proof.Gen.KernelIdeal.Skeleton
import proofs.«421312_j764504178844_2_alg».proof.Proof.Spec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.KernelIdeal.PayValue

open Cert.KernelIdeal Cert.KernelIdeal.Gen Idealize.ShloMosaic Idealize.ShloMosaic.ValueIdx

/-! ## The row-by-matrix product, contracting the second axis of both operands

Its operand indices at result index `i` and contraction index `q`, one coordinate at a time. -/

theorem lhs_mm_0 (i : S1x256.Idx) (q : dot_S1x2048_S256x2048_S1x256_1_1_0_0_n_n.contr.Idx) :
    (dot_S1x2048_S256x2048_S1x256_1_1_0_0_n_n.lhsIdx i q 0).val = (i 0).val := by
  unfold DotDims.lhsIdx
  rw [dif_neg (show ¬(0 : Fin S1x2048.rank) ∈ dot_S1x2048_S256x2048_S1x256_1_1_0_0_n_n.lhsBatch by decide), dif_pos (show (0 : Fin S1x2048.rank) ∈ dot_S1x2048_S256x2048_S1x256_1_1_0_0_n_n.lhsNonContracting by decide)]
  rfl
theorem lhs_mm_1 (i : S1x256.Idx) (q : dot_S1x2048_S256x2048_S1x256_1_1_0_0_n_n.contr.Idx) :
    (dot_S1x2048_S256x2048_S1x256_1_1_0_0_n_n.lhsIdx i q 1).val = (q ⟨0, by decide⟩).val :=
  dot_S1x2048_S256x2048_S1x256_1_1_0_0_n_n.lhsIdx_val_of_single rfl i q
theorem rhs_mm_0 (i : S1x256.Idx) (q : dot_S1x2048_S256x2048_S1x256_1_1_0_0_n_n.contr.Idx) :
    (dot_S1x2048_S256x2048_S1x256_1_1_0_0_n_n.rhsIdx i q 0).val = (i 1).val := by
  unfold DotDims.rhsIdx
  rw [dif_neg (show ¬(0 : Fin S256x2048.rank) ∈ dot_S1x2048_S256x2048_S1x256_1_1_0_0_n_n.rhsBatch by decide), dif_pos (show (0 : Fin S256x2048.rank) ∈ dot_S1x2048_S256x2048_S1x256_1_1_0_0_n_n.rhsNonContracting by decide)]
  rfl
theorem rhs_mm_1 (i : S1x256.Idx) (q : dot_S1x2048_S256x2048_S1x256_1_1_0_0_n_n.contr.Idx) :
    (dot_S1x2048_S256x2048_S1x256_1_1_0_0_n_n.rhsIdx i q 1).val = (q ⟨0, by decide⟩).val :=
  dot_S1x2048_S256x2048_S1x256_1_1_0_0_n_n.rhsIdx_val_of_single rfl i q

/-- Entry `(0, q)` of the product into the zero accumulator is `∑ k, lhs (0, k) · rhs (q, k)`. -/
theorem mm_apply (lhs : FVec Ideal S1x2048 .bf16) (rhs : FVec Ideal S256x2048 .bf16) (q : Fin 256) :
    matmul (F := Ideal) dot_S1x2048_S256x2048_S1x256_1_1_0_0_n_n none lhs rhs (constant (F := Ideal) S1x256 .f32 0x00000000#32) (ix2 0 q)
      = ∑ k : Fin 2048, lhs (ix2 0 k) * rhs (ix2 q k) := by
  simp only [matmul]
  rw [Ideal.matmul_constant_zero_apply, ← Equiv.sum_comp (ValueIdx.contrEquiv1 dot_S1x2048_S256x2048_S1x256_1_1_0_0_n_n 2048 rfl rfl).symm]
  refine Finset.sum_congr rfl fun k _ => ?_
  have hk := ValueIdx.contrEquiv1_symm_val dot_S1x2048_S256x2048_S1x256_1_1_0_0_n_n 2048 rfl rfl k
  have el : dot_S1x2048_S256x2048_S1x256_1_1_0_0_n_n.lhsIdx (ix2 0 q) ((ValueIdx.contrEquiv1 dot_S1x2048_S256x2048_S1x256_1_1_0_0_n_n 2048 rfl rfl).symm k) = ix2 0 k := funext fun a => Fin.ext (by
    match a with
    | ⟨0, _⟩ => exact lhs_mm_0 _ _
    | ⟨1, _⟩ => exact (lhs_mm_1 _ _).trans hk)
  have er : dot_S1x2048_S256x2048_S1x256_1_1_0_0_n_n.rhsIdx (ix2 0 q) ((ValueIdx.contrEquiv1 dot_S1x2048_S256x2048_S1x256_1_1_0_0_n_n 2048 rfl rfl).symm k) = ix2 q k := funext fun a => Fin.ext (by
    match a with
    | ⟨0, _⟩ => exact rhs_mm_0 _ _
    | ⟨1, _⟩ => exact (rhs_mm_1 _ _).trans hk)
  rw [el, er]

/-! ## The loaded blocks under the format change, the gate slice and the shape casts -/

/-- A weight block narrowed to the short format reads, at the ideal values, the block itself. -/
theorem pay4_apply (x : Vec Ideal S3x256x2048 .f32) (j : S3x256x2048.Idx) : k1_pay4 (F := Ideal) x j = x j := by
  unfold k1_pay4
  show shapeCast S3x256x2048 x shapeCasts_S3x256x2048_S3x256x2048 j = x j
  rw [shapeCast_self]

theorem pay5_apply (x : Vec Ideal S3x256x2048 .f32) (j : S3x256x2048.Idx) : k1_pay5 (F := Ideal) x j = x j := by
  unfold k1_pay5
  show shapeCast S3x256x2048 x shapeCasts_S3x256x2048_S3x256x2048 j = x j
  rw [shapeCast_self]

theorem pay2_apply (x : Vec Ideal S1x2048 .f32) (j : S1x2048.Idx) : k1_pay2 (F := Ideal) x j = x j := by
  unfold k1_pay2
  show shapeCast S1x2048 x shapeCasts_S1x2048_S1x2048 j = x j
  rw [shapeCast_self]

theorem pay3_apply (x : Vec Ideal S1x2048 .f32) (j : S1x2048.Idx) : k1_pay3 (F := Ideal) x j = x j := by
  unfold k1_pay3
  show shapeCast S1x2048 x shapeCasts_S1x2048_S1x2048 j = x j
  rw [shapeCast_self]

theorem pay6_apply (x : Vec Ideal S3x256 .f32) (j : S3x256.Idx) : k1_pay6 (F := Ideal) x j = x j := by
  unfold k1_pay6
  exact congrFun (shapeCast_self x _) j

theorem pay7_apply (x : Vec Ideal S3x256 .f32) (j : S3x256.Idx) : k1_pay7 (F := Ideal) x j = x j := by
  unfold k1_pay7
  exact congrFun (shapeCast_self x _) j

/-- Gate slab `g` of a stacked weight block, viewed as a matrix, reads at `(q, k)` the block at `(g, q, k)`. -/
theorem gate_w_apply (o : Nat) (w : FVec Ideal S3x256x2048 .bf16) (h : S3x256x2048.Slices ![o, 0, 0] S1x256x2048)
    (h' : S1x256x2048.ShapeCasts S256x2048) (g : Fin 3) (hg : g.val = o) (q : Fin 256) (k : Fin 2048) :
    shapeCast S256x2048 (extractStridedSlice S1x256x2048 ![o, 0, 0] w h) h' (ix2 q k) = w (ix3 g q k) :=
  (shapeCast_1ab_ab_apply _ h' q k).trans
    (extractStridedSlice_apply _ w h _ (ix3 g q k) (fun ax => by
      match ax with
      | ⟨0, _⟩ => exact hg.trans (Nat.add_zero _).symm
      | ⟨1, _⟩ => exact (Nat.zero_add _).symm
      | ⟨2, _⟩ => exact (Nat.zero_add _).symm))

/-- Gate row `g` of a stacked bias block reads at `(0, q)` the block at `(g, q)`. -/
theorem gate_b_apply (o : Nat) (b : FVec Ideal S3x256 .f32) (h : S3x256.Slices ![o, 0] S1x256) (g : Fin 3) (hg : g.val = o) (q : Fin 256) :
    extractStridedSlice S1x256 ![o, 0] b h (ix2 0 q) = b (ix2 g q) :=
  slice2_axis0_apply o b h 0 q g (hg.trans (Nat.add_zero _).symm)

/-! ## A gate's pre-activation: the dot product with the gate's weight row, plus the gate's bias entry -/

theorem pre_apply (o : Nat) (l : FVec Ideal S1x2048 .bf16) (w : FVec Ideal S3x256x2048 .bf16) (b : FVec Ideal S3x256 .f32)
    (hs : S3x256x2048.Slices ![o, 0, 0] S1x256x2048) (hc : S1x256x2048.ShapeCasts S256x2048) (hb : S3x256.Slices ![o, 0] S1x256)
    (g : Fin 3) (hg : g.val = o) (q : Fin 256) :
    addf (matmul (F := Ideal) dot_S1x2048_S256x2048_S1x256_1_1_0_0_n_n none l
        (shapeCast S256x2048 (extractStridedSlice S1x256x2048 ![o, 0, 0] w hs) hc)
        (constant (F := Ideal) S1x256 .f32 0x00000000#32))
      (extractStridedSlice S1x256 ![o, 0] b hb) (ix2 0 q)
      = (∑ k : Fin 2048, l (ix2 0 k) * w (ix3 g q k)) + b (ix2 g q) := by
  rw [addf_apply, mm_apply, gate_b_apply o _ hb g hg q]
  congr 1
  refine Finset.sum_congr rfl fun k _ => ?_
  rw [gate_w_apply o _ hs _ g hg q k]

theorem pay8_apply (x : Vec Ideal S1x2048 .f32) (w : Vec Ideal S3x256x2048 .f32) (b : Vec Ideal S3x256 .f32) (q : Fin 256) :
    k1_pay8 (F := Ideal) x w b (ix2 0 q) = (∑ k : Fin 2048, x (ix2 0 k) * w (ix3 0 q k)) + b (ix2 0 q) := by
  unfold k1_pay8
  refine (pre_apply 0 _ _ _ _ _ _ 0 rfl q).trans ?_
  simp only [pay2_apply, pay4_apply, pay6_apply]

theorem pay9_apply (x : Vec Ideal S1x2048 .f32) (w : Vec Ideal S3x256x2048 .f32) (b : Vec Ideal S3x256 .f32) (q : Fin 256) :
    k1_pay9 (F := Ideal) x w b (ix2 0 q) = (∑ k : Fin 2048, x (ix2 0 k) * w (ix3 0 q k)) + b (ix2 0 q) := by
  unfold k1_pay9
  refine (pre_apply 0 _ _ _ _ _ _ 0 rfl q).trans ?_
  simp only [pay3_apply, pay5_apply, pay7_apply]

theorem pay10_apply (x : Vec Ideal S1x2048 .f32) (w : Vec Ideal S3x256x2048 .f32) (b : Vec Ideal S3x256 .f32) (q : Fin 256) :
    k1_pay10 (F := Ideal) x w b (ix2 0 q) = (∑ k : Fin 2048, x (ix2 0 k) * w (ix3 1 q k)) + b (ix2 1 q) := by
  unfold k1_pay10
  refine (pre_apply 1 _ _ _ _ _ _ 1 rfl q).trans ?_
  simp only [pay2_apply, pay4_apply, pay6_apply]

theorem pay11_apply (x : Vec Ideal S1x2048 .f32) (w : Vec Ideal S3x256x2048 .f32) (b : Vec Ideal S3x256 .f32) (q : Fin 256) :
    k1_pay11 (F := Ideal) x w b (ix2 0 q) = (∑ k : Fin 2048, x (ix2 0 k) * w (ix3 1 q k)) + b (ix2 1 q) := by
  unfold k1_pay11
  refine (pre_apply 1 _ _ _ _ _ _ 1 rfl q).trans ?_
  simp only [pay3_apply, pay5_apply, pay7_apply]

/-- The candidate gate's input-side weight matrix reads at `(q, k)` the block at `(2, q, k)`. -/
theorem pay12_apply (w : Vec Ideal S3x256x2048 .f32) (q : Fin 256) (k : Fin 2048) :
    k1_pay12 (F := Ideal) w (ix2 q k) = w (ix3 2 q k) := by
  unfold k1_pay12
  exact (gate_w_apply 2 _ _ _ 2 rfl q k).trans (pay4_apply w _)

/-! ## The stored value at a column, over its operands as variables -/

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- The scalar constant the update gate is subtracted from is the extended real one. -/
theorem one_f32 : (Scalar.ofBits .f32 0x3F800000#32 : Ideal .f32) = (1 : EReal) := Ideal.ofBits_one_f32

theorem pay1_var (v4 v7 : FVec Ideal S1x2048 .bf16) (v13 : FVec Ideal S3x256x2048 .bf16) (v15 v17 : FVec Ideal S3x256 .f32)
    (v25 v27 v35 v37 : FVec Ideal S1x256 .f32) (v39 : FVec Ideal S256x2048 .bf16) (v56 : Vec Ideal S1x256 .f32) (q : Fin 256) :
    k1_pay1 (F := Ideal) v4 v7 v13 v15 v17 v25 v27 v35 v37 v39 v56 (ix3 0 0 q)
      = ((1 : EReal) - Ideal.logistic (v35 (ix2 0 q) + v37 (ix2 0 q)))
          * Ideal.tanh (((∑ k : Fin 2048, v4 (ix2 0 k) * v39 (ix2 q k)) + v15 (ix2 2 q))
              + Ideal.logistic (v25 (ix2 0 q) + v27 (ix2 0 q)) * ((∑ k : Fin 2048, v7 (ix2 0 k) * v13 (ix3 2 q k)) + v17 (ix2 2 q)))
        + Ideal.logistic (v35 (ix2 0 q) + v37 (ix2 0 q)) * v56 (ix2 0 q) := by
  unfold k1_pay1
  refine (shapeCast_ab_1ab_apply _ _ 0 0 q).trans ?_
  simp only [addf_apply, mulf_apply, subf_apply, logistic_apply, tanh_apply, broadcast_apply, one_f32, shapeCast_self]
  rw [mm_apply, mm_apply, gate_b_apply 2 v15 _ 2 rfl q, gate_b_apply 2 v17 _ 2 rfl q]
  simp only [gate_w_apply 2 v13 _ _ 2 rfl q]

/-! ## The stored value at a column is the cell of the loaded blocks' entries -/

theorem pay1_apply (x0 x1 : Vec Ideal S1x2048 .f32) (x2 x3 : Vec Ideal S3x256x2048 .f32) (x4 x5 : Vec Ideal S3x256 .f32) (hc : Vec Ideal S1x256 .f32) (q : Fin 256) :
    k1_pay1 (F := Ideal) (k1_pay2 x0) (k1_pay3 x1) (k1_pay5 x3) (k1_pay6 x4) (k1_pay7 x5) (k1_pay8 x0 x2 x4) (k1_pay9 x1 x3 x5) (k1_pay10 x0 x2 x4) (k1_pay11 x1 x3 x5) (k1_pay12 x2) hc (ix3 0 0 q)
      = Cert.Spec.cell (fun k => x0 (ix2 0 k)) (fun k => x1 (ix2 0 k)) (fun g k => x2 (ix3 g q k)) (fun g k => x3 (ix3 g q k)) (fun g => x4 (ix2 g q)) (fun g => x5 (ix2 g q)) (hc (ix2 0 q)) := by
  refine (pay1_var _ _ _ _ _ _ _ _ _ _ _ q).trans ?_
  simp only [pay2_apply, pay3_apply, pay5_apply, pay6_apply, pay7_apply, pay8_apply, pay9_apply, pay10_apply, pay11_apply, pay12_apply]
  rfl

end Cert.KernelIdeal.PayValue

end
-- ==== Proof.KIBlocks.lean ====
/-
  Region 1's output array after its eight grid points, at the ideal values.

  The mathematics: at point t the output block is columns 256·t … 256·t + 255 of the one row, and the
  stored value at column q of the block is the cell of: the whole input row, the whole hidden row, the
  rows 256·t + q of the three gate slabs of each weight matrix, the entries 256·t + q of the three gate
  rows of each bias, and the hidden entry 256·t + q. Each block's entry is the array's entry at the place
  the block sits, so the stored value is the specification's column 256·t + q; the eight blocks tile the
  2048 columns, the block covering column j being j / 256.
-/
import proofs.«421312_j764504178844_2_alg».proof.Proof.KIRegion1
import proofs.«421312_j764504178844_2_alg».proof.Proof.KIPay
import proofs.«421312_j764504178844_2_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! ## Zero offsets, however spelt -/

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## Where each window's block sits, decided over the eight points -/

/-- The two row windows stay at block (0, 0); the weight windows are at row block `t` of every gate slab; the bias
    windows at column block `t`; the output at column block `t`; the second read of the hidden row starts at
    column `256·t`. -/
theorem place : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 3) = 0 ∧ win1_2.index t (1 : Fin 3) = t.val ∧ win1_2.index t (2 : Fin 3) = 0
    ∧ win1_3.index t (0 : Fin 3) = 0 ∧ win1_3.index t (1 : Fin 3) = t.val ∧ win1_3.index t (2 : Fin 3) = 0
    ∧ win1_4.index t (0 : Fin 2) = 0 ∧ win1_4.index t (1 : Fin 2) = t.val
    ∧ win1_5.index t (0 : Fin 2) = 0 ∧ win1_5.index t (1 : Fin 2) = t.val
    ∧ win1_6.index t (0 : Fin 3) = 0 ∧ win1_6.index t (1 : Fin 3) = 0 ∧ win1_6.index t (2 : Fin 3) = t.val
    ∧ k1_off1 (grid1.coords t) (0 : Fin 2) = 0 ∧ k1_off1 (grid1.coords t) (1 : Fin 2) = 256 * t.val :=
  (by decide +kernel : ∀ t : Fin grid1.N, _)

/-! ## The stored block at a column, over the six blocks as variables -/

/-- Column `q` of what the body leaves in the output's buffer is the cell of the blocks' entries at `q`, the hidden
    entry being the second read's, at the tile's offset. -/
theorem stored_apply (i : grid1.Coords) (x0 x1 : Vec Ideal S1x2048 .f32) (x2 x3 : Vec Ideal S3x256x2048 .f32)
    (x4 x5 : Vec Ideal S3x256 .f32) (q : Fin 256) :
    out1_6 (F := Ideal) i x0 x1 x2 x3 x4 x5 (ix3 0 0 q)
      = Cert.Spec.cell (fun k => x0 (ix2 0 k)) (fun k => x1 (ix2 0 k)) (fun g k => x2 (ix3 g q k)) (fun g k => x3 (ix3 g q k))
          (fun g => x4 (ix2 g q)) (fun g => x5 (ix2 g q)) (x1 ((r1_h i).idx (ix2 0 q))) := by
  unfold out1_6
  rw [View.canon_unit_zero zeros3]
  simp only [View.ld_unit_zero (S := S1x2048) zeros2, View.ld_unit_zero (S := S3x256x2048) zeros3, View.ld_unit_zero (S := S3x256) zeros2]
  exact Cert.KernelIdeal.PayValue.pay1_apply x0 x1 x2 x3 x4 x5 _ q

/-! ## Each input block's entry is the array's entry at the place the block sits -/

section Blocks

variable (V : (c : Dev nD) → (b : Ref sig .tc) → Buf (Elt Ideal) ((c : Thread nD τ).loc b)) (c : Dev nD)

theorem tile_lt (t : Fin cfg1.N) : t.val < 8 := lt_of_lt_of_eq t.isLt N_1

/-- The input row's block is the whole row. -/
theorem blk0_apply (t : Fin cfg1.N) (k : Fin 2048) :
    (iblk1 (F := Ideal) V c 0 t : Vec Ideal S1x2048 .f32) (ix2 0 k) = V c main_v2 (ix2 0 k) := by
  obtain ⟨e0, e1, -⟩ := place t
  unfold iblk1
  show V c main_v2 (((cfg1.win 0).blk t).view.emb (ix2 0 k)) = V c main_v2 (ix2 0 k)
  refine congrArg (V c main_v2) (funext fun a => Fin.ext ?_)
  match a with
  | ⟨0, _⟩ => show win1_0.index t (0 : Fin 2) * 1 + 1 * 0 = 0; omega
  | ⟨1, _⟩ => show win1_0.index t (1 : Fin 2) * 2048 + 1 * k.val = k.val; omega

/-- The hidden row's block is the whole row. -/
theorem blk1_apply (t : Fin cfg1.N) (k : Fin 2048) :
    (iblk1 (F := Ideal) V c 1 t : Vec Ideal S1x2048 .f32) (ix2 0 k) = V c main_v3 (ix2 0 k) := by
  obtain ⟨-, -, e0, e1, -⟩ := place t
  unfold iblk1
  show V c main_v3 (((cfg1.win 1).blk t).view.emb (ix2 0 k)) = V c main_v3 (ix2 0 k)
  refine congrArg (V c main_v3) (funext fun a => Fin.ext ?_)
  match a with
  | ⟨0, _⟩ => show win1_1.index t (0 : Fin 2) * 1 + 1 * 0 = 0; omega
  | ⟨1, _⟩ => show win1_1.index t (1 : Fin 2) * 2048 + 1 * k.val = k.val; omega

/-- The tile's second read of the hidden row, at column `q` of the tile, is the row's entry `256·t + q`. -/
theorem blk1_tile_apply (t : Fin cfg1.N) (q : Fin 256) (j : Fin 2048) (hj : j.val = 256 * t.val + q.val) :
    (iblk1 (F := Ideal) V c 1 t : Vec Ideal S1x2048 .f32) ((r1_h (grid1.coords t)).idx (ix2 0 q)) = V c main_v3 (ix2 0 j) := by
  obtain ⟨-, -, -, -, -, -, -, -, -, -, -, -, -, -, -, -, -, o0, o1⟩ := place t
  have hq : q.val < 256 := q.isLt
  have ht := tile_lt t
  have hcol : (r1_h (grid1.coords t)).idx (ix2 0 q) = ix2 0 j := funext fun a => Fin.ext (by
    match a with
    | ⟨0, _⟩ => show k1_off1 (grid1.coords t) (0 : Fin 2) + 1 * 0 = 0; omega
    | ⟨1, _⟩ => show k1_off1 (grid1.coords t) (1 : Fin 2) + 1 * q.val = j.val; omega)
  rw [hcol]
  exact blk1_apply V c t j

/-- A weight block's entry `(g, q, k)` is the array's entry `(g, 256·t + q, k)`. -/
theorem blk2_apply (t : Fin cfg1.N) (g : Fin 3) (q : Fin 256) (k : Fin 2048) (j : Fin 2048) (hj : j.val = 256 * t.val + q.val) :
    (iblk1 (F := Ideal) V c 2 t : Vec Ideal S3x256x2048 .f32) (ix3 g q k) = V c main_v4 (ix3 g j k) := by
  obtain ⟨-, -, -, -, e0, e1, e2, -⟩ := place t
  unfold iblk1
  show V c main_v4 (((cfg1.win 2).blk t).view.emb (ix3 g q k)) = V c main_v4 (ix3 g j k)
  refine congrArg (V c main_v4) (funext fun a => Fin.ext ?_)
  match a with
  | ⟨0, _⟩ => show win1_2.index t (0 : Fin 3) * 3 + 1 * g.val = g.val; omega
  | ⟨1, _⟩ => show win1_2.index t (1 : Fin 3) * 256 + 1 * q.val = j.val; omega
  | ⟨2, _⟩ => show win1_2.index t (2 : Fin 3) * 2048 + 1 * k.val = k.val; omega

theorem blk3_apply (t : Fin cfg1.N) (g : Fin 3) (q : Fin 256) (k : Fin 2048) (j : Fin 2048) (hj : j.val = 256 * t.val + q.val) :
    (iblk1 (F := Ideal) V c 3 t : Vec Ideal S3x256x2048 .f32) (ix3 g q k) = V c main_v5 (ix3 g j k) := by
  obtain ⟨-, -, -, -, -, -, -, e0, e1, e2, -⟩ := place t
  unfold iblk1
  show V c main_v5 (((cfg1.win 3).blk t).view.emb (ix3 g q k)) = V c main_v5 (ix3 g j k)
  refine congrArg (V c main_v5) (funext fun a => Fin.ext ?_)
  match a with
  | ⟨0, _⟩ => show win1_3.index t (0 : Fin 3) * 3 + 1 * g.val = g.val; omega
  | ⟨1, _⟩ => show win1_3.index t (1 : Fin 3) * 256 + 1 * q.val = j.val; omega
  | ⟨2, _⟩ => show win1_3.index t (2 : Fin 3) * 2048 + 1 * k.val = k.val; omega

/-- A bias block's entry `(g, q)` is the array's entry `(g, 256·t + q)`. -/
theorem blk4_apply (t : Fin cfg1.N) (g : Fin 3) (q : Fin 256) (j : Fin 2048) (hj : j.val = 256 * t.val + q.val) :
    (iblk1 (F := Ideal) V c 4 t : Vec Ideal S3x256 .f32) (ix2 g q) = V c main_v6 (ix2 g j) := by
  obtain ⟨-, -, -, -, -, -, -, -, -, -, e0, e1, -⟩ := place t
  unfold iblk1
  show V c main_v6 (((cfg1.win 4).blk t).view.emb (ix2 g q)) = V c main_v6 (ix2 g j)
  refine congrArg (V c main_v6) (funext fun a => Fin.ext ?_)
  match a with
  | ⟨0, _⟩ => show win1_4.index t (0 : Fin 2) * 3 + 1 * g.val = g.val; omega
  | ⟨1, _⟩ => show win1_4.index t (1 : Fin 2) * 256 + 1 * q.val = j.val; omega

theorem blk5_apply (t : Fin cfg1.N) (g : Fin 3) (q : Fin 256) (j : Fin 2048) (hj : j.val = 256 * t.val + q.val) :
    (iblk1 (F := Ideal) V c 5 t : Vec Ideal S3x256 .f32) (ix2 g q) = V c main_v7 (ix2 g j) := by
  obtain ⟨-, -, -, -, -, -, -, -, -, -, -, -, e0, e1, -⟩ := place t
  unfold iblk1
  show V c main_v7 (((cfg1.win 5).blk t).view.emb (ix2 g q)) = V c main_v7 (ix2 g j)
  refine congrArg (V c main_v7) (funext fun a => Fin.ext ?_)
  match a with
  | ⟨0, _⟩ => show win1_5.index t (0 : Fin 2) * 3 + 1 * g.val = g.val; omega
  | ⟨1, _⟩ => show win1_5.index t (1 : Fin 2) * 256 + 1 * q.val = j.val; omega

end Blocks

/-! ## What a point writes back is its block of the specification -/

section Final

variable (V : (c : Dev nD) → (b : Ref sig .tc) → Buf (Elt Ideal) ((c : Thread nD τ).loc b)) (c : Dev nD)
    (row : Fin 50257) (hid : (⟨3, ![1, 1, 2048]⟩ : Shape).Idx → EReal) (emb : (⟨2, ![50257, 2048]⟩ : Shape).Idx → EReal)
    (wih whh : (⟨2, ![6144, 2048]⟩ : Shape).Idx → EReal) (bih bhh : (⟨1, ![6144]⟩ : Shape).Idx → EReal)

/-- The stored value at column `q` of tile `t` is the specification's column `256·t + q`. -/
theorem stored_eq_hnew
    (h2 : ∀ k : Fin 2048, V c main_v2 (ix2 0 k) = emb (ix2 row k))
    (h3 : ∀ k : Fin 2048, V c main_v3 (ix2 0 k) = hid (ix3 0 0 k))
    (h4 : ∀ (g : Fin 3) (j k : Fin 2048), V c main_v4 (ix3 g j k) = wih (ix2 (Cert.Spec.gr g j) k))
    (h5 : ∀ (g : Fin 3) (j k : Fin 2048), V c main_v5 (ix3 g j k) = whh (ix2 (Cert.Spec.gr g j) k))
    (h6 : ∀ (g : Fin 3) (j : Fin 2048), V c main_v6 (ix2 g j) = bih (ix1 (Cert.Spec.gr g j)))
    (h7 : ∀ (g : Fin 3) (j : Fin 2048), V c main_v7 (ix2 g j) = bhh (ix1 (Cert.Spec.gr g j)))
    (t : Fin cfg1.N) (q : Fin 256) (j : Fin 2048) (hj : j.val = 256 * t.val + q.val) :
    out1_6 (F := Ideal) (grid1.coords t) (iblk1 V c 0 t) (iblk1 V c 1 t) (iblk1 V c 2 t) (iblk1 V c 3 t) (iblk1 V c 4 t) (iblk1 V c 5 t) (ix3 0 0 q)
      = Cert.Spec.hnew row hid emb wih whh bih bhh j := by
  refine (stored_apply (grid1.coords t) (iblk1 V c 0 t) (iblk1 V c 1 t) (iblk1 V c 2 t) (iblk1 V c 3 t) (iblk1 V c 4 t) (iblk1 V c 5 t) q).trans ?_
  unfold Cert.Spec.hnew
  simp only [blk0_apply V c t, blk1_apply V c t, blk1_tile_apply V c t q j hj, blk2_apply V c t _ q _ j hj, blk3_apply V c t _ q _ j hj,
    blk4_apply V c t _ q j hj, blk5_apply V c t _ q j hj, h2, h3, h4, h5, h6, h7]

/-- WHAT POINT `t` WRITES BACK is block `t` of the specification's array. -/
theorem flushed_eq
    (h2 : ∀ k : Fin 2048, V c main_v2 (ix2 0 k) = emb (ix2 row k))
    (h3 : ∀ k : Fin 2048, V c main_v3 (ix2 0 k) = hid (ix3 0 0 k))
    (h4 : ∀ (g : Fin 3) (j k : Fin 2048), V c main_v4 (ix3 g j k) = wih (ix2 (Cert.Spec.gr g j) k))
    (h5 : ∀ (g : Fin 3) (j k : Fin 2048), V c main_v5 (ix3 g j k) = whh (ix2 (Cert.Spec.gr g j) k))
    (h6 : ∀ (g : Fin 3) (j : Fin 2048), V c main_v6 (ix2 g j) = bih (ix1 (Cert.Spec.gr g j)))
    (h7 : ∀ (g : Fin 3) (j : Fin 2048), V c main_v7 (ix2 g j) = bhh (ix1 (Cert.Spec.gr g j)))
    (t : Fin cfg1.N) :
    (dat1 (F := Ideal) V c).flushed 6 t = ((cfg1.win 6).blk t).view.read (Elt Ideal) (Cert.Spec.G row hid emb wih whh bih bhh) := by
  show (cfg1.win 6).cut (grid1.coords t) ((dat1 (F := Ideal) V c).after 6 t) = _
  rw [after1_6]
  funext y
  have hy0 : (y 0).val < 1 := (y 0).isLt
  have hy1 : (y 1).val < 1 := (y 1).isLt
  have hy2 : (y 2).val < 256 := (y 2).isLt
  have ht := tile_lt t
  obtain ⟨-, -, -, -, -, -, -, -, -, -, -, -, -, -, -, -, e2, -⟩ := place t
  -- the block's index by its coordinates: the two unit axes at 0, the column inside the tile
  have hx : (cfg1.win 6).xinj (grid1.coords t) y = ix3 0 0 ⟨(y 2).val, hy2⟩ := by
    funext a; apply Fin.ext
    match a with
    | ⟨0, _⟩ => show (y 0).val = 0; omega
    | ⟨1, _⟩ => show (y 1).val = 0; omega
    | ⟨2, _⟩ => rfl
  refine (congrArg (out1_6 (F := Ideal) (grid1.coords t) (iblk1 V c 0 t) (iblk1 V c 1 t) (iblk1 V c 2 t) (iblk1 V c 3 t) (iblk1 V c 4 t) (iblk1 V c 5 t)) hx).trans ?_
  refine (stored_eq_hnew V c row hid emb wih whh bih bhh h2 h3 h4 h5 h6 h7 t ⟨(y 2).val, hy2⟩ ⟨256 * t.val + (y 2).val, by omega⟩ rfl).trans ?_
  -- the array's index under the block's: column 256·t + the column inside the tile
  show _ = Cert.Spec.G row hid emb wih whh bih bhh (((cfg1.win 6).blk t).view.emb y)
  unfold Cert.Spec.G
  refine congrArg (Cert.Spec.hnew row hid emb wih whh bih bhh) (Fin.ext ?_)
  show 256 * t.val + (y 2).val = win1_6.index t (2 : Fin 3) * 256 + 1 * (y 2).val
  omega

/-! ## The eight blocks tile the array -/

/-- An index of the array is in point `t`'s block iff each coordinate is in the block's range on its axis. -/
theorem mem_blk (t : Fin cfg1.N) (i : S1x1x2048.Idx) :
    i ∈ ((cfg1.win 6).blk t).view.set ↔ ∀ a : Fin 3, win1_6.index t a * S1x1x256.size a ≤ (i a).val ∧ (i a).val < win1_6.index t a * S1x1x256.size a + S1x1x256.size a := by
  show i ∈ ((View.whole main_v8).slice (win1_6.rect t)).set ↔ _
  rw [View.set_slice_whole, Rect.mem_set_unit]
  exact Iff.rfl

/-- Column `j` of the one row is in the block of point `j / 256`, and every point writes back. -/
theorem cover (i : S1x1x2048.Idx) :
    ∃ t : Fin cfg1.N, (cfg1.win 6).flush t = true ∧ i ∈ ((cfg1.win 6).blk t).view.set := by
  have hi0 : (i 0).val < 1 := (i 0).isLt
  have hi1 : (i 1).val < 1 := (i 1).isLt
  have hi2 : (i 2).val < 2048 := (i 2).isLt
  have hN : cfg1.N = 8 := N_1
  obtain ⟨t, ht⟩ : ∃ t : Fin cfg1.N, t.val = (i 2).val / 256 := ⟨⟨(i 2).val / 256, by rw [hN]; omega⟩, rfl⟩
  obtain ⟨-, -, -, -, -, -, -, -, -, -, -, -, -, -, e0, e1, e2, -⟩ := place t
  refine ⟨t, flush1_6 t, ?_⟩
  rw [mem_blk]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 1 ≤ (i 1).val ∧ (i 1).val < win1_6.index t (1 : Fin 3) * 1 + 1; omega
  | ⟨2, _⟩ => show win1_6.index t (2 : Fin 3) * 256 ≤ (i 2).val ∧ (i 2).val < win1_6.index t (2 : Fin 3) * 256 + 256; omega

/-! ## The array after the eight points -/

/-- THE OUTPUT ARRAY after the region: the specification's array, given what the six input arrays hold. -/
theorem arr6_eq
    (h2 : ∀ k : Fin 2048, V c main_v2 (ix2 0 k) = emb (ix2 row k))
    (h3 : ∀ k : Fin 2048, V c main_v3 (ix2 0 k) = hid (ix3 0 0 k))
    (h4 : ∀ (g : Fin 3) (j k : Fin 2048), V c main_v4 (ix3 g j k) = wih (ix2 (Cert.Spec.gr g j) k))
    (h5 : ∀ (g : Fin 3) (j k : Fin 2048), V c main_v5 (ix3 g j k) = whh (ix2 (Cert.Spec.gr g j) k))
    (h6 : ∀ (g : Fin 3) (j : Fin 2048), V c main_v6 (ix2 g j) = bih (ix1 (Cert.Spec.gr g j)))
    (h7 : ∀ (g : Fin 3) (j : Fin 2048), V c main_v7 (ix2 g j) = bhh (ix1 (Cert.Spec.gr g j))) :
    (dat1 (F := Ideal) V c).arrAt 6 cfg1.N = Cert.Spec.G row hid emb wih whh bih bhh :=
  (dat1 (F := Ideal) V c).arrAt_eq_of_cover 6 (Cert.Spec.G row hid emb wih whh bih bhh)
    (fun t _ => flushed_eq V c row hid emb wih whh bih bhh h2 h3 h4 h5 h6 h7 t) cover

end Final

end Cert.KernelIdeal.Blocks

end
-- ==== Proof.PreDecode.lean ====
/-
  What the precondition says of the integer input, decoded. The precondition is a chain of one-bit ands: six conjuncts about
  the float arguments and then, last, "every input word is >= 0" and "every input word is < 50257", each an all-reduction (a
  reduce by and, from 1) of a signed word compare against a broadcast constant over the one input position. A result of 1
  forces both operands of each of the last two ands to be 1; the float conjuncts are never read. The all-reductions being 1
  give the compares at the one position, and the signed compares against 0 and 50257 are the two inequalities on the signed
  value of the word. Everything here is generic in the float family.

  Three word facts follow for a word w with 0 <= w < 50257 (signed): its unsigned value is its signed value; the signed
  max with 0 followed by the signed min with 50256 returns w; and row w of a table of 50257 rows lies inside the table
  (w + 1 <= 50257, the other two offsets being 0).
-/
import proofs.«421312_j764504178844_2_alg».proof.Pre_finite_inputs
import proofs.«421312_j764504178844_2_alg».proof.Proof.Gen.Pre_finite_inputs
import proofs.«421312_j764504178844_2_alg».proof.Kernel
import proofs.«421312_j764504178844_2_alg».proof.KernelIdeal
import Idealize.ShloMosaic.Lib.ValueIdx
import Idealize.ShloMosaic.Lib.ReduceAll
import Idealize.ShloMosaic.Lib.StableHlo.Predicate

namespace Cert.PreDecode

open Idealize.ShloMosaic

/-- A 32-bit word whose signed value is non-negative reads the same unsigned. -/
theorem toNat_of_range (w : BitVec 32) (h : 0 ≤ w.toInt ∧ w.toInt < 50257) : w.toNat = w.toInt.toNat := by
  have hlt := w.isLt
  rw [BitVec.toInt_eq_toNat_cond] at h ⊢
  split at h <;> rename_i hc
  · rw [if_pos hc]; simp
  · omega

/-- Such a word's unsigned value is below 50257. -/
theorem toNat_lt_of_range (w : BitVec 32) (h : 0 ≤ w.toInt ∧ w.toInt < 50257) : w.toNat < 50257 := by
  have hlt := w.isLt
  rw [BitVec.toInt_eq_toNat_cond] at h
  split at h <;> omega

/-- Clipping an in-range word to [0, 50256] changes nothing: the signed max with 0 keeps w (w is not below 0), and the signed
    min of 50256 with w keeps w (50256 is not below w, w being at most 50256). -/
theorem clip_word (w : BitVec 32) (h : 0 ≤ w.toInt ∧ w.toInt < 50257) :
    IntOp.minsi (50256#32) (IntOp.maxsi (0#32) w) = w := by
  have h0 : (0#32 : BitVec 32).toInt = 0 := by decide
  have hhi : (50256#32 : BitVec 32).toInt = 50256 := by decide
  have hmax : IntOp.maxsi (0#32) w = w := by
    unfold IntOp.maxsi
    rw [if_neg]
    simp only [BitVec.slt, h0, decide_eq_true_eq]; omega
  rw [hmax]
  unfold IntOp.minsi
  rw [if_neg]
  simp only [BitVec.slt, hhi, decide_eq_true_eq]; omega

/-- An in-range word names a row inside the table of 50257 rows: per axis, offset + extent of one row <= extent of the table. -/
theorem chk_ideal (w : BitVec 32) (h : 0 ≤ w.toInt ∧ w.toInt < 50257) : Cert.KernelIdeal.k0_chk1 w := by
  have hw := toNat_lt_of_range w h
  intro a
  match a with
  | ⟨0, _⟩ => show w.toNat + 1 ≤ 50257; omega
  | ⟨1, _⟩ => show 0 + 1 ≤ 1; omega
  | ⟨2, _⟩ => show 0 + 2048 ≤ 2048; omega

/-- The same bound for the same offsets, stated for the other reading of the program. -/
theorem chk_bits (w : BitVec 32) (h : 0 ≤ w.toInt ∧ w.toInt < 50257) : Cert.Kernel.k0_chk1 w := by
  have hw := toNat_lt_of_range w h
  intro a
  match a with
  | ⟨0, _⟩ => show w.toNat + 1 ≤ 50257; omega
  | ⟨1, _⟩ => show 0 + 1 ≤ 1; omega
  | ⟨2, _⟩ => show 0 + 2048 ≤ 2048; omega

open Cert.Pre_finite_inputs in
/-- The last two operations of the predicate: a one-bit and of anything with the all-reduction of the signed
    compare "input < c" is 1 only if both are, and the reduction is 1 only if the compare is 1 at the one index. -/
theorem part2_one {F : FTy → Type} [FloatOps F] [Cert.Pre_finite_inputs.Facts]
    (a0 : IVec S1 32) (p : IVec S_ 1) (c : IVec S_ 32) (j : S_.Idx)
    (h : fn_part2 (F := F) a0 p c j = 1#1) :
    p j = 1#1 ∧ IntOp.cmpi .slt (a0 (ValueIdx.ix1 0)) (c ValueIdx.ix0) = 1#1 := by
  haveI : Subsingleton S_.Idx := ⟨fun a b => funext fun d => d.elim0⟩
  have h' : IntOp.andi (p j) (Host.reduce IntOp.andi (cmpi .slt a0 (broadcastInDim S1 ![] Facts.bcast_S_S1 c))
      (constantI S_ 1 1#1) Facts.reducesTo_S1_S_d0 Facts.h_S_ j) = 1#1 := h
  obtain ⟨h1, h2⟩ := IntOp.andi_eq_one.1 h'
  refine ⟨h1, ?_⟩
  have h3 := Host.reduce_andi_all _ _ _ _ j h2 (ValueIdx.ix1 0)
  have hb : broadcastInDim S1 ![] Facts.bcast_S_S1 c (ValueIdx.ix1 0) = c ValueIdx.ix0 := by
    simp only [broadcastInDim]; congr 1; funext a; exact a.elim0
  rw [← hb]; exact h3

open Cert.Pre_finite_inputs in
/-- Operations 25-48, with the float conjuncts left unread: the chain ends in the two ands, so a result of 1
    says the all-reduction of the signed compare "input >= 0" is 1 and the compare "input < 50257" is 1. -/
theorem part1_one {F : FTy → Type} [FloatOps F] [Cert.Pre_finite_inputs.Facts]
    (a0 : IVec S1 32) (a5 a6 : FVec F S6144 .f32) (v13 : IVec S_ 1) (v16 : IVec S6144x2048 1) (j : S_.Idx)
    (h : fn_part1 (F := F) a0 a5 a6 v13 v16 j = 1#1) :
    IntOp.cmpi .sge (a0 (ValueIdx.ix1 0)) (0#32) = 1#1 ∧ IntOp.cmpi .slt (a0 (ValueIdx.ix1 0)) (50257#32) = 1#1 := by
  haveI : Subsingleton S_.Idx := ⟨fun a b => funext fun d => d.elim0⟩
  obtain ⟨hp, hlt⟩ := part2_one (F := F) a0 _ _ j h
  refine ⟨?_, hlt⟩
  -- the first and: its right operand is the all-reduction of the compare against the broadcast 0
  obtain ⟨_, h2⟩ := IntOp.andi_eq_one.1 hp
  have h3 := Host.reduce_andi_all _ _ _ _ j h2 (ValueIdx.ix1 0)
  exact h3

/-- The precondition's two integer conjuncts, read at the one index: 0 <= input < 50257 as signed values. -/
theorem input_range {F : FTy → Type} [FloatOps F] [Cert.Pre_finite_inputs.Facts]
    (a0 : IVec Cert.Pre_finite_inputs.S1 32) (a1 : FVec F Cert.Pre_finite_inputs.S1x1x2048 .f32)
    (a2 : FVec F Cert.Pre_finite_inputs.S50257x2048 .f32) (a3 a4 : FVec F Cert.Pre_finite_inputs.S6144x2048 .f32)
    (a5 a6 : FVec F Cert.Pre_finite_inputs.S6144 .f32)
    (h : Cert.Pre_finite_inputs.fn (F := F) a0 a1 a2 a3 a4 a5 a6 = fun _ => 1#1) :
    0 ≤ (a0 (ValueIdx.ix1 0)).toInt ∧ (a0 (ValueIdx.ix1 0)).toInt < 50257 := by
  have h0 := congrFun h ValueIdx.ix0
  obtain ⟨hge, hlt⟩ := part1_one (F := F) a0 a5 a6 _ _ ValueIdx.ix0 h0
  have z : (0#32 : BitVec 32).toInt = 0 := by decide
  have c : (50257#32 : BitVec 32).toInt = 50257 := by decide
  simp only [IntOp.cmpi, StableHlo.Predicate.ofBool_eq_one_iff, BitVec.sle, BitVec.slt, decide_eq_true_eq, z, c] at hge hlt
  exact ⟨hge, hlt⟩

end Cert.PreDecode
-- ==== Proof.KIValue.lean ====
/-
  The idealized kernel's result array is the specification.

  Region 1's array after its eight column tiles is `Cert.Spec.G` of what its six input arrays hold (the blocks-to-array
  step); those are: the embedding row region 0 copied — the row the table's word names, the word being the index
  clipped to [0, 50256], which for an index in range is the index itself —, the hidden row, and the stacked weights and
  biases reshaped gate by gate.
-/
import proofs.«421312_j764504178844_2_alg».proof.Proof.KIHost
import proofs.«421312_j764504178844_2_alg».proof.Proof.KIRow
import proofs.«421312_j764504178844_2_alg».proof.Proof.KIBlocks
import proofs.«421312_j764504178844_2_alg».proof.Proof.PreDecode
import proofs.«421312_j764504178844_2_alg».proof.Proof.Spec

noncomputable section

namespace Cert.KernelIdeal.FinalValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- For an index in range the table's word is the index. -/
theorem word_eq (c : Dev nD) (hr : 0 ≤ (m ((c : Thread nD τ).loc main_arg0) (ix1 0)).toInt ∧ (m ((c : Thread nD τ).loc main_arg0) (ix1 0)).toInt < 50257) :
    word0 (F := Ideal) c ((adm0 m).1 0) = m ((c : Thread nD τ).loc main_arg0) (ix1 0) :=
  (tbl_word' m c).trans (Cert.PreDecode.clip_word _ hr)

/-- So the side condition the gather's body assumes holds. -/
theorem hyp_of_range (hr : ∀ c : Dev nD, 0 ≤ (m ((c : Thread nD τ).loc main_arg0) (ix1 0)).toInt ∧ (m ((c : Thread nD τ).loc main_arg0) (ix1 0)).toInt < 50257) :
    ∀ c : Dev nD, Hyp0 (F := Ideal) (adm0 m) c := fun c => by
  show k0_chk1 (word0 (F := Ideal) c ((adm0 m).1 0))
  rw [word_eq m c (hr c)]
  exact Cert.PreDecode.chk_ideal _ (hr c)

variable (hH : ∀ c : Dev nD, Hyp0 (F := Ideal) (adm0 m) c)

/-- Region 1's first input array is the embedding row the index names. -/
theorem v2_apply (c : Dev nD) (hr : 0 ≤ (m ((c : Thread nD τ).loc main_arg0) (ix1 0)).toInt ∧ (m ((c : Thread nD τ).loc main_arg0) (ix1 0)).toInt < 50257) (k : Fin 2048) :
    VR5 m hH c main_v2 (ix2 0 k) = m ((c : Thread nD τ).loc main_arg2) (ix2 (Cert.Spec.rowOf (m ((c : Thread nD τ).loc main_arg0) (ix1 0)) hr) k) := by
  have hlt : (word0 (F := Ideal) c ((adm0 m).1 0)).toNat < 50257 := by
    rw [word_eq m c hr]; exact Cert.PreDecode.toNat_lt_of_range _ hr
  have hrow : (⟨(word0 (F := Ideal) c ((adm0 m).1 0)).toNat, hlt⟩ : Fin 50257) = Cert.Spec.rowOf (m ((c : Thread nD τ).loc main_arg0) (ix1 0)) hr :=
    Fin.ext (by show (word0 (F := Ideal) c ((adm0 m).1 0)).toNat = _; rw [word_eq m c hr]; exact Cert.PreDecode.toNat_of_range _ hr)
  rw [VR5_v2 m hH c, arr0_eq m hH c, out0_apply c _ _ _ _ _ _ hlt k, VR3_v1_apply m c _ k, hrow]

/-- THE VALUE: the result array after the run. -/
theorem result_value (c : Dev nD) (hr : 0 ≤ (m ((c : Thread nD τ).loc main_arg0) (ix1 0)).toInt ∧ (m ((c : Thread nD τ).loc main_arg0) (ix1 0)).toInt < 50257) :
    (dat1 (F := Ideal) (VR5 m hH) c).arrAt 6 cfg1.N
      = Cert.Spec.G (Cert.Spec.rowOf (m ((c : Thread nD τ).loc main_arg0) (ix1 0)) hr) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) :=
  Cert.KernelIdeal.Blocks.arr6_eq (VR5 m hH) c _ _ _ _ _ _ _
    (v2_apply m hH c hr) (VR5_v3_apply m hH c) (VR5_v4_apply m hH c) (VR5_v5_apply m hH c) (VR5_v6_apply m hH c) (VR5_v7_apply m hH c)

end Cert.KernelIdeal.FinalValue

end
-- ==== Proof.RefValue.lean ====
/-
  The reference's result, read on the extended reals, is the GRU cell of the specification.

  Under the range hypothesis `0 ≤ input < 50257` the wrap-around select keeps the index word and the
  gather's clamp into `[0, 50256]` does nothing, so the gathered row is the embedding row the word names.
  Each of the two matrix products against a transposed weight matrix is, at stacked column `c`, the dot
  product of the input row with weight row `c`; the slice at offset `2048·g` turns column `j` into stacked
  column `g·2048 + j`; `1 / (1 + e^{-x})` is the logistic function by definition, the word `0x3F800000` being
  the number one; and the last two broadcasts only add a unit axis.
-/
import proofs.«421312_j764504178844_2_alg».proof.Defs
import proofs.«421312_j764504178844_2_alg».proof.Proof.Gen.ReferenceIdeal.Run
import proofs.«421312_j764504178844_2_alg».proof.Proof.Gen.ReferenceIdeal.Read
import proofs.«421312_j764504178844_2_alg».proof.Proof.Spec
import Idealize.ShloMosaic.Lib.Affine
import Idealize.ShloMosaic.Lib.ValueIdx
import Idealize.ShloMosaic.PureOps.Ideal

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

theorem gather_axis0 {w : Nat} (y : S1x2048.Idx) (idx : IVec S1x1 w) :
    (gather_S50257x2048_S1x1_S1x2048_1_0_n_n_0_1_12048.operandIdx y idx 0).val
      = min (idx (ix2 (0 : Fin 1) (0 : Fin 1))).toInt.toNat 50256 := by
  show gather_S50257x2048_S1x1_S1x2048_1_0_n_n_0_1_12048.start y idx 0 + gather_S50257x2048_S1x1_S1x2048_1_0_n_n_0_1_12048.batchCoord y 0 + gather_S50257x2048_S1x1_S1x2048_1_0_n_n_0_1_12048.offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S50257x2048_S1x1_S1x2048_1_0_n_n_0_1_12048.startIndexMap from List.mem_singleton.mpr rfl)]
  have hsi : gather_S50257x2048_S1x1_S1x2048_1_0_n_n_0_1_12048.siIdx y ⟨List.idxOf (0 : Fin 2) gather_S50257x2048_S1x1_S1x2048_1_0_n_n_0_1_12048.startIndexMap,
      List.idxOf_lt_length_iff.2 (List.mem_singleton.mpr rfl)⟩ = ix2 (0 : Fin 1) (0 : Fin 1) := by
    funext b; refine Fin.ext ?_
    match b with
    | ⟨0, _⟩ =>
      have h0 : (y 0).val < 1 := idx2_lt0 y
      show (y 0).val = 0
      omega
    | ⟨1, _⟩ => rfl
  rw [hsi]
  rfl

theorem gather_axis1 {w : Nat} (y : S1x2048.Idx) (idx : IVec S1x1 w) :
    (gather_S50257x2048_S1x1_S1x2048_1_0_n_n_0_1_12048.operandIdx y idx 1).val = (y 1).val := by
  show gather_S50257x2048_S1x1_S1x2048_1_0_n_n_0_1_12048.start y idx 1 + gather_S50257x2048_S1x1_S1x2048_1_0_n_n_0_1_12048.batchCoord y 1 + gather_S50257x2048_S1x1_S1x2048_1_0_n_n_0_1_12048.offCoord y 1 = _
  rw [GatherDims.batchCoord_eq_zero _ _ _ List.not_mem_nil]
  unfold GatherDims.start
  rw [dif_neg (show ¬ (1 : Fin 2) ∈ gather_S50257x2048_S1x1_S1x2048_1_0_n_n_0_1_12048.startIndexMap by decide)]
  simp only [Nat.add_zero, Nat.zero_add]
  unfold GatherDims.offCoord
  rw [dif_pos (show (1 : Fin 2) ∈ gather_S50257x2048_S1x1_S1x2048_1_0_n_n_0_1_12048.sKept by decide)]
  rfl

/-- The gather read at `(0, c)`: the table's row at the start index, read signed and clamped into `[0, 50256]`, at column `c`. -/
theorem gather_row_apply {α : Type} {w : Nat} (x : S50257x2048.Idx → α) (idx : IVec S1x1 w) (c : Fin 2048) :
    Host.gather gather_S50257x2048_S1x1_S1x2048_1_0_n_n_0_1_12048 x idx (ix2 (0 : Fin 1) c)
      = x (ix2 (⟨min (idx (ix2 (0 : Fin 1) (0 : Fin 1))).toInt.toNat 50256, by omega⟩ : Fin 50257) c) := by
  unfold Host.gather
  congr 1
  funext a
  refine Fin.ext ?_
  match a with
  | ⟨0, _⟩ => exact gather_axis0 _ _
  | ⟨1, _⟩ => exact gather_axis1 _ _

/-! ## The start index: in range, the select keeps the word and the clamp does nothing -/

theorem idx5_00 : idx_main_v5 (ix2 (0 : Fin 1) (0 : Fin 1)) = ix1 (0 : Fin 1) := by
  funext a; match a with | ⟨0, _⟩ => rfl

theorem start_word (x0 : (⟨S1, .i32⟩ : BufTy).Contents (Elt Ideal)) (h0 : 0 ≤ (x0 (ix1 0)).toInt) :
    val_main_v5 (F := Ideal) x0 (ix2 (0 : Fin 1) (0 : Fin 1)) = x0 (ix1 0) := by
  rw [val_main_v5_apply, idx5_00, val_main_v4_apply, val_main_v1_apply, val_main_v0_apply, val_main_c_apply]
  refine if_neg (fun h => ?_)
  have := IntOp.cmpi_slt.mp h
  rw [BitVec.toInt_zero] at this
  omega

theorem v6_at (x0 : (⟨S1, .i32⟩ : BufTy).Contents (Elt Ideal)) (x2 : (⟨S50257x2048, .f32⟩ : BufTy).Contents (Elt Ideal))
    (hr : 0 ≤ (x0 (ix1 0)).toInt ∧ (x0 (ix1 0)).toInt < 50257) (k : Fin 2048) :
    val_main_v6 (F := Ideal) x0 x2 (ix2 (0 : Fin 1) k) = x2 (ix2 (Cert.Spec.rowOf (x0 (ix1 0)) hr) k) := by
  unfold val_main_v6
  rw [gather_row_apply]
  congr 2
  refine Fin.ext ?_
  show min (val_main_v5 (F := Ideal) x0 (ix2 (0 : Fin 1) (0 : Fin 1))).toInt.toNat 50256 = (x0 (ix1 0)).toInt.toNat
  rw [start_word x0 hr.1]
  omega

/-! ## The two matrix products at a column -/

theorem lidx9_at (c : Fin 6144) (k : Fin 2048) : lidx_main_v9 (ix2 (0 : Fin 1) c) k = ix2 (0 : Fin 1) k := by
  funext a; match a with | ⟨0, _⟩ => rfl | ⟨1, _⟩ => rfl
theorem ridx9_at (c : Fin 6144) (k : Fin 2048) : ridx_main_v9 (ix2 (0 : Fin 1) c) k = ix2 k c := by
  funext a; match a with | ⟨0, _⟩ => rfl | ⟨1, _⟩ => rfl
theorem idx8_at (c : Fin 6144) (k : Fin 2048) : idx_main_v8 (ix2 k c) = ix2 c k := by
  funext a; match a with | ⟨0, _⟩ => rfl | ⟨1, _⟩ => rfl
theorem idx10_at (c : Fin 6144) : idx_main_v10 (ix2 (0 : Fin 1) c) = ix1 c := by
  funext a; match a with | ⟨0, _⟩ => rfl
theorem lidx13_at (c : Fin 6144) (k : Fin 2048) : lidx_main_v13 (ix2 (0 : Fin 1) c) k = ix2 (0 : Fin 1) k := by
  funext a; match a with | ⟨0, _⟩ => rfl | ⟨1, _⟩ => rfl
theorem ridx13_at (c : Fin 6144) (k : Fin 2048) : ridx_main_v13 (ix2 (0 : Fin 1) c) k = ix2 k c := by
  funext a; match a with | ⟨0, _⟩ => rfl | ⟨1, _⟩ => rfl
theorem idx12_at (c : Fin 6144) (k : Fin 2048) : idx_main_v12 (ix2 k c) = ix2 c k := by
  funext a; match a with | ⟨0, _⟩ => rfl | ⟨1, _⟩ => rfl
theorem idx14_at (c : Fin 6144) : idx_main_v14 (ix2 (0 : Fin 1) c) = ix1 c := by
  funext a; match a with | ⟨0, _⟩ => rfl
theorem idx7_at (k : Fin 2048) : idx_main_v7 (ix2 (0 : Fin 1) k) = ix3 (0 : Fin 1) (0 : Fin 1) k := by
  funext a; refine Fin.ext ?_
  match a with
  | ⟨0, _⟩ => rfl
  | ⟨1, _⟩ => rfl
  | ⟨2, _⟩ =>
    have hk : k.val < 2048 := k.isLt
    show (0 * 2048 + k.val) % 2048 = k.val
    omega

theorem v7_at (x1 : (⟨S1x1x2048, .f32⟩ : BufTy).Contents (Elt Ideal)) (k : Fin 2048) :
    val_main_v7 (F := Ideal) x1 (ix2 (0 : Fin 1) k) = x1 (ix3 (0 : Fin 1) (0 : Fin 1) k) := by
  rw [val_main_v7_apply, idx7_at]

/-- Input-side pre-activation at stacked column `c`: the embedding row against weight row `c`, plus the bias. -/
theorem v11_at (x0 : (⟨S1, .i32⟩ : BufTy).Contents (Elt Ideal)) (x2 : (⟨S50257x2048, .f32⟩ : BufTy).Contents (Elt Ideal))
    (x3 : (⟨S6144x2048, .f32⟩ : BufTy).Contents (Elt Ideal)) (x5 : (⟨S6144, .f32⟩ : BufTy).Contents (Elt Ideal))
    (hr : 0 ≤ (x0 (ix1 0)).toInt ∧ (x0 (ix1 0)).toInt < 50257) (c : Fin 6144) :
    val_main_v11 (F := Ideal) x0 x2 x3 x5 (ix2 (0 : Fin 1) c)
      = (∑ k : Fin 2048, x2 (ix2 (Cert.Spec.rowOf (x0 (ix1 0)) hr) k) * x3 (ix2 c k)) + x5 (ix1 c) := by
  rw [val_main_v11_apply, val_main_v9_apply, val_main_v10_apply, idx10_at, Ideal.addf_def]
  congr 1
  refine Finset.sum_congr rfl fun k _ => ?_
  rw [lidx9_at, ridx9_at, val_main_v8_apply, idx8_at, v6_at x0 x2 hr]

/-- Hidden-side pre-activation at stacked column `c`. -/
theorem v15_at (x1 : (⟨S1x1x2048, .f32⟩ : BufTy).Contents (Elt Ideal))
    (x4 : (⟨S6144x2048, .f32⟩ : BufTy).Contents (Elt Ideal)) (x6 : (⟨S6144, .f32⟩ : BufTy).Contents (Elt Ideal)) (c : Fin 6144) :
    val_main_v15 (F := Ideal) x1 x4 x6 (ix2 (0 : Fin 1) c)
      = (∑ k : Fin 2048, x1 (ix3 (0 : Fin 1) (0 : Fin 1) k) * x4 (ix2 c k)) + x6 (ix1 c) := by
  rw [val_main_v15_apply, val_main_v13_apply, val_main_v14_apply, idx14_at, Ideal.addf_def]
  congr 1
  refine Finset.sum_congr rfl fun k _ => ?_
  rw [lidx13_at, ridx13_at, val_main_v12_apply, idx12_at, v7_at]

/-! ## The six gate slices: column `j` of slab `g` is stacked column `g·2048 + j` -/

theorem idx16_at (j : Fin 2048) : idx_main_v16 (ix2 (0 : Fin 1) j) = ix2 (0 : Fin 1) (Cert.Spec.gr 0 j) := by
  funext a; refine Fin.ext ?_
  match a with
  | ⟨0, _⟩ => rfl
  | ⟨1, _⟩ => show j.val = 0 * 2048 + j.val; omega
theorem idx17_at (j : Fin 2048) : idx_main_v17 (ix2 (0 : Fin 1) j) = ix2 (0 : Fin 1) (Cert.Spec.gr 1 j) := by
  funext a; refine Fin.ext ?_
  match a with
  | ⟨0, _⟩ => rfl
  | ⟨1, _⟩ => show 2048 + j.val = 1 * 2048 + j.val; omega
theorem idx18_at (j : Fin 2048) : idx_main_v18 (ix2 (0 : Fin 1) j) = ix2 (0 : Fin 1) (Cert.Spec.gr 2 j) := by
  funext a; refine Fin.ext ?_
  match a with
  | ⟨0, _⟩ => rfl
  | ⟨1, _⟩ => show 4096 + j.val = 2 * 2048 + j.val; omega
theorem idx19_at (j : Fin 2048) : idx_main_v19 (ix2 (0 : Fin 1) j) = ix2 (0 : Fin 1) (Cert.Spec.gr 0 j) := by
  funext a; refine Fin.ext ?_
  match a with
  | ⟨0, _⟩ => rfl
  | ⟨1, _⟩ => show j.val = 0 * 2048 + j.val; omega
theorem idx20_at (j : Fin 2048) : idx_main_v20 (ix2 (0 : Fin 1) j) = ix2 (0 : Fin 1) (Cert.Spec.gr 1 j) := by
  funext a; refine Fin.ext ?_
  match a with
  | ⟨0, _⟩ => rfl
  | ⟨1, _⟩ => show 2048 + j.val = 1 * 2048 + j.val; omega
theorem idx21_at (j : Fin 2048) : idx_main_v21 (ix2 (0 : Fin 1) j) = ix2 (0 : Fin 1) (Cert.Spec.gr 2 j) := by
  funext a; refine Fin.ext ?_
  match a with
  | ⟨0, _⟩ => rfl
  | ⟨1, _⟩ => show 4096 + j.val = 2 * 2048 + j.val; omega

theorem idx44_at (j : Fin 2048) : idx_main_v44 (ix3 (0 : Fin 1) (0 : Fin 1) j) = ix2 (0 : Fin 1) j := by
  funext a; match a with | ⟨0, _⟩ => rfl | ⟨1, _⟩ => rfl
theorem idx45_at (j : Fin 2048) : idx_main_v45 (ix3 (0 : Fin 1) (0 : Fin 1) j) = ix2 (0 : Fin 1) j := by
  funext a; match a with | ⟨0, _⟩ => rfl | ⟨1, _⟩ => rfl

/-- The word `0x3F800000` is the real number one. -/
theorem one_word : Ideal.ofBits .f32 0x3F800000#32 = (1 : EReal) := by
  simp [Ideal.ofBits, Ideal.ieee, -EReal.coe_mul]; norm_num

/-! ## The cell at a column -/

theorem v43_at (x0 : (⟨S1, .i32⟩ : BufTy).Contents (Elt Ideal)) (x1 : (⟨S1x1x2048, .f32⟩ : BufTy).Contents (Elt Ideal)) (x2 : (⟨S50257x2048, .f32⟩ : BufTy).Contents (Elt Ideal)) (x3 x4 : (⟨S6144x2048, .f32⟩ : BufTy).Contents (Elt Ideal)) (x5 x6 : (⟨S6144, .f32⟩ : BufTy).Contents (Elt Ideal))
    (hr : 0 ≤ (x0 (ix1 0)).toInt ∧ (x0 (ix1 0)).toInt < 50257) (j : Fin 2048) :
    val_main_v43 (F := Ideal) x0 x1 x2 x3 x4 x5 x6 (ix2 (0 : Fin 1) j)
      = Cert.Spec.hnew (Cert.Spec.rowOf (x0 (ix1 0)) hr) x1 x2 x3 x4 x5 x6 j := by
  rw [val_main_v43_apply, val_main_v41_apply, val_main_v42_apply, val_main_v40_apply, val_main_v39_apply, val_main_cst_4_apply,
    val_main_v38_apply, val_main_v37_apply, val_main_v36_apply, val_main_v35_apply, val_main_v34_apply, val_main_cst_3_apply,
    val_main_v33_apply, val_main_v32_apply, val_main_cst_2_apply, val_main_v31_apply, val_main_v30_apply, val_main_v29_apply,
    val_main_v28_apply, val_main_v27_apply, val_main_cst_1_apply, val_main_v26_apply, val_main_v25_apply, val_main_cst_apply,
    val_main_v24_apply, val_main_v23_apply, val_main_v22_apply,
    val_main_v16_apply, val_main_v17_apply, val_main_v18_apply, val_main_v19_apply, val_main_v20_apply, val_main_v21_apply,
    idx16_at, idx17_at, idx18_at, idx19_at, idx20_at, idx21_at,
    v11_at x0 x2 x3 x5 hr, v11_at x0 x2 x3 x5 hr, v11_at x0 x2 x3 x5 hr, v15_at, v15_at, v15_at, v7_at]
  simp only [Ideal.addf_def, Ideal.subf_def, Ideal.mulf_def, Ideal.hostDivf_def, Ideal.hostUnary_exp_def, Ideal.hostUnary_tanh_def,
    Ideal.hostNegf_def, Ideal.negf_def, Ideal.ofBits_def, one_word]
  rfl

/-! ## The reference's two results are the specification -/

theorem result_eq (x0 : (⟨S1, .i32⟩ : BufTy).Contents (Elt Ideal)) (x1 : (⟨S1x1x2048, .f32⟩ : BufTy).Contents (Elt Ideal)) (x2 : (⟨S50257x2048, .f32⟩ : BufTy).Contents (Elt Ideal)) (x3 x4 : (⟨S6144x2048, .f32⟩ : BufTy).Contents (Elt Ideal)) (x5 x6 : (⟨S6144, .f32⟩ : BufTy).Contents (Elt Ideal))
    (hr : 0 ≤ (x0 (ValueIdx.ix1 0)).toInt ∧ (x0 (ValueIdx.ix1 0)).toInt < 50257) :
    Cert.ReferenceIdeal.Read.val_main_v44 (F := Ideal) x0 x1 x2 x3 x4 x5 x6 = Cert.Spec.G (Cert.Spec.rowOf (x0 (ValueIdx.ix1 0)) hr) x1 x2 x3 x4 x5 x6 := by
  funext i
  obtain ⟨a, b, j, rfl⟩ : ∃ (a b : Fin 1) (j : Fin 2048), i = ix3 a b j := ⟨i 0, i 1, i 2, eq_ix3 i⟩
  obtain rfl : a = 0 := Subsingleton.elim _ _
  obtain rfl : b = 0 := Subsingleton.elim _ _
  rw [Cert.Spec.G_apply, val_main_v44_apply, idx44_at, v43_at x0 x1 x2 x3 x4 x5 x6 hr]

theorem result_eq' (x0 : (⟨S1, .i32⟩ : BufTy).Contents (Elt Ideal)) (x1 : (⟨S1x1x2048, .f32⟩ : BufTy).Contents (Elt Ideal)) (x2 : (⟨S50257x2048, .f32⟩ : BufTy).Contents (Elt Ideal)) (x3 x4 : (⟨S6144x2048, .f32⟩ : BufTy).Contents (Elt Ideal)) (x5 x6 : (⟨S6144, .f32⟩ : BufTy).Contents (Elt Ideal))
    (hr : 0 ≤ (x0 (ValueIdx.ix1 0)).toInt ∧ (x0 (ValueIdx.ix1 0)).toInt < 50257) :
    Cert.ReferenceIdeal.Read.val_main_v45 (F := Ideal) x0 x1 x2 x3 x4 x5 x6 = Cert.Spec.G (Cert.Spec.rowOf (x0 (ValueIdx.ix1 0)) hr) x1 x2 x3 x4 x5 x6 := by
  funext i
  obtain ⟨a, b, j, rfl⟩ : ∃ (a b : Fin 1) (j : Fin 2048), i = ix3 a b j := ⟨i 0, i 1, i 2, eq_ix3 i⟩
  obtain rfl : a = 0 := Subsingleton.elim _ _
  obtain rfl : b = 0 := Subsingleton.elim _ _
  rw [Cert.Spec.G_apply, val_main_v45_apply, idx45_at, v43_at x0 x1 x2 x3 x4 x5 x6 hr]

end Cert.ReferenceIdeal.RefValue
end
-- ==== Proof.lean ====
/-
  One step of a GRU cell, batch 1: the kernel against its jnp reference, over the extended reals.

  The kernel clips the token index to [0, 50256], copies that one row of the embedding table by a manual transfer
  (first pallas_call: the clipped index is a scalar-prefetched table), and computes the gates in eight column tiles of
  256 (second pallas_call): for gate g and column j the pre-activations are the dot products of the embedding row and
  of the hidden row with weight row g·2048 + j plus the biases, r = σ(i_r + h_r), z = σ(i_z + h_z),
  n = tanh(i_n + r·h_n), and the new hidden entry is (1 − z)·n + z·h_j.  The reference gathers the row (a negative
  index wrapping round), multiplies by the transposed weights, slices the three gates and applies the same formulas,
  σ spelled 1/(1 + e^{-x}).  Read on the extended reals the bf16 roundings are the identity and σ is that quotient, so
  for an index in [0, 50257) — where clipping and wrapping both do nothing — the two results are one function of
  the arguments, `Cert.Spec.G`: sums over the same products in the same order, tile by tile on one side and whole on
  the other.

  The frames: the kernel's @main as six segments (three host stretches, the gather region, the reshapes, the GRU
  region), the gather's body run with the prefetched word, its row transfer and its wait; the side condition the body
  assumes of the word (it names a row of the table) holds because for an index in range the clipped word is the index.  The reference's frame is its run.
  The ideal pass rewrote nothing, so `preserves` is trivial.
-/
import proofs.«421312_j764504178844_2_alg».proof.Defs
import proofs.«421312_j764504178844_2_alg».proof.Proof.Gen.Kernel
import proofs.«421312_j764504178844_2_alg».proof.Proof.Gen.KernelIdeal
import proofs.«421312_j764504178844_2_alg».proof.Proof.Gen.ReferenceIdeal
import proofs.«421312_j764504178844_2_alg».proof.Proof.Gen.Pre_finite_inputs
import proofs.«421312_j764504178844_2_alg».proof.Proof.Gen.ReferenceIdeal.Run
import proofs.«421312_j764504178844_2_alg».proof.Proof.Gen.ReferenceIdeal.Read
import proofs.«421312_j764504178844_2_alg».proof.Proof.KRun
import proofs.«421312_j764504178844_2_alg».proof.Proof.KHost
import proofs.«421312_j764504178844_2_alg».proof.Proof.KIRun
import proofs.«421312_j764504178844_2_alg».proof.Proof.KIValue
import proofs.«421312_j764504178844_2_alg».proof.Proof.RefValue
import proofs.«421312_j764504178844_2_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

/-! ## The index is in range, and the word the gather's body loads names a row -/

theorem range_bits (m : (ℓ : Loc Cert.Kernel.nD Cert.Kernel.τ Cert.Kernel.sig) → Buf (Elt Bits) ℓ) (h : Cert.Pre_Kernel m) (c : Dev Cert.Kernel.nD) :
    0 ≤ (m ((c.tc : Thread Cert.Kernel.nD Cert.Kernel.τ).loc Cert.Kernel.main_arg0) (ix1 0)).toInt
      ∧ (m ((c.tc : Thread Cert.Kernel.nD Cert.Kernel.τ).loc Cert.Kernel.main_arg0) (ix1 0)).toInt < 50257 :=
  Cert.PreDecode.input_range (F := Bits) _ _ _ _ _ _ _ (h c)

theorem range_ideal (m : (ℓ : Loc Cert.KernelIdeal.nD Cert.KernelIdeal.τ Cert.KernelIdeal.sig) → Buf (Elt Ideal) ℓ) (h : Cert.Pre_KernelIdeal m) (c : Dev Cert.KernelIdeal.nD) :
    0 ≤ (m ((c.tc : Thread Cert.KernelIdeal.nD Cert.KernelIdeal.τ).loc Cert.KernelIdeal.main_arg0) (ix1 0)).toInt
      ∧ (m ((c.tc : Thread Cert.KernelIdeal.nD Cert.KernelIdeal.τ).loc Cert.KernelIdeal.main_arg0) (ix1 0)).toInt < 50257 :=
  Cert.PreDecode.input_range (F := Ideal) _ _ _ _ _ _ _ (h c)

/-- At the word level: the clipped index names a row of the embedding table. -/
theorem hyp_bits (m : (ℓ : Loc Cert.Kernel.nD Cert.Kernel.τ Cert.Kernel.sig) → Buf (Elt Bits) ℓ) (h : Cert.Pre_Kernel m) :
    ∀ c : Dev Cert.Kernel.nD, Cert.Kernel.Hand.Hyp0 (F := Bits) (Cert.Kernel.Hand.adm0 m) c := fun c => by
  show Cert.Kernel.k0_chk1 (Cert.Kernel.Hand.word0 (F := Bits) c ((Cert.Kernel.Hand.adm0 m).1 0))
  rw [Cert.Kernel.Hand.tbl_word' m c, Cert.PreDecode.clip_word _ (range_bits m h c)]
  exact Cert.PreDecode.chk_bits _ (range_bits m h c)

/-! ## The claims -/

theorem frame_k : Cert.frame_Kernel := fun m ρ h =>
  (θ_run Cert.Kernel.defs _ _).mono (fun _ hr c => (hr c).2) (Cert.Kernel.Hand.run_main m ρ (hyp_bits m h))

theorem frame_ki : Cert.frame_KernelIdeal := fun m ρ h =>
  (θ_run Cert.KernelIdeal.defs _ _).mono (fun _ hr c => (hr c).2)
    (Cert.KernelIdeal.Hand.run_main m ρ (Cert.KernelIdeal.FinalValue.hyp_of_range m (range_ideal m h)))

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the result at `Cert.Spec.G` of the arguments, the embedding row the one the index names. -/
theorem algebraic : Cert.algebraic_KernelIdeal_ReferenceIdeal := by
  intro m ρ m' ρ' hpre hagree
  have hr := range_ideal m hpre
  have hH := Cert.KernelIdeal.FinalValue.hyp_of_range m hr
  refine ⟨fun c => Cert.Spec.G (Cert.Spec.rowOf _ (hr c)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => Cert.Spec.G (Cert.Spec.rowOf _ (hr c)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun _ h c => ?_) (Cert.KernelIdeal.Hand.run_main m ρ hH)
    have hv := (h c).1.trans (Cert.KernelIdeal.FinalValue.result_value m hH c (hr c))
    exact ⟨hv, hv, (h c).2⟩
  · refine (θ_run Cert.ReferenceIdeal.defs _ _).mono (fun _ h c => ?_) (Cert.ReferenceIdeal.Value.run (F := Ideal) m' ρ')
    obtain ⟨e0, e1, e2, e3, e4, e5, e6⟩ := hagree c
    have k44 := (h c).1.trans (Cert.ReferenceIdeal.Read.val_main_v44_eq (F := Ideal) m' c)
    have k45 := (h c).2.1.trans (Cert.ReferenceIdeal.Read.val_main_v45_eq (F := Ideal) m' c)
    rw [e0, e1, e2, e3, e4, e5, e6] at k44 k45
    exact ⟨k44.trans (Cert.ReferenceIdeal.RefValue.result_eq _ _ _ _ _ _ _ (hr c)),
      k45.trans (Cert.ReferenceIdeal.RefValue.result_eq' _ _ _ _ _ _ _ (hr c)), (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
